-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S_ : Shape := ⟨0, ![]⟩
abbrev S1x160000 : Shape := ⟨2, ![1, 160000]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  slices_S2x160000_S1x160000_1_0 : S2x160000.Slices ![1, 0] S1x160000
  bcast_S_S1x160000 : S_.BroadcastsInDim S1x160000 (![] : Fin 0 → Fin S1x160000.rank)
  reducesTo_S1x160000_S_d0_1 : S1x160000.ReducesTo [0, 1] S_

variable [Facts]

def fn_part1 {F : FTy → Type} [FloatOps F] (main_arg1 : IVec S2x160000 32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : IVec S1x160000 32 := (extractStridedSlice S1x160000 ![1, 0] · slices_S2x160000_S1x160000_1_0) main_arg1
  let main_c_6 : IVec S_ 32 := constantI S_ 32 0#32
  let main_v20 : IVec S1x160000 32 := broadcastInDim S1x160000 ![] bcast_S_S1x160000 main_c_6
  let main_v21 : IVec S1x160000 1 := cmpi .sge main_v19 main_v20
  let main_v22 : IVec S1x160000 32 := (extractStridedSlice S1x160000 ![1, 0] · slices_S2x160000_S1x160000_1_0) main_arg1
  let main_c_7 : IVec S_ 32 := constantI S_ 32 10000#32
  let main_v23 : IVec S1x160000 32 := broadcastInDim S1x160000 ![] bcast_S_S1x160000 main_c_7
  let main_v24 : IVec S1x160000 1 := cmpi .slt main_v22 main_v23
  let main_v25 : IVec S1x160000 1 := andi main_v21 main_v24
  let main_c_8 : IVec S_ 1 := constantI S_ 1 1#1
  let main_v26 : IVec S_ 1 := (fun x v => Host.reduce IntOp.andi x v reducesTo_S1x160000_S_d0_1 h_S_) main_v25 main_c_8
  let main_v27 : IVec S_ 1 := andi main_v18 main_v26
  main_v27

def fn {F : FTy → Type} [FloatOps F] (main_arg0 : FVec F S10000x256 .f32) (main_arg1 : IVec S2x160000 32) (main_arg2 : FVec F S256x256 .f32) (main_arg3 : FVec F S256x256 .f32) (main_arg4 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_v13 main_v16
-- ==== Kernel.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x160000 : Shape := ⟨2, ![1, 160000]⟩
abbrev S160000 : Shape := ⟨1, ![160000]⟩
abbrev S160000x1 : Shape := ⟨2, ![160000, 1]⟩
abbrev S_ : Shape := ⟨0, ![]⟩
abbrev S10240x256 : Shape := ⟨2, ![10240, 256]⟩
abbrev S2x10240x256 : Shape := ⟨3, ![2, 10240, 256]⟩
abbrev S2x10240x128 : Shape := ⟨3, ![2, 10240, 128]⟩
abbrev S640x1 : Shape := ⟨2, ![640, 1]⟩
abbrev S1x10240x256 : Shape := ⟨3, ![1, 10240, 256]⟩
abbrev S1x10240x128 : Shape := ⟨3, ![1, 10240, 128]⟩
abbrev S10240x128 : Shape := ⟨2, ![10240, 128]⟩
abbrev S640x1280 : Shape := ⟨2, ![640, 1280]⟩
abbrev S640x256 : Shape := ⟨2, ![640, 256]⟩
abbrev S1280x256 : Shape := ⟨2, ![1280, 256]⟩
abbrev S640x128 : Shape := ⟨2, ![640, 128]⟩
abbrev S1x1280x256 : Shape := ⟨3, ![1, 1280, 256]⟩
abbrev S1x1280x128 : Shape := ⟨3, ![1, 1280, 128]⟩
abbrev S1280x128 : Shape := ⟨2, ![1280, 128]⟩
abbrev S2x1280x256 : Shape := ⟨3, ![2, 1280, 256]⟩
abbrev S2x1280x128 : Shape := ⟨3, ![2, 1280, 128]⟩
abbrev S1x256 : Shape := ⟨2, ![1, 256]⟩

abbrev nBuf : Space → Nat
  | .hbm => 24
  | .vmem => 32
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x160000, .i32⟩
  | .hbm, ⟨6, _⟩ => ⟨S160000, .i32⟩
  | .hbm, ⟨7, _⟩ => ⟨S160000x1, .i32⟩
  | .hbm, ⟨8, _⟩ => ⟨S1x160000, .i32⟩
  | .hbm, ⟨9, _⟩ => ⟨S160000, .i32⟩
  | .hbm, ⟨10, _⟩ => ⟨S160000x1, .i32⟩
  | .hbm, ⟨11, _⟩ => ⟨S_, .i32⟩
  | .hbm, ⟨12, _⟩ => ⟨S_, .f32⟩
  | .hbm, ⟨13, _⟩ => ⟨S10240x256, .f32⟩
  | .hbm, ⟨14, _⟩ => ⟨S10240x256, .bf16⟩
  | .hbm, ⟨15, _⟩ => ⟨S256x256, .bf16⟩
  | .hbm, ⟨16, _⟩ => ⟨S256x256, .bf16⟩
  | .hbm, ⟨17, _⟩ => ⟨S2x10240x256, .f32⟩
  | .hbm, ⟨18, _⟩ => ⟨S2x10240x128, .f32⟩
  | .hbm, ⟨19, _⟩ => ⟨S10240x256, .bf16⟩
  | .hbm, ⟨20, _⟩ => ⟨S10240x128, .f32⟩
  | .hbm, ⟨21, _⟩ => ⟨S2x10240x256, .f32⟩
  | .hbm, ⟨22, _⟩ => ⟨S10240x256, .f32⟩
  | .hbm, ⟨23, _⟩ => ⟨S10000x256, .f32⟩
  | .local _ .vmem, ⟨0, _⟩ => ⟨S640x1, .i32⟩
  | .local _ .vmem, ⟨1, _⟩ => ⟨S640x1, .i32⟩
  | .local _ .vmem, ⟨2, _⟩ => ⟨S640x1, .i32⟩
  | .local _ .vmem, ⟨3, _⟩ => ⟨S640x1, .i32⟩
  | .local _ .vmem, ⟨4, _⟩ => ⟨S10240x256, .bf16⟩
  | .local _ .vmem, ⟨5, _⟩ => ⟨S1x10240x256, .f32⟩
  | .local _ .vmem, ⟨6, _⟩ => ⟨S1x10240x128, .f32⟩
  | .local _ .vmem, ⟨7, _⟩ => ⟨S2x1280x256, .f32⟩
  | .local _ .vmem, ⟨8, _⟩ => ⟨S2x1280x256, .f32⟩
  | .local _ .vmem, ⟨9, _⟩ => ⟨S2x1280x128, .f32⟩
  | .local _ .vmem, ⟨10, _⟩ => ⟨S2x1280x128, .f32⟩
  | .local _ .vmem, ⟨11, _⟩ => ⟨S1280x256, .bf16⟩
  | .local _ .vmem, ⟨12, _⟩ => ⟨S1280x256, .bf16⟩
  | .local _ .vmem, ⟨13, _⟩ => ⟨S256x256, .bf16⟩
  | .local _ .vmem, ⟨14, _⟩ => ⟨S256x256, .bf16⟩
  | .local _ .vmem, ⟨15, _⟩ => ⟨S256, .f32⟩
  | .local _ .vmem, ⟨16, _⟩ => ⟨S1280x256, .bf16⟩
  | .local _ .vmem, ⟨17, _⟩ => ⟨S1280x256, .bf16⟩
  | .local _ .vmem, ⟨18, _⟩ => ⟨S1280x128, .f32⟩
  | .local _ .vmem, ⟨19, _⟩ => ⟨S1280x128, .f32⟩
  | .local _ .vmem, ⟨20, _⟩ => ⟨S640x1, .i32⟩
  | .local _ .vmem, ⟨21, _⟩ => ⟨S640x1, .i32⟩
  | .local _ .vmem, ⟨22, _⟩ => ⟨S640x1, .i32⟩
  | .local _ .vmem, ⟨23, _⟩ => ⟨S640x1, .i32⟩
  | .local _ .vmem, ⟨24, _⟩ => ⟨S10240x256, .bf16⟩
  | .local _ .vmem, ⟨25, _⟩ => ⟨S1x10240x256, .f32⟩
  | .local _ .vmem, ⟨26, _⟩ => ⟨S2x1280x256, .f32⟩
  | .local _ .vmem, ⟨27, _⟩ => ⟨S2x1280x256, .f32⟩
  | .local _ .vmem, ⟨28, _⟩ => ⟨S1280x128, .f32⟩
  | .local _ .vmem, ⟨29, _⟩ => ⟨S1280x128, .f32⟩
  | .local _ .vmem, ⟨30, _⟩ => ⟨S1280x256, .f32⟩
  | .local _ .vmem, ⟨31, _⟩ => ⟨S1280x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev main_v11_0 : Ref sig .tc := ⟨.hbm, 19, rfl⟩
abbrev main_v11_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg2_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem2_1 : DmaSem sig := 31

abbrev nD : Nat := 1
abbrev τ : Topo := Topo.v7x

variable {F : FTy → Type} [FloatOps F]

abbrev grid0 : Pipeline.Grid := ⟨2, ![2, 125], ![false, false]⟩

def cc0_transform_0 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S640x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S640x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S10240x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x10240x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x10240x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2x1280x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1280x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1280x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1280x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1280x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨2, ![2, 125], ![false, false]⟩

def cc2_transform_0 (i : grid2.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let c125_i32 : BitVec 32 := 125#32
  let v0 : BitVec 32 := Scalar.muli arg0 c125_i32
  let v1 : BitVec 32 := Scalar.addi v0 arg1
  let c0_i32 : BitVec 32 := 0#32
  let c0_i32_0 : BitVec 32 := 0#32
  ![v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S640x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S640x1 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S10240x256 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x10240x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![true, false]

abbrev grid3 : Pipeline.Grid := ⟨1, ![8], ![false]⟩

def cc3_transform_0 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2x1280x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1280x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1280x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x160000_S1x160000_0_0 : S2x160000.Slices ![0, 0] S1x160000
  shapeCasts_S1x160000_S160000 : S1x160000.ShapeCasts S160000
  shapeCasts_S160000_S160000x1 : S160000.ShapeCasts S160000x1
  slices_S2x160000_S1x160000_1_0 : S2x160000.Slices ![1, 0] S1x160000
  pads_S10000x256_S10240x256_02400_000 : S10000x256.Pads (![0, 0] : Fin 2 → Nat) ![240, 0] ![0, 0] S10240x256
  h_S_ : 0 < S_.numel
  bitsLt_bf16_f32 : FTy.bits .bf16 < FTy.bits .f32
  inb_S1x10240x256_S1x10240x256_0_0_0 : ∀ a, (![0, 0, 0] : Fin 3 → Nat) a + S1x10240x256.size a ≤ S1x10240x256.size a
  h_S1x10240x256 : 0 < S1x10240x256.numel
  shapeCasts_S1x10240x256_S10240x256 : S1x10240x256.ShapeCasts S10240x256
  shapeCasts_S10240x256_S1x10240x256 : S10240x256.ShapeCasts S1x10240x256
  inb_S1x10240x128_S1x10240x128_0_0_0 : ∀ a, (![0, 0, 0] : Fin 3 → Nat) a + S1x10240x128.size a ≤ S1x10240x128.size a
  h_S1x10240x128 : 0 < S1x10240x128.numel
  shapeCasts_S1x10240x128_S10240x128 : S1x10240x128.ShapeCasts S10240x128
  shapeCasts_S10240x128_S1x10240x128 : S10240x128.ShapeCasts S1x10240x128
  inb_S640x1_S640x1_0_0 : ∀ a, (![0, 0] : Fin 2 → Nat) a + S640x1.size a ≤ S640x1.size a
  h_S640x1 : 0 < S640x1.numel
  shapeCasts_S640x1_S640x1 : S640x1.ShapeCasts S640x1
  iota_S640x1280_d1_w32 : S640x1280.Iotas .tc 32 [1]
  broadcasts_S640x1_S640x1280 : S640x1.Broadcasts S640x1280
  natLt_1_32 : 1 < 32
  inb_S10240x256_S1280x256_0_0 : ∀ a, (![0, 0] : Fin 2 → Nat) a + S1280x256.size a ≤ S10240x256.size a
  h_S1280x256 : 0 < S1280x256.numel
  shapeCasts_S1280x256_S1280x256 : S1280x256.ShapeCasts S1280x256
  inb_S10240x256_S1280x256_1280_0 : ∀ a, (![1280, 0] : Fin 2 → Nat) a + S1280x256.size a ≤ S10240x256.size a
  inb_S10240x256_S1280x256_2560_0 : ∀ a, (![2560, 0] : Fin 2 → Nat) a + S1280x256.size a ≤ S10240x256.size a
  inb_S10240x256_S1280x256_3840_0 : ∀ a, (![3840, 0] : Fin 2 → Nat) a + S1280x256.size a ≤ S10240x256.size a
  inb_S10240x256_S1280x256_5120_0 : ∀ a, (![5120, 0] : Fin 2 → Nat) a + S1280x256.size a ≤ S10240x256.size a
  inb_S10240x256_S1280x256_6400_0 : ∀ a, (![6400, 0] : Fin 2 → Nat) a + S1280x256.size a ≤ S10240x256.size a
  inb_S10240x256_S1280x256_7680_0 : ∀ a, (![7680, 0] : Fin 2 → Nat) a + S1280x256.size a ≤ S10240x256.size a
  inb_S10240x256_S1280x256_8960_0 : ∀ a, (![8960, 0] : Fin 2 → Nat) a + S1280x256.size a ≤ S10240x256.size a
  inb_S1x10240x256_S1x1280x256_0_0_0 : ∀ a, (![0, 0, 0] : Fin 3 → Nat) a + S1x1280x256.size a ≤ S1x10240x256.size a
  h_S1x1280x256 : 0 < S1x1280x256.numel
  shapeCasts_S1x1280x256_S1280x256 : S1x1280x256.ShapeCasts S1280x256
  shapeCasts_S1280x256_S1x1280x256 : S1280x256.ShapeCasts S1x1280x256
  inb_S1x10240x128_S1x1280x128_0_0_0 : ∀ a, (![0, 0, 0] : Fin 3 → Nat) a + S1x1280x128.size a ≤ S1x10240x128.size a
  h_S1x1280x128 : 0 < S1x1280x128.numel
  shapeCasts_S1x1280x128_S1280x128 : S1x1280x128.ShapeCasts S1280x128
  shapeCasts_S1280x128_S1x1280x128 : S1280x128.ShapeCasts S1x1280x128
  inb_S1x10240x256_S1x1280x256_0_1280_0 : ∀ a, (![0, 1280, 0] : Fin 3 → Nat) a + S1x1280x256.size a ≤ S1x10240x256.size a
  inb_S1x10240x128_S1x1280x128_0_1280_0 : ∀ a, (![0, 1280, 0] : Fin 3 → Nat) a + S1x1280x128.size a ≤ S1x10240x128.size a
  inb_S1x10240x256_S1x1280x256_0_2560_0 : ∀ a, (![0, 2560, 0] : Fin 3 → Nat) a + S1x1280x256.size a ≤ S1x10240x256.size a
  inb_S1x10240x128_S1x1280x128_0_2560_0 : ∀ a, (![0, 2560, 0] : Fin 3 → Nat) a + S1x1280x128.size a ≤ S1x10240x128.size a
  inb_S1x10240x256_S1x1280x256_0_3840_0 : ∀ a, (![0, 3840, 0] : Fin 3 → Nat) a + S1x1280x256.size a ≤ S1x10240x256.size a
  inb_S1x10240x128_S1x1280x128_0_3840_0 : ∀ a, (![0, 3840, 0] : Fin 3 → Nat) a + S1x1280x128.size a ≤ S1x10240x128.size a
  inb_S1x10240x256_S1x1280x256_0_5120_0 : ∀ a, (![0, 5120, 0] : Fin 3 → Nat) a + S1x1280x256.size a ≤ S1x10240x256.size a
  inb_S1x10240x128_S1x1280x128_0_5120_0 : ∀ a, (![0, 5120, 0] : Fin 3 → Nat) a + S1x1280x128.size a ≤ S1x10240x128.size a
  inb_S1x10240x256_S1x1280x256_0_6400_0 : ∀ a, (![0, 6400, 0] : Fin 3 → Nat) a + S1x1280x256.size a ≤ S1x10240x256.size a
  inb_S1x10240x128_S1x1280x128_0_6400_0 : ∀ a, (![0, 6400, 0] : Fin 3 → Nat) a + S1x1280x128.size a ≤ S1x10240x128.size a
  inb_S1x10240x256_S1x1280x256_0_7680_0 : ∀ a, (![0, 7680, 0] : Fin 3 → Nat) a + S1x1280x256.size a ≤ S1x10240x256.size a
  inb_S1x10240x128_S1x1280x128_0_7680_0 : ∀ a, (![0, 7680, 0] : Fin 3 → Nat) a + S1x1280x128.size a ≤ S1x10240x128.size a
  inb_S1x10240x256_S1x1280x256_0_8960_0 : ∀ a, (![0, 8960, 0] : Fin 3 → Nat) a + S1x1280x256.size a ≤ S1x10240x256.size a
  inb_S1x10240x128_S1x1280x128_0_8960_0 : ∀ a, (![0, 8960, 0] : Fin 3 → Nat) a + S1x1280x128.size a ≤ S1x10240x128.size a
  inb_S2x1280x256_S1x1280x256_0_0_0 : ∀ a, (![0, 0, 0] : Fin 3 → Nat) a + S1x1280x256.size a ≤ S2x1280x256.size a
  inb_S2x1280x256_S1x1280x256_1_0_0 : ∀ a, (![1, 0, 0] : Fin 3 → Nat) a + S1x1280x256.size a ≤ S2x1280x256.size a
  inb_S2x1280x128_S1x1280x128_0_0_0 : ∀ a, (![0, 0, 0] : Fin 3 → Nat) a + S1x1280x128.size a ≤ S2x1280x128.size a
  inb_S2x1280x128_S1x1280x128_1_0_0 : ∀ a, (![1, 0, 0] : Fin 3 → Nat) a + S1x1280x128.size a ≤ S2x1280x128.size a
  inb_S1280x128_S1280x128_0_0 : ∀ a, (![0, 0] : Fin 2 → Nat) a + S1280x128.size a ≤ S1280x128.size a
  h_S1280x128 : 0 < S1280x128.numel
  concatenates_S1280x128_S1280x128_S1280x256_d1 : Shape.Concatenates [S1280x128, S1280x128] S1280x256 1
  inb_S1280x256_S1280x256_0_0 : ∀ a, (![0, 0] : Fin 2 → Nat) a + S1280x256.size a ≤ S1280x256.size a
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S1280x256 : S1x256.Broadcasts S1280x256
  packedbf16_S1280x256_S1280x256_0_0 : (Rect.unit (s := S1280x256) ![0, 0] S1280x256.size inb_S1280x256_S1280x256_0_0).PackedRows (EltTy.packing .bf16)
  shapeCasts_S1280x128_S1280x128 : S1280x128.ShapeCasts S1280x128
  slices_S10240x256_S10000x256_0_0 : S10240x256.Slices ![0, 0] S10000x256
  dot_S640x1280_S1280x256_S640x256_1_0_0_1_n_n_wf : DotDims.WF S640x1280 S1280x256 S640x256 [1] [0] [0] [1] [] []
  dot_S640x1280_S640x256_S1280x256_0_0_1_1_n_n_wf : DotDims.WF S640x1280 S640x256 S1280x256 [0] [0] [1] [1] [] []
  dot_S640x1280_S640x128_S1280x128_0_0_1_1_n_n_wf : DotDims.WF S640x1280 S640x128 S1280x128 [0] [0] [1] [1] [] []
  dot_S1280x256_S256x256_S1280x256_1_0_0_1_n_n_wf : DotDims.WF S1280x256 S256x256 S1280x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S640x1.size a ≤ S160000x1.size a
  hwx0_0 : ∀ i : grid0.Coords, EltTy.bits .i32 = 32 ∨ (Rect.block (s := S160000x1) S640x1.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S640x1.size a ≤ S160000x1.size a
  hwx0_1 : ∀ i : grid0.Coords, EltTy.bits .i32 = 32 ∨ (Rect.block (s := S160000x1) S640x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10240x256.size a ≤ S10240x256.size a
  hwx0_2 : ∀ i : grid0.Coords, EltTy.bits .bf16 = 32 ∨ (Rect.block (s := S10240x256) S10240x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10240x256.size a ≤ S2x10240x256.size a
  hwx0_3 : ∀ i : grid0.Coords, EltTy.bits .f32 = 32 ∨ (Rect.block (s := S2x10240x256) S1x10240x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x10240x128.size a ≤ S2x10240x128.size a
  hwx0_4 : ∀ i : grid0.Coords, EltTy.bits .f32 = 32 ∨ (Rect.block (s := S2x10240x128) S1x10240x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1280x256.size a ≤ S2x10240x256.size a
  hwx1_0 : ∀ i : grid1.Coords, EltTy.bits .f32 = 32 ∨ (Rect.block (s := S2x10240x256) S2x1280x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1280x128.size a ≤ S2x10240x128.size a
  hwx1_1 : ∀ i : grid1.Coords, EltTy.bits .f32 = 32 ∨ (Rect.block (s := S2x10240x128) S2x1280x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1280x256.size a ≤ S10240x256.size a
  hwx1_2 : ∀ i : grid1.Coords, EltTy.bits .bf16 = 32 ∨ (Rect.block (s := S10240x256) S1280x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x256.size a ≤ S256x256.size a
  hwx1_4 : ∀ i : grid1.Coords, EltTy.bits .bf16 = 32 ∨ (Rect.block (s := S256x256) S256x256.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256.size a ≤ S256.size a
  hwx1_5 : ∀ i : grid1.Coords, EltTy.bits .f32 = 32 ∨ (Rect.block (s := S256) S256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1280x256.size a ≤ S10240x256.size a
  hwx1_6 : ∀ i : grid1.Coords, EltTy.bits .bf16 = 32 ∨ (Rect.block (s := S10240x256) S1280x256.size (cc1_transform_6 i) (hinb1_6 i)).WholeWords (EltTy.packing .bf16)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1280x128.size a ≤ S10240x128.size a
  hwx1_7 : ∀ i : grid1.Coords, EltTy.bits .f32 = 32 ∨ (Rect.block (s := S10240x128) S1280x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S640x1.size a ≤ S160000x1.size a
  hwx2_0 : ∀ i : grid2.Coords, EltTy.bits .i32 = 32 ∨ (Rect.block (s := S160000x1) S640x1.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S640x1.size a ≤ S160000x1.size a
  hwx2_1 : ∀ i : grid2.Coords, EltTy.bits .i32 = 32 ∨ (Rect.block (s := S160000x1) S640x1.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S10240x256.size a ≤ S10240x256.size a
  hwx2_2 : ∀ i : grid2.Coords, EltTy.bits .bf16 = 32 ∨ (Rect.block (s := S10240x256) S10240x256.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x10240x256.size a ≤ S2x10240x256.size a
  hwx2_3 : ∀ i : grid2.Coords, EltTy.bits .f32 = 32 ∨ (Rect.block (s := S2x10240x256) S1x10240x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2x1280x256.size a ≤ S2x10240x256.size a
  hwx3_0 : ∀ i : grid3.Coords, EltTy.bits .f32 = 32 ∨ (Rect.block (s := S2x10240x256) S2x1280x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1280x128.size a ≤ S10240x128.size a
  hwx3_1 : ∀ i : grid3.Coords, EltTy.bits .f32 = 32 ∨ (Rect.block (s := S10240x128) S1280x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1280x256.size a ≤ S10240x256.size a
  hwx3_2 : ∀ i : grid3.Coords, EltTy.bits .f32 = 32 ∨ (Rect.block (s := S10240x256) S1280x256.size (cc3_transform_2 i) (hinb3_2 i)).WholeWords (EltTy.packing .f32)

variable [Facts₀]

def dot_S640x1280_S1280x256_S640x256_1_0_0_1_n_n : DotDims S640x1280 S1280x256 S640x256 where
  lhsContracting := [1]
  rhsContracting := [0]
  lhsNonContracting := [0]
  rhsNonContracting := [1]
  lhsBatch := []
  rhsBatch := []
  wf := dot_S640x1280_S1280x256_S640x256_1_0_0_1_n_n_wf
def dot_S640x1280_S640x256_S1280x256_0_0_1_1_n_n : DotDims S640x1280 S640x256 S1280x256 where
  lhsContracting := [0]
  rhsContracting := [0]
  lhsNonContracting := [1]
  rhsNonContracting := [1]
  lhsBatch := []
  rhsBatch := []
  wf := dot_S640x1280_S640x256_S1280x256_0_0_1_1_n_n_wf
def dot_S640x1280_S640x128_S1280x128_0_0_1_1_n_n : DotDims S640x1280 S640x128 S1280x128 where
  lhsContracting := [0]
  rhsContracting := [0]
  lhsNonContracting := [1]
  rhsNonContracting := [1]
  lhsBatch := []
  rhsBatch := []
  wf := dot_S640x1280_S640x128_S1280x128_0_0_1_1_n_n_wf
def dot_S1280x256_S256x256_S1280x256_1_0_0_1_n_n : DotDims S1280x256 S256x256 S1280x256 where
  lhsContracting := [1]
  rhsContracting := [0]
  lhsNonContracting := [0]
  rhsNonContracting := [1]
  lhsBatch := []
  rhsBatch := []
  wf := dot_S1280x256_S256x256_S1280x256_1_0_0_1_n_n_wf

abbrev win0_0 : Pipeline.Window sig grid0 :=
  Pipeline.Window.ofSpec (Memref.whole main_v2) S640x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S640x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S10240x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10_0) S1x10240x256.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10_1) S1x10240x128.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v10_0) S2x1280x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10_1) S2x1280x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1280x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S256x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg4) S256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v11_0) S1280x256.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v11_1) S1280x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v2) S640x1.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S640x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11_0) S10240x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x10240x256.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v12) S2x1280x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v11_1) S1280x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S1280x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S10000x256 : Shape := ⟨2, ![10000, 256]⟩
abbrev S2x160000 : Shape := ⟨2, ![2, 160000]⟩
abbrev S256x256 : Shape := ⟨2, ![256, 256]⟩
abbrev S256 : Shape := ⟨1, ![256]⟩
abbrev S1x160000 : Shape := ⟨2, ![1, 160000]⟩
abbrev S160000 : Shape := ⟨1, ![160000]⟩
abbrev S_ : Shape := ⟨0, ![]⟩
abbrev S10000 : Shape := ⟨1, ![10000]⟩
abbrev S160000x1 : Shape := ⟨2, ![160000, 1]⟩
abbrev S10000x1 : Shape := ⟨2, ![10000, 1]⟩
abbrev S160000x256 : Shape := ⟨2, ![160000, 256]⟩
abbrev S1x256 : Shape := ⟨2, ![1, 256]⟩

abbrev nBuf : Space → Nat
  | .hbm => 73
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S2x160000, .i32⟩
  | .hbm, ⟨2, _⟩ => ⟨S256x256, .f32⟩
  | .hbm, ⟨3, _⟩ => ⟨S256x256, .f32⟩
  | .hbm, ⟨4, _⟩ => ⟨S256, .f32⟩
  | .hbm, ⟨5, _⟩ => ⟨S1x160000, .i32⟩
  | .hbm, ⟨6, _⟩ => ⟨S160000, .i32⟩
  | .hbm, ⟨7, _⟩ => ⟨S1x160000, .i32⟩
  | .hbm, ⟨8, _⟩ => ⟨S160000, .i32⟩
  | .hbm, ⟨9, _⟩ => ⟨S_, .f32⟩
  | .hbm, ⟨10, _⟩ => ⟨S160000, .f32⟩
  | .hbm, ⟨11, _⟩ => ⟨S_, .f32⟩
  | .hbm, ⟨12, _⟩ => ⟨S10000, .f32⟩
  | .hbm, ⟨13, _⟩ => ⟨S160000x1, .i32⟩
  | .hbm, ⟨14, _⟩ => ⟨S10000, .f32⟩
  | .hbm, ⟨15, _⟩ => ⟨S_, .f32⟩
  | .hbm, ⟨16, _⟩ => ⟨S10000, .f32⟩
  | .hbm, ⟨17, _⟩ => ⟨S10000, .f32⟩
  | .hbm, ⟨18, _⟩ => ⟨S10000x1, .f32⟩
  | .hbm, ⟨19, _⟩ => ⟨S_, .i32⟩
  | .hbm, ⟨20, _⟩ => ⟨S160000, .i32⟩
  | .hbm, ⟨21, _⟩ => ⟨S160000, .i1⟩
  | .hbm, ⟨22, _⟩ => ⟨S_, .i32⟩
  | .hbm, ⟨23, _⟩ => ⟨S160000, .i32⟩
  | .hbm, ⟨24, _⟩ => ⟨S160000, .i32⟩
  | .hbm, ⟨25, _⟩ => ⟨S160000, .i32⟩
  | .hbm, ⟨26, _⟩ => ⟨S160000x1, .i32⟩
  | .hbm, ⟨27, _⟩ => ⟨S160000x256, .f32⟩
  | .hbm, ⟨28, _⟩ => ⟨S_, .f32⟩
  | .hbm, ⟨29, _⟩ => ⟨S10000x256, .f32⟩
  | .hbm, ⟨30, _⟩ => ⟨S160000x1, .i32⟩
  | .hbm, ⟨31, _⟩ => ⟨S10000x256, .f32⟩
  | .hbm, ⟨32, _⟩ => ⟨S10000x256, .f32⟩
  | .hbm, ⟨33, _⟩ => ⟨S10000x256, .f32⟩
  | .hbm, ⟨34, _⟩ => ⟨S10000x256, .f32⟩
  | .hbm, ⟨35, _⟩ => ⟨S10000x256, .f32⟩
  | .hbm, ⟨36, _⟩ => ⟨S10000x256, .f32⟩
  | .hbm, ⟨37, _⟩ => ⟨S1x256, .f32⟩
  | .hbm, ⟨38, _⟩ => ⟨S10000x256, .f32⟩
  | .hbm, ⟨39, _⟩ => ⟨S10000x256, .f32⟩
  | .hbm, ⟨40, _⟩ => ⟨S_, .f32⟩
  | .hbm, ⟨41, _⟩ => ⟨S10000x256, .f32⟩
  | .hbm, ⟨42, _⟩ => ⟨S10000x256, .f32⟩
  | .hbm, ⟨43, _⟩ => ⟨S_, .i32⟩
  | .hbm, ⟨44, _⟩ => ⟨S160000, .i32⟩
  | .hbm, ⟨45, _⟩ => ⟨S160000, .i1⟩
  | .hbm, ⟨46, _⟩ => ⟨S_, .i32⟩
  | .hbm, ⟨47, _⟩ => ⟨S160000, .i32⟩
  | .hbm, ⟨48, _⟩ => ⟨S160000, .i32⟩
  | .hbm, ⟨49, _⟩ => ⟨S160000, .i32⟩
  | .hbm, ⟨50, _⟩ => ⟨S160000x1, .i32⟩
  | .hbm, ⟨51, _⟩ => ⟨S160000x256, .f32⟩
  | .hbm, ⟨52, _⟩ => ⟨S_, .i32⟩
  | .hbm, ⟨53, _⟩ => ⟨S160000, .i32⟩
  | .hbm, ⟨54, _⟩ => ⟨S160000, .i1⟩
  | .hbm, ⟨55, _⟩ => ⟨S_, .i32⟩
  | .hbm, ⟨56, _⟩ => ⟨S160000, .i32⟩
  | .hbm, ⟨57, _⟩ => ⟨S160000, .i32⟩
  | .hbm, ⟨58, _⟩ => ⟨S160000, .i32⟩
  | .hbm, ⟨59, _⟩ => ⟨S160000x1, .i32⟩
  | .hbm, ⟨60, _⟩ => ⟨S160000x256, .f32⟩
  | .hbm, ⟨61, _⟩ => ⟨S160000x256, .f32⟩
  | .hbm, ⟨62, _⟩ => ⟨S160000x256, .f32⟩
  | .hbm, ⟨63, _⟩ => ⟨S_, .f32⟩
  | .hbm, ⟨64, _⟩ => ⟨S160000x256, .f32⟩
  | .hbm, ⟨65, _⟩ => ⟨S160000x256, .f32⟩
  | .hbm, ⟨66, _⟩ => ⟨S_, .f32⟩
  | .hbm, ⟨67, _⟩ => ⟨S10000x256, .f32⟩
  | .hbm, ⟨68, _⟩ => ⟨S160000x1, .i32⟩
  | .hbm, ⟨69, _⟩ => ⟨S10000x256, .f32⟩
  | .hbm, ⟨70, _⟩ => ⟨S10000x256, .f32⟩
  | .hbm, ⟨71, _⟩ => ⟨S10000x256, .f32⟩
  | .hbm, ⟨72, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_c_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10000 : S_.BroadcastsInDim S10000 (![] : Fin 0 → Fin S10000.rank)
  bcast_S160000_S160000x1_0 : S160000.BroadcastsInDim S160000x1 (![0] : Fin 1 → Fin S160000x1.rank)
  bcast_S10000_S10000x1_0 : S10000.BroadcastsInDim S10000x1 (![0] : Fin 1 → Fin S10000x1.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S160000x256 : S_.BroadcastsInDim S160000x256 (![] : Fin 0 → Fin S160000x256.rank)
  scatter_S10000_S160000x1_S160000_n_0_0_1_wf : ScatterDims.WF S10000 S160000x1 S160000 [] [0] [0] 1
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x256_S10000x256_1_0_0_1_n_n_wf : DotDims.WF S10000x256 S256x256 S10000x256 [1] [0] [0] [1] [] []

variable [Facts₀]

def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf

class Facts : Prop extends Facts₀ where

variable [Facts]
-- ==== Proof.Spec.lean ====
/-
  The mathematics of the graph-convolution kernel, with no program in sight: every array that a grid region of the
  kernel leaves behind, and the reference's result, as functions of the arrays they are computed from, at the ideal
  instance (floats are extended reals).

  Arrays are read through NATURAL coordinates (`acc1`, `acc2`, `acc3`, `wrd`: zero outside the extents), so that
  the formulas below carry no bound proofs; sums over edges, nodes and features are sums over `Finset.range`.

  The kernel gathers and scatters by ONE-HOT matrix products: `oh w n` is 1 when the 32-bit word `w` is the numeral
  `n`, else 0; gathering row `w` of a table is `∑ n, oh w n * T n d` (`pick`), scattering an edge's value onto node
  `n` is multiplying it by `oh (row e) n`. The 160000 edges are visited in 250 grid steps of 640 edges, the first 125
  steps accumulating into slab 0 and the last 125 into slab 1 of a partial array; a later region adds the two slabs.
-/
import Idealize.ShloMosaic.PureOps.Ideal
import Idealize.ShloMosaic.Lib.ValueIdx

noncomputable section

namespace Cert.Spec

open Idealize.ShloMosaic Idealize.ShloMosaic.ValueIdx

/-! ## Arrays read at natural coordinates -/

/-- A rank-1 array of extended reals at a natural coordinate (zero outside). -/
def acc1 {a : ℕ} (x : (⟨1, ![a]⟩ : Shape).Idx → EReal) (i : ℕ) : EReal :=
  if h : i < a then x (ix1 ⟨i, h⟩) else 0

/-- A rank-2 array of extended reals at natural coordinates (zero outside). -/
def acc2 {a b : ℕ} (x : (⟨2, ![a, b]⟩ : Shape).Idx → EReal) (i j : ℕ) : EReal :=
  if h : i < a ∧ j < b then x (ix2 ⟨i, h.1⟩ ⟨j, h.2⟩) else 0

/-- A rank-3 array of extended reals at natural coordinates (zero outside). -/
def acc3 {a b c : ℕ} (x : (⟨3, ![a, b, c]⟩ : Shape).Idx → EReal) (i j k : ℕ) : EReal :=
  if h : i < a ∧ j < b ∧ k < c then x (ix3 ⟨i, h.1⟩ ⟨j, h.2.1⟩ ⟨k, h.2.2⟩) else 0

/-- A rank-2 array of 32-bit words at natural coordinates (the zero word outside). -/
def wrd {a b : ℕ} (x : (⟨2, ![a, b]⟩ : Shape).Idx → BitVec 32) (i j : ℕ) : BitVec 32 :=
  if h : i < a ∧ j < b then x (ix2 ⟨i, h.1⟩ ⟨j, h.2⟩) else 0

theorem acc1_ix {a : ℕ} (x : (⟨1, ![a]⟩ : Shape).Idx → EReal) (i : Fin a) : acc1 x i.val = x (ix1 i) := by
  unfold acc1; rw [dif_pos i.isLt]
theorem acc2_ix {a b : ℕ} (x : (⟨2, ![a, b]⟩ : Shape).Idx → EReal) (i : Fin a) (j : Fin b) :
    acc2 x i.val j.val = x (ix2 i j) := by
  unfold acc2; rw [dif_pos ⟨i.isLt, j.isLt⟩]
theorem acc3_ix {a b c : ℕ} (x : (⟨3, ![a, b, c]⟩ : Shape).Idx → EReal) (i : Fin a) (j : Fin b) (k : Fin c) :
    acc3 x i.val j.val k.val = x (ix3 i j k) := by
  unfold acc3; rw [dif_pos ⟨i.isLt, j.isLt, k.isLt⟩]
theorem wrd_ix {a b : ℕ} (x : (⟨2, ![a, b]⟩ : Shape).Idx → BitVec 32) (i : Fin a) (j : Fin b) :
    wrd x i.val j.val = x (ix2 i j) := by
  unfold wrd; rw [dif_pos ⟨i.isLt, j.isLt⟩]

/-! ## One-hot gathering and scattering -/

/-- The one-hot weight: 1 when the word `w` is the numeral `n`, else 0. -/
def oh (w : BitVec 32) (n : ℕ) : EReal := if w = BitVec.ofNat 32 n then 1 else 0

/-- Row `w` of a table of 10240 rows, gathered by a one-hot product: the row when `w` names one, else zero. -/
def pick (T : ℕ → ℕ → EReal) (w : BitVec 32) (d : ℕ) : EReal := ∑ n ∈ Finset.range 10240, oh w n * T n d

/-! ## Region 0: the partial neighbour sums and the partial degrees

  `row`, `col` : the edge's target and source words by edge number; `T` : the padded feature table. -/

/-- What grid step `t` (edges `640 t … 640 t + 639`) adds to the neighbour sum of node `n`, feature `d`. -/
def nbrStep (row col : ℕ → BitVec 32) (T : ℕ → ℕ → EReal) (t n d : ℕ) : EReal :=
  ∑ e ∈ Finset.range 640, oh (row (640 * t + e)) n * pick T (col (640 * t + e)) d

/-- Slab `k` of the partial neighbour sums: the 125 steps `125 k … 125 k + 124`. -/
def nbrPart (row col : ℕ → BitVec 32) (T : ℕ → ℕ → EReal) (k n d : ℕ) : EReal :=
  ∑ s ∈ Finset.range 125, nbrStep row col T (125 * k + s) n d

/-- What grid step `t` adds to the degree of node `n`: the number of its edges whose target is `n`. -/
def degStep (row : ℕ → BitVec 32) (t n : ℕ) : EReal := ∑ e ∈ Finset.range 640, oh (row (640 * t + e)) n

/-- Slab `k` of the partial degrees. -/
def degPart (row : ℕ → BitVec 32) (k n : ℕ) : EReal := ∑ s ∈ Finset.range 125, degStep row (125 * k + s) n

/-! ## Region 1: the reciprocal degree and the hidden features -/

/-- The reciprocal of the clamped degree, from the two partial-degree slabs (`P k n o`, lane `o`). -/
def rdeg (P : ℕ → ℕ → ℕ → EReal) (n o : ℕ) : EReal := Ideal.div 1 (max (P 0 n o + P 1 n o) 1)

/-- The hidden feature `d` of node `n`: relu of (x·W_root + mean·W_neigh + b), the mean being the summed slabs `S`
    times the reciprocal degree read at lane `k % 128`. -/
def hid (S P : ℕ → ℕ → ℕ → EReal) (X Wr Wn : ℕ → ℕ → EReal) (b : ℕ → EReal) (n d : ℕ) : EReal :=
  max (((∑ k ∈ Finset.range 256, X n k * Wr k d)
        + ∑ k ∈ Finset.range 256, ((S 0 n k + S 1 n k) * rdeg P n (k % 128)) * Wn k d) + b d) 0

/-! ## Region 2: the partial sums of squared differences -/

/-- What grid step `t` adds to node `n`'s sum of squared feature differences. -/
def difStep (row col : ℕ → BitVec 32) (H : ℕ → ℕ → EReal) (t n d : ℕ) : EReal :=
  ∑ e ∈ Finset.range 640, oh (row (640 * t + e)) n *
    ((pick H (row (640 * t + e)) d - pick H (col (640 * t + e)) d)
      * (pick H (row (640 * t + e)) d - pick H (col (640 * t + e)) d))

/-- Slab `k` of the partial sums of squared differences. -/
def difPart (row col : ℕ → BitVec 32) (H : ℕ → ℕ → EReal) (k n d : ℕ) : EReal :=
  ∑ s ∈ Finset.range 125, difStep row col H (125 * k + s) n d

/-! ## Region 3: the gate -/

/-- tanh of the summed slabs `D` times the reciprocal degree `R` at lane `d % 128`. -/
def gate (D : ℕ → ℕ → ℕ → EReal) (R : ℕ → ℕ → EReal) (n d : ℕ) : EReal :=
  Ideal.tanh ((D 0 n d + D 1 n d) * R n (d % 128))

/-! ## The arrays, as vectors over their shapes -/

abbrev S160000x1 : Shape := ⟨2, ![160000, 1]⟩
abbrev S10240x256 : Shape := ⟨2, ![10240, 256]⟩
abbrev S10240x128 : Shape := ⟨2, ![10240, 128]⟩
abbrev S2x10240x256 : Shape := ⟨3, ![2, 10240, 256]⟩
abbrev S2x10240x128 : Shape := ⟨3, ![2, 10240, 128]⟩
abbrev S256x256 : Shape := ⟨2, ![256, 256]⟩
abbrev S256 : Shape := ⟨1, ![256]⟩
abbrev S10000x256 : Shape := ⟨2, ![10000, 256]⟩
abbrev S2x160000 : Shape := ⟨2, ![2, 160000]⟩

/-- An edge-index column `[160000, 1]` by edge number. -/
def edgeW (v : S160000x1.Idx → BitVec 32) (e : ℕ) : BitVec 32 := wrd v e 0

/-- Region 0's first result: the two slabs of partial neighbour sums. -/
def nbrVec (rowv colv : S160000x1.Idx → BitVec 32) (xp : S10240x256.Idx → EReal) : S2x10240x256.Idx → EReal :=
  fun j => nbrPart (edgeW rowv) (edgeW colv) (acc2 xp) (j 0).val (j 1).val (j 2).val

/-- Region 0's second result: the two slabs of partial degrees, the same in all 128 lanes. -/
def degVec (rowv : S160000x1.Idx → BitVec 32) : S2x10240x128.Idx → EReal :=
  fun j => degPart (edgeW rowv) (j 0).val (j 1).val

/-- Region 1's first result: the hidden features. -/
def hidVec (S : S2x10240x256.Idx → EReal) (P : S2x10240x128.Idx → EReal) (xp : S10240x256.Idx → EReal)
    (wr wn : S256x256.Idx → EReal) (b : S256.Idx → EReal) : S10240x256.Idx → EReal :=
  fun j => hid (acc3 S) (acc3 P) (acc2 xp) (acc2 wr) (acc2 wn) (acc1 b) (j 0).val (j 1).val

/-- Region 1's second result: the reciprocal degree, lane by lane. -/
def rdegVec (P : S2x10240x128.Idx → EReal) : S10240x128.Idx → EReal :=
  fun j => rdeg (acc3 P) (j 0).val (j 1).val

/-- Region 2's result: the two slabs of partial sums of squared differences. -/
def difVec (rowv colv : S160000x1.Idx → BitVec 32) (H : S10240x256.Idx → EReal) : S2x10240x256.Idx → EReal :=
  fun j => difPart (edgeW rowv) (edgeW colv) (acc2 H) (j 0).val (j 1).val (j 2).val

/-- Region 3's result: the gate over the padded node range. -/
def gateVec (D : S2x10240x256.Idx → EReal) (R : S10240x128.Idx → EReal) : S10240x256.Idx → EReal :=
  fun j => gate (acc3 D) (acc2 R) (j 0).val (j 1).val

/-! ## What the kernel's host operations make of the arguments -/

/-- Row `r` of the edge index `[2, 160000]` as a column `[160000, 1]`. -/
def edgeCol (r : Fin 2) (ei : S2x160000.Idx → BitVec 32) : S160000x1.Idx → BitVec 32 :=
  fun j => ei (ix2 r ⟨(j 0).val, (j 0).isLt⟩)

/-- The features padded with 240 zero rows. -/
def padVec (X : S10000x256.Idx → EReal) : S10240x256.Idx → EReal :=
  fun j => acc2 X (j 0).val (j 1).val

/-- The kernel's result as one function of the arguments: the first 10000 rows of the gate. -/
def kernelVec (X : S10000x256.Idx → EReal) (ei : S2x160000.Idx → BitVec 32) (wr wn : S256x256.Idx → EReal)
    (b : S256.Idx → EReal) : S10000x256.Idx → EReal :=
  let rowv := edgeCol 0 ei
  let colv := edgeCol 1 ei
  let xp := padVec X
  let S := nbrVec rowv colv xp
  let P := degVec rowv
  let H := hidVec S P xp wr wn b
  let R := rdegVec P
  let D := difVec rowv colv H
  fun j => gateVec D R (ix2 ⟨(j 0).val, Nat.lt_trans (j 0).isLt (by decide)⟩ ⟨(j 1).val, (j 1).isLt⟩)

/-! ## The reference -/

/-- jnp's index normalisation: a negative word has the extent 10000 added. -/
def nrm (w : BitVec 32) : BitVec 32 := if w.toInt < 0 then w + 10000#32 else w

/-- The row a gather of a 10000-row table reads for the word `w`: normalised, read signed, clamped to `[0, 9999]`. -/
def grow (w : BitVec 32) : ℕ := min (nrm w).toInt.toNat 9999

/-- The edges whose target word, read signed, is the node `i`: the updates a scatter-add lands on row `i`. -/
def into (row : ℕ → BitVec 32) (i : ℕ) : Finset ℕ := (Finset.range 160000).filter fun e => (row e).toInt = (i : ℤ)

/-- The clamped degree of node `i`. -/
def rDen (row : ℕ → BitVec 32) (i : ℕ) : EReal := max (0 + ∑ _e ∈ into row i, (1 : EReal)) 1

/-- The reference's hidden features. -/
def rHid (row col : ℕ → BitVec 32) (X Wr Wn : ℕ → ℕ → EReal) (b : ℕ → EReal) (n d : ℕ) : EReal :=
  max (((∑ k ∈ Finset.range 256, X n k * Wr k d)
        + ∑ k ∈ Finset.range 256, Ideal.div (0 + ∑ e ∈ into row n, X (grow (col e)) k) (rDen row n) * Wn k d) + b d) 0

/-- The reference's result at node `i`, feature `d`. -/
def rOut (row col : ℕ → BitVec 32) (X Wr Wn : ℕ → ℕ → EReal) (b : ℕ → EReal) (i d : ℕ) : EReal :=
  Ideal.tanh (Ideal.div
    (0 + ∑ e ∈ into row i,
      Ideal.pow (max (rHid row col X Wr Wn b (grow (row e)) d - rHid row col X Wr Wn b (grow (col e)) d)
                     (-(rHid row col X Wr Wn b (grow (row e)) d - rHid row col X Wr Wn b (grow (col e)) d))) 2)
    (rDen row i))

/-- Row `r` of the edge index by edge number. -/
def edgeRow (r : ℕ) (ei : S2x160000.Idx → BitVec 32) (e : ℕ) : BitVec 32 := wrd ei r e

/-- The reference's result as one function of the arguments. -/
def refVec (X : S10000x256.Idx → EReal) (ei : S2x160000.Idx → BitVec 32) (wr wn : S256x256.Idx → EReal)
    (b : S256.Idx → EReal) : S10000x256.Idx → EReal :=
  fun j => rOut (edgeRow 0 ei) (edgeRow 1 ei) (acc2 X) (acc2 wr) (acc2 wn) (acc1 b) (j 0).val (j 1).val

end Cert.Spec

end
-- ==== Proof.OneHot.lean ====
import proofs.«406477_j5858335391841_3_alg».proof.Proof.Spec
import Idealize.ShloMosaic.PureOps.Ideal.Laws

noncomputable section

open Idealize.ShloMosaic Idealize.ShloMosaic.ValueIdx

namespace Cert.Spec

/-! ## Words and numerals -/

/-- A numeral below 2^32 is recovered from the word it names. -/
theorem toNat_ofNat_of_lt (n : ℕ) (h : n < 2 ^ 32) : (BitVec.ofNat 32 n).toNat = n := by
  rw [BitVec.toNat_ofNat]; exact Nat.mod_eq_of_lt h

/-- Every word is the numeral of its own value. -/
theorem eq_ofNat_toNat (w : BitVec 32) : w = BitVec.ofNat 32 w.toNat := by
  apply BitVec.eq_of_toNat_eq
  rw [BitVec.toNat_ofNat]; exact (Nat.mod_eq_of_lt w.isLt).symm

/-- For a numeral below 2^32, the word names it exactly when the word's value is it. -/
theorem eq_ofNat_iff (w : BitVec 32) (n : ℕ) (h : n < 2 ^ 32) : w = BitVec.ofNat 32 n ↔ w.toNat = n := by
  constructor
  · intro e; rw [e]; exact toNat_ofNat_of_lt n h
  · intro e; rw [← e]; exact eq_ofNat_toNat w

/-- Subtraction of a numeral on the left is addition of it on the right: words form a commutative ring and
    numerals are additive. -/
theorem sub_ofNat_eq_iff (w : BitVec 32) (off j : ℕ) :
    w - BitVec.ofNat 32 off = BitVec.ofNat 32 j ↔ w = BitVec.ofNat 32 (off + j) := by
  rw [BitVec.ofNat_add, BitVec.sub_eq_iff_eq_add, BitVec.add_comm]

/-- Shifting the word down by an offset shifts the numeral it names up by it (words are integers mod 2^32). -/
theorem oh_sub (w : BitVec 32) (off j : ℕ) : oh (w - BitVec.ofNat 32 off) j = oh w (off + j) := by
  unfold oh
  by_cases h : w = BitVec.ofNat 32 (off + j)
  · rw [if_pos h, if_pos ((sub_ofNat_eq_iff w off j).mpr h)]
  · rw [if_neg h, if_neg (fun h' => h ((sub_ofNat_eq_iff w off j).mp h'))]

/-- A one-hot weight times a value selects the value. -/
theorem oh_mul (w : BitVec 32) (n : ℕ) (x : EReal) : oh w n * x = if w = BitVec.ofNat 32 n then x else 0 := by
  unfold oh
  by_cases h : w = BitVec.ofNat 32 n
  · rw [if_pos h, if_pos h, one_mul]
  · rw [if_neg h, if_neg h, zero_mul]

/-! ## Splitting sums over ranges -/

/-- A sum over 10240 nodes is the sum of its eight chunks of 1280, added left to right. -/
theorem sum_chunks8 (f : ℕ → EReal) :
    (∑ n ∈ Finset.range 10240, f n)
      = (((((((∑ j ∈ Finset.range 1280, f j) + ∑ j ∈ Finset.range 1280, f (1280 + j))
          + ∑ j ∈ Finset.range 1280, f (2560 + j)) + ∑ j ∈ Finset.range 1280, f (3840 + j))
          + ∑ j ∈ Finset.range 1280, f (5120 + j)) + ∑ j ∈ Finset.range 1280, f (6400 + j))
          + ∑ j ∈ Finset.range 1280, f (7680 + j)) + ∑ j ∈ Finset.range 1280, f (8960 + j) := by
  have h1 : (∑ n ∈ Finset.range 2560, f n) = _ := Finset.sum_range_add f 1280 1280
  have h2 : (∑ n ∈ Finset.range 3840, f n) = _ := Finset.sum_range_add f 2560 1280
  have h3 : (∑ n ∈ Finset.range 5120, f n) = _ := Finset.sum_range_add f 3840 1280
  have h4 : (∑ n ∈ Finset.range 6400, f n) = _ := Finset.sum_range_add f 5120 1280
  have h5 : (∑ n ∈ Finset.range 7680, f n) = _ := Finset.sum_range_add f 6400 1280
  have h6 : (∑ n ∈ Finset.range 8960, f n) = _ := Finset.sum_range_add f 7680 1280
  have h7 : (∑ n ∈ Finset.range 10240, f n) = _ := Finset.sum_range_add f 8960 1280
  rw [h7, h6, h5, h4, h3, h2, h1]

/-- A word below 10240 picks its own row. -/
theorem pick_of_lt (T : ℕ → ℕ → EReal) (w : BitVec 32) (d : ℕ) (h : w.toNat < 10240) : pick T w d = T w.toNat d := by
  unfold pick
  rw [Finset.sum_eq_single_of_mem w.toNat (Finset.mem_range.mpr h)]
  · rw [oh_mul, if_pos (eq_ofNat_toNat w)]
  · intro n hn hne
    have hn' : n < 10240 := Finset.mem_range.mp hn
    rw [oh_mul, if_neg]
    intro e
    exact hne ((eq_ofNat_iff w n (by omega)).mp e).symm

/-- A word that names no row picks zero. -/
theorem pick_of_ge (T : ℕ → ℕ → EReal) (w : BitVec 32) (d : ℕ) (h : 10240 ≤ w.toNat) : pick T w d = 0 := by
  unfold pick
  apply Finset.sum_eq_zero
  intro n hn
  have hn' : n < 10240 := Finset.mem_range.mp hn
  rw [oh_mul, if_neg]
  intro e
  have : w.toNat = n := (eq_ofNat_iff w n (by omega)).mp e
  omega

/-- Summing block by block (A blocks of B consecutive indices, starting at block K) is summing over the A·B
    consecutive indices from B·K on. -/
theorem sum_blocks (f : ℕ → EReal) (B K : ℕ) : ∀ A : ℕ,
    (∑ s ∈ Finset.range A, ∑ e ∈ Finset.range B, f (B * (K + s) + e))
      = ∑ i ∈ Finset.range (A * B), f (B * K + i)
  | 0 => by simp
  | A + 1 => by
    rw [Finset.sum_range_succ, sum_blocks f B K A, add_one_mul, Finset.sum_range_add]
    congr 1
    apply Finset.sum_congr rfl
    intro e _
    congr 1
    ring

/-- A sum over the 640 edges of each of 125 steps of each of 2 slabs is the sum over the 160000 edges. -/
theorem sum_edges (f : ℕ → EReal) :
    (∑ s ∈ Finset.range 125, ∑ e ∈ Finset.range 640, f (640 * (125 * 0 + s) + e))
      + (∑ s ∈ Finset.range 125, ∑ e ∈ Finset.range 640, f (640 * (125 * 1 + s) + e))
      = ∑ e ∈ Finset.range 160000, f e := by
  rw [sum_blocks f 640 (125 * 0) 125, sum_blocks f 640 (125 * 1) 125]
  have h : (∑ e ∈ Finset.range 160000, f e) = _ := Finset.sum_range_add f 80000 80000
  rw [h]
  simp only [Nat.reduceMul, Nat.reduceAdd, Nat.zero_add, Nat.mul_zero]

end Cert.Spec

end
-- ==== Proof.Reg0Deg.lean ====
/-
  Region 0's partial degrees. The region visits the 160000 edges in 250 points of 640 edges; the first 125 points
  accumulate into slab 0 of the degree array [2, 10240, 128] and the last 125 into slab 1. At a point the body goes
  through the 10240 nodes in eight chunks of 1280: for a chunk starting at node `off` it builds the 640 × 1280 matrix
  whose entry (e, j) is 1 when edge e's target word minus `off` is the numeral j and 0 otherwise, contracts it over
  the edges against the 640 × 128 matrix of ones, and adds the result onto the chunk of the block it holds; the first
  point of each slab stores zeros over the whole block before that.

  The file reads this in four steps. (1) For any float values, what a point leaves in the block is ONE term of the
  point's target words and of the block it found (`degB`; zeros at the first point of a slab): the eight stores,
  each over its own chunk. (2) At the ideal values that term at (0, n, o) is the carried entry plus the number of the
  point's edges whose target word is the numeral n, the same in every lane o (`degB_apply`). (3) By induction on
  the points, after point n the block holds the sum of the specification's steps of the slab up to n (`outs_eq`).
  (4) The block is written back after the last point of each slab, the two blocks cover the array, so the array
  ends as the specification's `degVec` (`deg_eq`).
-/
import proofs.«406477_j5858335391841_3_alg».proof.Proof.Gen.KernelIdeal.Frame
import proofs.«406477_j5858335391841_3_alg».proof.Proof.Spec
import Idealize.ShloMosaic.Lib.Pipeline.Value
import Idealize.ShloMosaic.Lib.ValueIdx
import Idealize.ShloMosaic.Lib.IdealHost
import Idealize.ShloMosaic.PureOps.Ideal.Laws
import proofs.«406477_j5858335391841_3_alg».proof.Proof.OneHot
set_option maxRecDepth 16384

noncomputable section

open Idealize.ShloMosaic Idealize.ShloMosaic.TcCoe Idealize.ShloMosaic.ValueIdx Idealize.SL.Sem
open Idealize.ShloMosaic.Pipeline (Dat)

namespace Cert.KernelIdeal.Reg0D

open Cert.KernelIdeal Cert.KernelIdeal.Gen

variable (V : (c : Dev nD) → (b : Ref sig .tc) → Buf (Elt Ideal) ((c : Thread nD τ).loc b))

section Generic
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The one-hot words of a chunk of 1280 nodes starting at `off`: entry (e, j) is the bit "edge e's target word minus
    `off` is the numeral j", widened to 32 bits. -/
def ohw (off : BitVec 32) (v4 : IVec S640x1 32) : IVec S640x1280 32 :=
  extui 32 (cmpi .eq (broadcastTo S640x1280 (subi v4 (broadcast S640x1 off)) broadcasts_S640x1_S640x1280)
    (iota .tc S640x1280 32 [1] iota_S640x1280_d1_w32)) natLt_1_32

/-- The one-hot matrix of the chunk, as floats. -/
def ohm (off : BitVec 32) (v4 : IVec S640x1 32) : FVec F S640x1280 .bf16 :=
  truncf .bf16 (sitofp .f32 (ohw off v4)) bitsLt_bf16_f32

/-- What the body stores over a chunk of the degree block holding `acc`: `acc` plus the one-hot matrix of the chunk,
    contracted over the edges against the all-ones matrix. -/
def step (off : BitVec 32) (v4 : IVec S640x1 32) (acc : Vec F S1x1280x128 .f32) : FVec F S1x1280x128 .f32 :=
  shapeCast S1x1280x128
    (addf (shapeCast S1280x128 acc shapeCasts_S1x1280x128_S1280x128)
      (matmul dot_S640x1280_S640x128_S1280x128_0_0_1_1_n_n none (ohm off v4) (k0_pay12 (F := F))
        (constant S1280x128 .f32 0x00000000#32)))
    shapeCasts_S1280x128_S1x1280x128

theorem pay15_eq (v4 : IVec S640x1 32) (acc : Vec F S1x1280x128 .f32) :
    k0_pay15 v4 (iota .tc S640x1280 32 [1] iota_S640x1280_d1_w32) acc = step 0#32 v4 acc := rfl
theorem pay18_eq (v4 : IVec S640x1 32) (acc : Vec F S1x1280x128 .f32) :
    k0_pay18 v4 (iota .tc S640x1280 32 [1] iota_S640x1280_d1_w32) k0_pay12 acc = step 1280#32 v4 acc := rfl
theorem pay21_eq (v4 : IVec S640x1 32) (acc : Vec F S1x1280x128 .f32) :
    k0_pay21 k0_pay12 (k0_pay19 v4 (iota .tc S640x1280 32 [1] iota_S640x1280_d1_w32)) acc = step 2560#32 v4 acc := rfl
theorem pay24_eq (v4 : IVec S640x1 32) (acc : Vec F S1x1280x128 .f32) :
    k0_pay24 v4 (iota .tc S640x1280 32 [1] iota_S640x1280_d1_w32) k0_pay12 acc = step 3840#32 v4 acc := rfl
theorem pay28_eq (v4 : IVec S640x1 32) (acc : Vec F S1x1280x128 .f32) :
    k0_pay28 k0_pay12 (k0_pay25 v4 (iota .tc S640x1280 32 [1] iota_S640x1280_d1_w32)) acc = step 5120#32 v4 acc := rfl
theorem pay32_eq (v4 : IVec S640x1 32) (acc : Vec F S1x1280x128 .f32) :
    k0_pay32 k0_pay12 (k0_pay29 v4 (iota .tc S640x1280 32 [1] iota_S640x1280_d1_w32)) (k0_pay31 acc) = step 6400#32 v4 acc := rfl
theorem pay35_eq (v4 : IVec S640x1 32) (acc : Vec F S1x1280x128 .f32) :
    k0_pay35 v4 (iota .tc S640x1280 32 [1] iota_S640x1280_d1_w32) k0_pay12 acc = step 7680#32 v4 acc := rfl
theorem pay2_eq (v4 : IVec S640x1 32) (acc : Vec F S1x1280x128 .f32) :
    k0_pay2 k0_pay12 (k0_pay36 v4 (iota .tc S640x1280 32 [1] iota_S640x1280_d1_w32)) acc = step 8960#32 v4 acc := rfl

end Generic

section Canon
variable {Val : EltTy → Type} [∀ e, Nonempty (Val e)] {e : EltTy} {S : Shape}

/-- Where the earlier pieces of a list already cover an index, later pieces of the list do not matter there. -/
theorem canon_append_apply : ∀ (L L' : List (View.Piece Val S e)) (y : S.Idx) (_ : ∃ p ∈ L, y ∈ p.1.set),
    View.canon (L ++ L') y = View.canon L y
  | [], _, _, h => by obtain ⟨_, hm, _⟩ := h; exact absurd hm List.not_mem_nil
  | p :: L, L', y, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · have hL : ∃ p' ∈ L, y ∈ p'.1.set := by
        obtain ⟨p', hm, hy'⟩ := h
        rcases List.mem_cons.mp hm with rfl | hm
        · exact absurd hy' hy
        · exact ⟨p', hm, hy'⟩
      rw [List.cons_append, View.canon_cons_of_not_mem p _ hy, View.canon_cons_of_not_mem p L hy]
      exact canon_append_apply L L' y hL

theorem canon_append_of_cover (L L' : List (View.Piece Val S e)) (h : ∀ y, ∃ p ∈ L, y ∈ p.1.set) :
    View.canon (L ++ L') = View.canon L := funext fun y => canon_append_apply L L' y (h y)

variable {sig : RefSig} {κ : Kind} {sp : Space}

/-- A load of a later chunk does not see a store to an earlier one. -/
theorem readCov_skip (v : View sig κ sp S1x10240x128 e) (a b : ℕ) (sa sb : Fin 3 → ℕ)
    (ha : ∀ x, (![0, a, 0] : Fin 3 → ℕ) x + sa x ≤ S1x10240x128.size x)
    (hb : ∀ x, (![0, b, 0] : Fin 3 → ℕ) x + sb x ≤ S1x10240x128.size x)
    (hsa : sa 1 = 1280) (hab : a + 1280 ≤ b) (w : (Rect.unit (s := S1x10240x128) ![0, a, 0] sa ha).shape.Idx → Val e)
    (L : List (View.Piece Val S1x10240x128 e)) :
    v.readCov ((⟨Rect.unit (s := S1x10240x128) ![0, a, 0] sa ha, w⟩ : View.Piece Val S1x10240x128 e) :: L) (Rect.unit (s := S1x10240x128) ![0, b, 0] sb hb).toLoadRect
      = v.readCov L (Rect.unit (s := S1x10240x128) ![0, b, 0] sb hb).toLoadRect := by
  rw [View.readCov_eq_canon', View.readCov_eq_canon']
  funext j
  refine View.canon_cons_of_not_mem _ _ ?_
  rw [Rect.mem_set_unit]
  intro h
  have h1 := (h 1).2
  have e1 : (((Rect.unit (s := S1x10240x128) ![0, b, 0] sb hb).toLoadRect.idx j) 1 : ℕ) = b + 1 * (j 1).val := rfl
  rw [e1, hsa] at h1
  have e2 : (![0, a, 0] : Fin 3 → ℕ) 1 = a := rfl
  rw [e2] at h1
  omega

/-- A load of a chunk after the one store of the whole block reads the chunk of what was stored. -/
theorem readCov_whole (v : View sig κ sp S1x10240x128 e) (b : ℕ) (sb : Fin 3 → ℕ)
    (hb : ∀ x, (![0, b, 0] : Fin 3 → ℕ) x + sb x ≤ S1x10240x128.size x)
    (h0 : ∀ x, (![0, 0, 0] : Fin 3 → ℕ) x + (![1, 10240, 128] : Fin 3 → ℕ) x ≤ S1x10240x128.size x) (w : S1x10240x128.Idx → Val e) :
    v.readCov [(⟨Rect.unit (s := S1x10240x128) ![0, 0, 0] ![1, 10240, 128] h0, w⟩ : View.Piece Val S1x10240x128 e)] (Rect.unit (s := S1x10240x128) ![0, b, 0] sb hb).toLoadRect
      = View.ld w (Rect.unit (s := S1x10240x128) ![0, b, 0] sb hb) := by
  rw [View.readCov_eq_canon', show View.canon [(⟨Rect.unit (s := S1x10240x128) ![0, 0, 0] ![1, 10240, 128] h0, w⟩ : View.Piece Val S1x10240x128 e)] = w
    from View.canon_unit_zero (S := S1x10240x128) hz3 h0 w]

end Canon

section Pieces
variable {F : FTy → Type} [FloatOps F]

/-- The eight chunks of the degree block, 1280 nodes each. -/
abbrev R0 : Rect S1x10240x128 := Rect.unit ![0, 0, 0] ![1, 1280, 128] inb_S1x10240x128_S1x1280x128_0_0_0
abbrev R1 : Rect S1x10240x128 := Rect.unit ![0, 1280, 0] ![1, 1280, 128] inb_S1x10240x128_S1x1280x128_0_1280_0
abbrev R2 : Rect S1x10240x128 := Rect.unit ![0, 2560, 0] ![1, 1280, 128] inb_S1x10240x128_S1x1280x128_0_2560_0
abbrev R3 : Rect S1x10240x128 := Rect.unit ![0, 3840, 0] ![1, 1280, 128] inb_S1x10240x128_S1x1280x128_0_3840_0
abbrev R4 : Rect S1x10240x128 := Rect.unit ![0, 5120, 0] ![1, 1280, 128] inb_S1x10240x128_S1x1280x128_0_5120_0
abbrev R5 : Rect S1x10240x128 := Rect.unit ![0, 6400, 0] ![1, 1280, 128] inb_S1x10240x128_S1x1280x128_0_6400_0
abbrev R6 : Rect S1x10240x128 := Rect.unit ![0, 7680, 0] ![1, 1280, 128] inb_S1x10240x128_S1x1280x128_0_7680_0
abbrev R7 : Rect S1x10240x128 := Rect.unit ![0, 8960, 0] ![1, 1280, 128] inb_S1x10240x128_S1x1280x128_0_8960_0

/-- What one point leaves in the degree block that held `acc`, from the point's target words `rb`: chunk by chunk,
    the chunk of `acc` plus the chunk's one-hot count. -/
def degB (rb : Vec F S640x1 .i32) (acc : Vec F S1x10240x128 .f32) : Vec F S1x10240x128 .f32 :=
  View.canon
    [⟨R7, step 8960#32 (k0_pay5 rb) (View.ld acc R7)⟩,
     ⟨R6, step 7680#32 (k0_pay5 rb) (View.ld acc R6)⟩,
     ⟨R5, step 6400#32 (k0_pay5 rb) (View.ld acc R5)⟩,
     ⟨R4, step 5120#32 (k0_pay5 rb) (View.ld acc R4)⟩,
     ⟨R3, step 3840#32 (k0_pay5 rb) (View.ld acc R3)⟩,
     ⟨R2, step 2560#32 (k0_pay5 rb) (View.ld acc R2)⟩,
     ⟨R1, step 1280#32 (k0_pay5 rb) (View.ld acc R1)⟩,
     ⟨R0, step 0#32 (k0_pay5 rb) (View.ld acc R0)⟩]

/-- CASE B: the body leaves the carried block plus the point's counts. -/
theorem out_B (c : Dev nD) (i : grid0.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (arg6 : Memref sig .tc .vmem S1x10240x128 .f32) (harg6 : arg6.IsWhole) (hc0 : ¬cond0_0 i)
    (x0 : Vec F S640x1 .i32) (x1 : Vec F S640x1 .i32) (x2 : Vec F S10240x256 .bf16) (xo3 : Vec F S1x10240x256 .f32) (xo4 : Vec F S1x10240x128 .f32) :
    out0_B_4 c i arg2 harg2 arg3 harg3 arg4 harg4 arg5 harg5 arg6 harg6 hc0 x0 x1 x2 xo3 xo4 = degB x0 xo4 := by
  unfold out0_B_4
  rw [View.read_writes_eq_canon _ _ _ (cover0_B_4 c i arg2 harg2 arg3 harg3 arg4 harg4 arg5 harg5 arg6 harg6 hc0 x0 x1 x2 xo3 xo4)]
  unfold kernelRun0_B
  dsimp only
  sl_unfold_words
  simp only [View.readAt_eq_ld, harg2.read_unread, harg6.read_unread, View.ld_unit_zero (S := S640x1) hz2,
    pay15_eq, pay18_eq, pay21_eq, pay24_eq, pay28_eq, pay32_eq, pay35_eq, pay2_eq]
  rfl

end Pieces

section PiecesA
variable {F : FTy → Type} [FloatOps F]

/-- The eight chunk stores cover the block. -/
theorem cover8 (rb : Vec F S640x1 .i32) (acc : Vec F S1x10240x128 .f32) (y : S1x10240x128.Idx) :
    ∃ p ∈ ([⟨R7, step 8960#32 (k0_pay5 rb) (View.ld acc R7)⟩,
     ⟨R6, step 7680#32 (k0_pay5 rb) (View.ld acc R6)⟩,
     ⟨R5, step 6400#32 (k0_pay5 rb) (View.ld acc R5)⟩,
     ⟨R4, step 5120#32 (k0_pay5 rb) (View.ld acc R4)⟩,
     ⟨R3, step 3840#32 (k0_pay5 rb) (View.ld acc R3)⟩,
     ⟨R2, step 2560#32 (k0_pay5 rb) (View.ld acc R2)⟩,
     ⟨R1, step 1280#32 (k0_pay5 rb) (View.ld acc R1)⟩,
     ⟨R0, step 0#32 (k0_pay5 rb) (View.ld acc R0)⟩] : List (View.Piece (Elt F) S1x10240x128 .f32)), y ∈ p.1.set :=
  View.cover_of_tiledL (s := S1x10240x128) _ S1x1280x128.size (by sl_kernel_rfl) y

/-- CASE A: the body zeroes the block, then leaves the point's counts over the zeros. -/
theorem out_A (c : Dev nD) (i : grid0.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (arg6 : Memref sig .tc .vmem S1x10240x128 .f32) (harg6 : arg6.IsWhole) (hc0 : cond0_0 i)
    (x0 : Vec F S640x1 .i32) (x1 : Vec F S640x1 .i32) (x2 : Vec F S10240x256 .bf16) :
    out0_A_4 c i arg2 harg2 arg3 harg3 arg4 harg4 arg5 harg5 arg6 harg6 hc0 x0 x1 x2 = degB x0 (k0_pay4 (F := F)) := by
  unfold out0_A_4
  rw [View.read_writes_eq_canon _ _ _ (cover0_A_4 c i arg2 harg2 arg3 harg3 arg4 harg4 arg5 harg5 arg6 harg6 hc0 x0 x1 x2)]
  unfold kernelRun0_A
  dsimp only
  sl_unfold_words
  simp (disch := decide) only [View.readAt_eq_ld, harg2.read_unread, View.ld_unit_zero (S := S640x1) hz2, readCov_skip, readCov_whole]
  show View.canon ([_, _, _, _, _, _, _, _] ++ [_]) = _
  refine (canon_append_of_cover _ _ (fun y => ?_)).trans rfl
  exact cover8 x0 (k0_pay4 (F := F)) y

end PiecesA

section AtIdeal

/-- A compare bit, widened and read as a signed integer, is the one-hot weight. -/
theorem oh_entry (w : BitVec 32) (n : ℕ) :
    FloatOps.sitofp (F := Ideal) .f32 ((IntOp.cmpi .eq w (BitVec.ofNat 32 n)).setWidth 32) = Cert.Spec.oh w n := by
  show ((((BitVec.ofBool (w == BitVec.ofNat 32 n)).setWidth 32).toInt : ℝ) : EReal) = if w = BitVec.ofNat 32 n then 1 else 0
  by_cases h : w = BitVec.ofNat 32 n
  · rw [if_pos h, show (w == BitVec.ofNat 32 n) = true from by simpa using h]
    have : ((BitVec.ofBool true).setWidth 32).toInt = 1 := by decide
    rw [this]; simp
  · rw [if_neg h, show (w == BitVec.ofNat 32 n) = false from by simpa using h]
    have : ((BitVec.ofBool false).setWidth 32).toInt = 0 := by decide
    rw [this]; simp

/-- The one-hot matrix of the chunk at `off`, entry (e, j): the weight of edge e's target word on node `off + j`. -/
theorem ohm_apply (off : ℕ) (v4 : IVec S640x1 32) (e : Fin 640) (j : Fin 1280) :
    ohm (F := Ideal) (BitVec.ofNat 32 off) v4 (ix2 e j) = Cert.Spec.oh (v4 (ix2 e (0 : Fin 1))) (off + j.val) := by
  have hb : broadcastTo S640x1280 (subi v4 (broadcast S640x1 (BitVec.ofNat 32 off))) broadcasts_S640x1_S640x1280 (ix2 e j)
      = v4 (ix2 e (0 : Fin 1)) - BitVec.ofNat 32 off :=
    broadcastTo_apply _ broadcasts_S640x1_S640x1280 (ix2 e j) (ix2 e (0 : Fin 1)) (fun a => match a with
      | ⟨0, _⟩ => by show e.val = if (640 : ℕ) = 1 then 0 else e.val; rw [if_neg (by decide)]
      | ⟨1, _⟩ => by show 0 = if (1 : ℕ) = 1 then 0 else j.val; rw [if_pos rfl])
  have hi : iota .tc S640x1280 32 [1] iota_S640x1280_d1_w32 (ix2 e j) = BitVec.ofNat 32 j.val :=
    iota_single_apply .tc S640x1280 32 1 iota_S640x1280_d1_w32 (ix2 e j)
  show FloatOps.sitofp (F := Ideal) .f32 ((IntOp.cmpi .eq
      (broadcastTo S640x1280 (subi v4 (broadcast S640x1 (BitVec.ofNat 32 off))) broadcasts_S640x1_S640x1280 (ix2 e j))
      (iota .tc S640x1280 32 [1] iota_S640x1280_d1_w32 (ix2 e j))).setWidth 32) = _
  rw [hb, hi, oh_entry, Cert.Spec.oh_sub]

/-- The all-ones matrix. -/
theorem ones_apply (i : S640x128.Idx) : k0_pay12 (F := Ideal) i = 1 := by
  exact Ideal.ofBits_one_bf16

theorem lhsD_0 (i : S1280x128.Idx) (q : dot_S640x1280_S640x128_S1280x128_0_0_1_1_n_n.contr.Idx) :
    (dot_S640x1280_S640x128_S1280x128_0_0_1_1_n_n.lhsIdx i q 0).val = (q ⟨0, by decide⟩).val :=
  dot_S640x1280_S640x128_S1280x128_0_0_1_1_n_n.lhsIdx_val_of_single rfl i q
theorem lhsD_1 (i : S1280x128.Idx) (q : dot_S640x1280_S640x128_S1280x128_0_0_1_1_n_n.contr.Idx) :
    (dot_S640x1280_S640x128_S1280x128_0_0_1_1_n_n.lhsIdx i q 1).val = (i 0).val := by
  unfold DotDims.lhsIdx
  rw [dif_neg (show ¬(1 : Fin S640x1280.rank) ∈ dot_S640x1280_S640x128_S1280x128_0_0_1_1_n_n.lhsBatch by decide), dif_pos (show (1 : Fin S640x1280.rank) ∈ dot_S640x1280_S640x128_S1280x128_0_0_1_1_n_n.lhsNonContracting by decide)]
  rfl
theorem rhsD_0 (i : S1280x128.Idx) (q : dot_S640x1280_S640x128_S1280x128_0_0_1_1_n_n.contr.Idx) :
    (dot_S640x1280_S640x128_S1280x128_0_0_1_1_n_n.rhsIdx i q 0).val = (q ⟨0, by decide⟩).val :=
  dot_S640x1280_S640x128_S1280x128_0_0_1_1_n_n.rhsIdx_val_of_single rfl i q
theorem rhsD_1 (i : S1280x128.Idx) (q : dot_S640x1280_S640x128_S1280x128_0_0_1_1_n_n.contr.Idx) :
    (dot_S640x1280_S640x128_S1280x128_0_0_1_1_n_n.rhsIdx i q 1).val = (i 1).val := by
  unfold DotDims.rhsIdx
  rw [dif_neg (show ¬(1 : Fin S640x128.rank) ∈ dot_S640x1280_S640x128_S1280x128_0_0_1_1_n_n.rhsBatch by decide), dif_pos (show (1 : Fin S640x128.rank) ∈ dot_S640x1280_S640x128_S1280x128_0_0_1_1_n_n.rhsNonContracting by decide)]
  rfl

/-- The scatter product at (j, o): the sum over the 640 edges of the two operands' entries. -/
theorem deg_matmul_apply (A : FVec Ideal S640x1280 .bf16) (B : FVec Ideal S640x128 .bf16) (j : Fin 1280) (o : Fin 128) :
    matmul dot_S640x1280_S640x128_S1280x128_0_0_1_1_n_n none A B (constant (F := Ideal) S1280x128 .f32 0x00000000#32) (ix2 j o)
      = ∑ e : Fin 640, A (ix2 e j) * B (ix2 e o) := by
  show FloatOps.matmul dot_S640x1280_S640x128_S1280x128_0_0_1_1_n_n none A B (constant (F := Ideal) S1280x128 .f32 0x00000000#32) (ix2 j o) = _
  rw [Ideal.matmul_constant_zero_apply, ← Equiv.sum_comp (contrEquiv1 dot_S640x1280_S640x128_S1280x128_0_0_1_1_n_n 640 rfl rfl).symm]
  refine Finset.sum_congr rfl fun k _ => ?_
  have hk := contrEquiv1_symm_val dot_S640x1280_S640x128_S1280x128_0_0_1_1_n_n 640 rfl rfl k
  have el : dot_S640x1280_S640x128_S1280x128_0_0_1_1_n_n.lhsIdx (ix2 j o) ((contrEquiv1 dot_S640x1280_S640x128_S1280x128_0_0_1_1_n_n 640 rfl rfl).symm k) = ix2 k j := funext fun a => Fin.ext (by
    match a with
    | ⟨0, _⟩ => exact (lhsD_0 _ _).trans hk
    | ⟨1, _⟩ => exact lhsD_1 _ _)
  have er : dot_S640x1280_S640x128_S1280x128_0_0_1_1_n_n.rhsIdx (ix2 j o) ((contrEquiv1 dot_S640x1280_S640x128_S1280x128_0_0_1_1_n_n 640 rfl rfl).symm k) = ix2 k o := funext fun a => Fin.ext (by
    match a with
    | ⟨0, _⟩ => exact (rhsD_0 _ _).trans hk
    | ⟨1, _⟩ => exact rhsD_1 _ _)
  rw [el, er]

/-- One chunk's store at (0, j, o): the carried entry plus the number of the point's edges whose target is node `off + j`. -/
theorem step_apply (off : ℕ) (v4 : IVec S640x1 32) (acc : Vec Ideal S1x1280x128 .f32) (z : Fin 1) (j : Fin 1280) (o : Fin 128) :
    step (F := Ideal) (BitVec.ofNat 32 off) v4 acc (ix3 z j o)
      = acc (ix3 z j o) + ∑ e : Fin 640, Cert.Spec.oh (v4 (ix2 e (0 : Fin 1))) (off + j.val) := by
  obtain rfl : z = 0 := Subsingleton.elim _ _
  have e1 : (fun a : Fin 2 => (ix3 (0 : Fin 1) j o : S1x1280x128.Idx) a.succ) = (ix2 j o : S1280x128.Idx) :=
    funext fun a => by match a with | ⟨0, _⟩ => rfl | ⟨1, _⟩ => rfl
  have e2 : (Fin.cons ⟨0, Nat.one_pos⟩ (ix2 j o : S1280x128.Idx) : S1x1280x128.Idx) = ix3 (0 : Fin 1) j o :=
    funext fun a => by match a with | ⟨0, _⟩ => rfl | ⟨1, _⟩ => rfl | ⟨2, _⟩ => rfl
  unfold step
  refine (shapeCast_addUnit_apply ![1280, 128] _ shapeCasts_S1280x128_S1x1280x128 (ix3 0 j o)).trans ?_
  rw [e1, addf_apply, shapeCast_dropUnit_apply ![1280, 128] acc shapeCasts_S1x1280x128_S1280x128 (ix2 j o), e2, deg_matmul_apply]
  congr 1
  refine Finset.sum_congr rfl fun e _ => ?_
  rw [ohm_apply, ones_apply, mul_one]

end AtIdeal

section AtIdeal2

/-- What the eight chunk stores of a point leave over `acc`, index by index: the carried entry plus the number of the
    point's 640 edges whose target word names the node. -/
abbrev G (rb : Vec Ideal S640x1 .i32) (acc : Vec Ideal S1x10240x128 .f32) : S1x10240x128.Idx → EReal :=
  fun y => acc y + ∑ e : Fin 640, Cert.Spec.oh (rb (ix2 e (0 : Fin 1))) (y 1).val

/-- Each chunk's store is the chunk of `G`. -/
theorem piece_ok (off : ℕ) (hoff : ∀ x, (![0, off, 0] : Fin 3 → ℕ) x + (![1, 1280, 128] : Fin 3 → ℕ) x ≤ S1x10240x128.size x)
    (rb : Vec Ideal S640x1 .i32) (acc : Vec Ideal S1x10240x128 .f32) (x : S1x1280x128.Idx) :
    step (F := Ideal) (BitVec.ofNat 32 off) (k0_pay5 rb) (View.ld acc (Rect.unit (s := S1x10240x128) ![0, off, 0] ![1, 1280, 128] hoff)) x
      = G rb acc ((Rect.unit (s := S1x10240x128) ![0, off, 0] ![1, 1280, 128] hoff).emb x) := by
  obtain ⟨z, j, o, rfl⟩ : ∃ (z : Fin 1) (j : Fin 1280) (o : Fin 128), x = ix3 z j o := ⟨x 0, x 1, x 2, eq_ix3 x⟩
  rw [step_apply]
  show acc ((Rect.unit (s := S1x10240x128) ![0, off, 0] ![1, 1280, 128] hoff).emb (ix3 z j o)) + _ = acc _ + _
  congr 1
  refine Finset.sum_congr rfl fun e _ => ?_
  have h5 : k0_pay5 rb = rb := shapeCast_self rb shapeCasts_S640x1_S640x1
  rw [h5]
  show Cert.Spec.oh (rb (ix2 e (0 : Fin 1))) (off + j.val) = Cert.Spec.oh (rb (ix2 e (0 : Fin 1))) (off + 1 * j.val)
  rw [Nat.one_mul]

/-- So the block a point leaves is `G` of the point's target words and the carried block. -/
theorem degB_apply (rb : Vec Ideal S640x1 .i32) (acc : Vec Ideal S1x10240x128 .f32) (y : S1x10240x128.Idx) :
    degB (F := Ideal) rb acc y = G rb acc y := by
  unfold degB
  refine View.canon_apply_of_pieces (G rb acc) _ ?_ y (cover8 rb acc y)
  intro p hp x
  simp only [List.mem_cons, List.mem_singleton, List.not_mem_nil, or_false] at hp
  rcases hp with rfl | rfl | rfl | rfl | rfl | rfl | rfl | rfl
  · exact piece_ok 8960 _ rb acc x
  · exact piece_ok 7680 _ rb acc x
  · exact piece_ok 6400 _ rb acc x
  · exact piece_ok 5120 _ rb acc x
  · exact piece_ok 3840 _ rb acc x
  · exact piece_ok 2560 _ rb acc x
  · exact piece_ok 1280 _ rb acc x
  · exact piece_ok 0 _ rb acc x

/-- The block of zeros case A starts from. -/
theorem zero_apply (y : S1x10240x128.Idx) : k0_pay4 (F := Ideal) y = 0 := by
  unfold k0_pay4
  refine (shapeCast_addUnit_apply ![10240, 128] _ shapeCasts_S10240x128_S1x10240x128 y).trans ?_
  exact Ideal.ofBits_zero_f32

end AtIdeal2

section Run

/-- The target words by edge number, as the region finds them. -/
abbrev rowW (c : Dev nD) : ℕ → BitVec 32 := Cert.Spec.edgeW (V c (Pipeline.arrRef spec0 0))

/-- Point `t`'s block of 640 target words. -/
abbrev rblk (c : Dev nD) (t : Fin cfg0.N) : Vec Ideal S640x1 .i32 := iblk0 V c 0 t

/-- The printed index maps, decided over the grid: the target words' block index is the point, the degree block's is
    the slab `t / 125`. -/
theorem idx_facts : ∀ t : Fin cfg0.N, win0_0.index t (0 : Fin 2) = t.val ∧ win0_0.index t (1 : Fin 2) = 0
    ∧ win0_4.index t (0 : Fin 3) = t.val / 125 ∧ win0_4.index t (1 : Fin 3) = 0 ∧ win0_4.index t (2 : Fin 3) = 0 :=
  (by decide +kernel : ∀ t : Fin grid0.N, _)

/-- Point `t`'s block of target words is edges `640 t … 640 t + 639` of the column. -/
theorem rblk_apply (c : Dev nD) (t : Fin cfg0.N) (e : Fin 640) :
    rblk V c t (ix2 e (0 : Fin 1)) = rowW V c (640 * t.val + e.val) := by
  have hN : t.val < 250 := lt_of_lt_of_eq t.isLt (show cfg0.N = 250 from N_0)
  obtain ⟨i0, i1, -⟩ := idx_facts t
  have he : 640 * t.val + e.val < 160000 := by have := e.isLt; omega
  show _ = Cert.Spec.edgeW (V c (Pipeline.arrRef spec0 0)) (640 * t.val + e.val)
  unfold Cert.Spec.edgeW Cert.Spec.wrd
  rw [dif_pos ⟨he, Nat.one_pos⟩]
  show iblk0 V c 0 t (ix2 e (0 : Fin 1)) = _
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 640 + 1 * e.val = 640 * t.val + e.val; rw [i0]; omega
  | ⟨1, _⟩ => show win0_0.index t (1 : Fin 2) * 1 + 1 * 0 = 0; rw [i1]

/-- What a point's block of target words counts on node `n` is the specification's step. -/
theorem point_sum (c : Dev nD) (t : Fin cfg0.N) (n : ℕ) :
    ∑ e : Fin 640, Cert.Spec.oh (rblk V c t (ix2 e (0 : Fin 1))) n = Cert.Spec.degStep (rowW V c) t.val n := by
  unfold Cert.Spec.degStep
  rw [Finset.sum_range]
  exact Finset.sum_congr rfl fun e _ => by rw [rblk_apply]

/-- A point of case A leaves its own step. -/
theorem after_A (c : Dev nD) (t : Fin cfg0.N) (h0 : t.val % 125 = 0) (y : S1x10240x128.Idx) :
    (outsAt0 V c t.val t.isLt).2 y = Cert.Spec.degStep (rowW V c) t.val (y 1).val := by
  rw [outsAt0_A V c t h0]
  dsimp only
  refine (congrFun (out_A (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (rblk V c t) (iblk0 V c 1 t) (iblk0 V c 2 t)) y).trans ?_
  rw [degB_apply]
  show k0_pay4 (F := Ideal) y + _ = _
  rw [zero_apply, zero_add, point_sum]

/-- A point of case B adds its step to what the point before left. -/
theorem after_B (c : Dev nD) (t : Fin cfg0.N) (h0 : ¬t.val % 125 = 0) (y : S1x10240x128.Idx) :
    (outsAt0 V c t.val t.isLt).2 y
      = (outsAt0 V c (t.val - 1) (Nat.lt_of_le_of_lt (Nat.sub_le _ _) t.isLt)).2 y + Cert.Spec.degStep (rowW V c) t.val (y 1).val := by
  rw [outsAt0_B V c t h0]
  dsimp only
  refine (congrFun (out_B (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (rblk V c t) (iblk0 V c 1 t) (iblk0 V c 2 t) (outsAt0 V c (t.val - 1) (Nat.lt_of_le_of_lt (Nat.sub_le _ _) t.isLt)).1 (outsAt0 V c (t.val - 1) (Nat.lt_of_le_of_lt (Nat.sub_le _ _) t.isLt)).2) y).trans ?_
  rw [degB_apply]
  show _ + _ = _
  rw [point_sum]

/-- THE INVARIANT: after point `n` the degree block holds the steps of its slab up to `n`. -/
theorem outs_eq (c : Dev nD) : ∀ (n : ℕ) (h : n < cfg0.N) (y : S1x10240x128.Idx),
    (outsAt0 V c n h).2 y
      = ∑ s ∈ Finset.range (n % 125 + 1), Cert.Spec.degStep (rowW V c) (125 * (n / 125) + s) (y 1).val
  | 0, h, y => by
    rw [after_A V c ⟨0, h⟩ rfl y]
    simp
  | n + 1, h, y => by
    by_cases h0 : (n + 1) % 125 = 0
    · rw [after_A V c ⟨n + 1, h⟩ h0 y]
      have e : 125 * ((n + 1) / 125) = n + 1 := by omega
      rw [h0, Finset.sum_range_one, e]
    · rw [after_B V c ⟨n + 1, h⟩ h0 y]
      show (outsAt0 V c n _).2 y + Cert.Spec.degStep (rowW V c) (n + 1) (y 1).val = _
      rw [outs_eq c n _ y]
      have e1 : (n + 1) % 125 = n % 125 + 1 := by omega
      have e2 : (n + 1) / 125 = n / 125 := by omega
      have e3 : 125 * (n / 125) + (n % 125 + 1) = n + 1 := by omega
      rw [e1, e2, Finset.sum_range_succ _ (n % 125 + 1), e3]

/-- What a flushing point writes back is its block of the specification's partial degrees. -/
theorem flushed_eq (c : Dev nD) (t : Fin cfg0.N) (hf : (cfg0.win 4).flush t = true) :
    (dat0 V c).flushed 4 t = ((cfg0.win 4).blk t).view.read (Elt Ideal) (Cert.Spec.degVec (V c (Pipeline.arrRef spec0 0))) := by
  have h124 : t.val % 125 = 124 := (flush0_4 t).mp hf
  obtain ⟨-, -, j0, j1, -⟩ := idx_facts t
  show (cfg0.win 4).cut (grid0.coords t) ((dat0 V c).after 4 t) = _
  rw [after0_4]
  funext y
  rw [View.read_apply]
  show (outsAt0 V c t.val t.isLt).2 y = Cert.Spec.degVec (V c (Pipeline.arrRef spec0 0)) (((cfg0.win 4).blk t).view.emb y)
  rw [outs_eq V c t.val t.isLt y, h124]
  have hy0 : (y 0).val < 1 := (y 0).isLt
  have c0 : ((((cfg0.win 4).blk t).view.emb y) 0).val = t.val / 125 := by
    show win0_4.index t (0 : Fin 3) * 1 + 1 * (y 0).val = _; rw [j0]; omega
  have c1 : ((((cfg0.win 4).blk t).view.emb y) 1).val = (y 1).val := by
    show win0_4.index t (1 : Fin 3) * 10240 + 1 * (y 1).val = _; rw [j1]; omega
  show _ = Cert.Spec.degPart (rowW V c) ((((cfg0.win 4).blk t).view.emb y) 0).val ((((cfg0.win 4).blk t).view.emb y) 1).val
  rw [c0, c1]
  rfl

/-- Every entry of the array is in the block of its slab's last point. -/
theorem covered (c : Dev nD) (i : S2x10240x128.Idx) :
    ∃ t : Fin cfg0.N, (cfg0.win 4).flush t = true ∧ i ∈ ((cfg0.win 4).blk t).view.set := by
  have hN : cfg0.N = 250 := N_0
  have hi0 : (i 0).val < 2 := (i 0).isLt
  have hi1 : (i 1).val < 10240 := (i 1).isLt
  have hi2 : (i 2).val < 128 := (i 2).isLt
  obtain ⟨t, ht⟩ : ∃ t : Fin cfg0.N, t.val = 125 * (i 0).val + 124 := ⟨⟨125 * (i 0).val + 124, by rw [hN]; omega⟩, rfl⟩
  obtain ⟨-, -, j0, j1, j2⟩ := idx_facts t
  refine ⟨t, (flush0_4 t).mpr (by omega), ?_⟩
  show i ∈ ((View.whole main_v10_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; rw [j0]; omega
  | ⟨1, _⟩ => show win0_4.index t (1 : Fin 3) * 10240 ≤ (i 1).val ∧ (i 1).val < win0_4.index t (1 : Fin 3) * 10240 + 10240; rw [j1]; omega
  | ⟨2, _⟩ => show win0_4.index t (2 : Fin 3) * 128 ≤ (i 2).val ∧ (i 2).val < win0_4.index t (2 : Fin 3) * 128 + 128; rw [j2]; omega

/-- Region 0's second result array: the two slabs of partial degrees. -/
theorem deg_eq (c : Dev nD) :
    (dat0 (F := Ideal) V c).arrAt 4 cfg0.N = Cert.Spec.degVec (V c (Pipeline.arrRef spec0 0)) :=
  (dat0 V c).arrAt_eq_of_cover 4 (Cert.Spec.degVec (V c (Pipeline.arrRef spec0 0))) (fun t hf => flushed_eq V c t hf)
    (fun i => covered c i)

end Run

end Cert.KernelIdeal.Reg0D

end
-- ==== Proof.Reg0.lean ====
/-
  Region 0 of the graph-convolution kernel: the partial neighbour sums.

  The region visits the 160000 edges in 250 grid points of 640 edges. At a point the body gathers, for each of its
  edges, the table's row named by the edge's source word — a one-hot matrix of the source words times the table,
  chunk by chunk of 1280 rows, the eight chunk products added left to right onto zero — and scatters the gathered
  rows onto the nodes: for each chunk of 1280 nodes, the transposed one-hot matrix of the target words times the
  gathered rows is added onto the chunk's slice of the output's block. The first point of a slab (points 0 and 125)
  zeroes the block before adding; every other point adds onto what the point before left. So after point `n` the
  block holds the steps of its slab from the slab's first point up to `n`, and the slab's last point (124, 249)
  writes back the slab of `Cert.Spec.nbrVec`.

  The module reads that off in four layers: the body's three operations at an index over the extended reals (the
  one-hot entry, the two matrix products); one store of the body as "what was there plus the point's addend",
  uniformly in the chunk; the two cases of a point (eight stores over the carried contents; a zeroing store and then
  eight stores each reading back what the earlier ones left); and the induction over the points with the write-back
  and the cover of the result array by the two slabs' blocks.
-/
import proofs.«406477_j5858335391841_3_alg».proof.Proof.Gen.KernelIdeal.Frame
import proofs.«406477_j5858335391841_3_alg».proof.Proof.Spec
import proofs.«406477_j5858335391841_3_alg».proof.Proof.OneHot
import proofs.«406477_j5858335391841_3_alg».proof.Proof.Reg0Deg
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Reg0

open Cert.KernelIdeal Cert.KernelIdeal.Gen

/-! ## The body's vocabulary, at any float instance

  Every one of the body's eight node chunks builds the same three things: a one-hot matrix of a column of words
  against the chunk's 1280 numerals, a product of it with a table slice (the gather) and a product of its transpose
  with the gathered rows, added onto the accumulator's slice (the scatter). -/

section Vocabulary
variable {F : FTy → Type} [FloatOps F]

/-- The lane numbers 0 … 1279 along axis 1 of a [640, 1280] matrix. -/
abbrev lanes : IVec S640x1280 32 := iota .tc S640x1280 32 [1] iota_S640x1280_d1_w32

/-- The one-hot matrix of a column of 640 words against the numerals `off … off + 1279`: entry (e, j) is 1 when
    word e minus `off` is the numeral j, else 0. -/
def ohm (w : IVec S640x1 32) (off : BitVec 32) : FVec F S640x1280 .bf16 :=
  truncf .bf16 (sitofp .f32 (extui 32 (cmpi .eq (broadcastTo S640x1280 (subi w (broadcast S640x1 off))
    broadcasts_S640x1_S640x1280) lanes) natLt_1_32)) bitsLt_bf16_f32

/-- One chunk's gather: the one-hot matrix times a 1280-row slice of the table. -/
def gat (m : FVec F S640x1280 .bf16) (t : Vec F S1280x256 .bf16) : FVec F S640x256 .f32 :=
  matmul dot_S640x1280_S1280x256_S640x256_1_0_0_1_n_n none m
    (shapeCast S1280x256 t shapeCasts_S1280x256_S1280x256) (constant S640x256 .f32 0x00000000#32)

/-- The gathered rows: the eight chunks' gathers of the source words added left to right onto zero, narrowed. -/
def gathered (cw : IVec S640x1 32) (t0 t1 t2 t3 t4 t5 t6 t7 : Vec F S1280x256 .bf16) : FVec F S640x256 .bf16 :=
  truncf .bf16
    (addf (addf (addf (addf (addf (addf (addf (addf (broadcast S640x256 (Scalar.ofBits .f32 0x00000000#32))
      (gat (ohm cw 0#32) t0)) (gat (ohm cw 1280#32) t1)) (gat (ohm cw 2560#32) t2)) (gat (ohm cw 3840#32) t3))
      (gat (ohm cw 5120#32) t4)) (gat (ohm cw 6400#32) t5)) (gat (ohm cw 7680#32) t6)) (gat (ohm cw 8960#32) t7))
    bitsLt_bf16_f32

/-- One chunk's scatter: the accumulator's slice plus the transposed one-hot matrix times the gathered rows. -/
def scat (m : FVec F S640x1280 .bf16) (g : FVec F S640x256 .bf16) (a : Vec F S1x1280x256 .f32) :
    FVec F S1x1280x256 .f32 :=
  shapeCast S1x1280x256
    (addf (shapeCast S1280x256 a shapeCasts_S1x1280x256_S1280x256)
      (matmul dot_S640x1280_S640x256_S1280x256_0_0_1_1_n_n none m g (constant S1280x256 .f32 0x00000000#32)))
    shapeCasts_S1280x256_S1x1280x256

end Vocabulary

/-! ## The vocabulary read at an index, over the extended reals -/

/-- A compare bit widened and converted is the indicator of the equality. -/
theorem indicator_of_cmp (a b : BitVec 32) :
    FloatOps.sitofp (F := Ideal) .f32 ((IntOp.cmpi .eq a b).setWidth 32) = if a = b then (1 : EReal) else 0 := by
  have hc : IntOp.cmpi .eq a b = BitVec.ofBool (a == b) := rfl
  rw [hc]
  by_cases h : a = b
  · rw [if_pos h, show (a == b) = true from by simpa using h]
    show (((BitVec.setWidth 32 (BitVec.ofBool true)).toInt : ℝ) : EReal) = 1
    rw [show (BitVec.setWidth 32 (BitVec.ofBool true)).toInt = 1 from by decide]
    simp
  · rw [if_neg h, show (a == b) = false from by simpa using h]
    show (((BitVec.setWidth 32 (BitVec.ofBool false)).toInt : ℝ) : EReal) = 0
    rw [show (BitVec.setWidth 32 (BitVec.ofBool false)).toInt = 0 from by decide]
    simp

/-- The one-hot matrix's entry (e, j) is the one-hot weight of word e shifted down by the offset, at j. -/
theorem ohm_apply (w : IVec S640x1 32) (off : BitVec 32) (e : Fin 640) (j : Fin 1280) :
    ohm (F := Ideal) w off (ix2 e j) = Cert.Spec.oh (w (ix2 e 0) - off) j.val := by
  unfold ohm
  rw [truncf_apply, sitofp_apply, extui_apply]
  show FloatOps.sitofp (F := Ideal) .f32 ((IntOp.cmpi .eq
    (broadcastTo S640x1280 (subi w (broadcast S640x1 off)) broadcasts_S640x1_S640x1280 (ix2 e j))
    (lanes (ix2 e j))).setWidth 32) = _
  have hl : lanes (ix2 e j) = BitVec.ofNat 32 j.val :=
    iota_single_apply .tc S640x1280 32 1 iota_S640x1280_d1_w32 (ix2 e j)
  rw [broadcastTo_apply _ broadcasts_S640x1_S640x1280 (ix2 e j) (ix2 e 0) (fun a => by
        match a with
        | ⟨0, _⟩ => rfl
        | ⟨1, _⟩ => rfl),
    hl, indicator_of_cmp]
  rfl

/-! ### The two matrix products at an index -/

theorem lhs_gat_0 (i : S640x256.Idx) (q : dot_S640x1280_S1280x256_S640x256_1_0_0_1_n_n.contr.Idx) :
    (dot_S640x1280_S1280x256_S640x256_1_0_0_1_n_n.lhsIdx i q 0).val = (i 0).val := by
  unfold DotDims.lhsIdx
  rw [dif_neg (show ¬(0 : Fin S640x1280.rank) ∈ dot_S640x1280_S1280x256_S640x256_1_0_0_1_n_n.lhsBatch by decide),
    dif_pos (show (0 : Fin S640x1280.rank) ∈ dot_S640x1280_S1280x256_S640x256_1_0_0_1_n_n.lhsNonContracting by decide)]
  rfl
theorem lhs_gat_1 (i : S640x256.Idx) (q : dot_S640x1280_S1280x256_S640x256_1_0_0_1_n_n.contr.Idx) :
    (dot_S640x1280_S1280x256_S640x256_1_0_0_1_n_n.lhsIdx i q 1).val = (q ⟨0, by decide⟩).val :=
  dot_S640x1280_S1280x256_S640x256_1_0_0_1_n_n.lhsIdx_val_of_single rfl i q
theorem rhs_gat_0 (i : S640x256.Idx) (q : dot_S640x1280_S1280x256_S640x256_1_0_0_1_n_n.contr.Idx) :
    (dot_S640x1280_S1280x256_S640x256_1_0_0_1_n_n.rhsIdx i q 0).val = (q ⟨0, by decide⟩).val :=
  dot_S640x1280_S1280x256_S640x256_1_0_0_1_n_n.rhsIdx_val_of_single rfl i q
theorem rhs_gat_1 (i : S640x256.Idx) (q : dot_S640x1280_S1280x256_S640x256_1_0_0_1_n_n.contr.Idx) :
    (dot_S640x1280_S1280x256_S640x256_1_0_0_1_n_n.rhsIdx i q 1).val = (i 1).val := by
  unfold DotDims.rhsIdx
  rw [dif_neg (show ¬(1 : Fin S1280x256.rank) ∈ dot_S640x1280_S1280x256_S640x256_1_0_0_1_n_n.rhsBatch by decide),
    dif_pos (show (1 : Fin S1280x256.rank) ∈ dot_S640x1280_S1280x256_S640x256_1_0_0_1_n_n.rhsNonContracting by decide)]
  rfl

/-- The gather at (e, d): row e of the one-hot matrix against column d of the slice, over the 1280 lanes. -/
theorem gat_apply (m : FVec Ideal S640x1280 .bf16) (t : FVec Ideal S1280x256 .bf16) (e : Fin 640) (d : Fin 256) :
    gat m t (ix2 e d) = ∑ k : Fin 1280, m (ix2 e k) * t (ix2 k d) := by
  unfold gat
  rw [shapeCast_self]
  refine (Ideal.matmul_constant_zero_apply dot_S640x1280_S1280x256_S640x256_1_0_0_1_n_n none m t (ix2 e d)).trans ?_
  rw [← Equiv.sum_comp (contrEquiv1 dot_S640x1280_S1280x256_S640x256_1_0_0_1_n_n 1280 rfl rfl).symm]
  refine Finset.sum_congr rfl fun k _ => ?_
  have hk := contrEquiv1_symm_val dot_S640x1280_S1280x256_S640x256_1_0_0_1_n_n 1280 rfl rfl k
  have el : dot_S640x1280_S1280x256_S640x256_1_0_0_1_n_n.lhsIdx (ix2 e d)
      ((contrEquiv1 dot_S640x1280_S1280x256_S640x256_1_0_0_1_n_n 1280 rfl rfl).symm k) = ix2 e k :=
    funext fun a => Fin.ext (by
      match a with
      | ⟨0, _⟩ => exact lhs_gat_0 _ _
      | ⟨1, _⟩ => exact (lhs_gat_1 _ _).trans hk)
  have er : dot_S640x1280_S1280x256_S640x256_1_0_0_1_n_n.rhsIdx (ix2 e d)
      ((contrEquiv1 dot_S640x1280_S1280x256_S640x256_1_0_0_1_n_n 1280 rfl rfl).symm k) = ix2 k d :=
    funext fun a => Fin.ext (by
      match a with
      | ⟨0, _⟩ => exact (rhs_gat_0 _ _).trans hk
      | ⟨1, _⟩ => exact rhs_gat_1 _ _)
  rw [el, er]

theorem lhs_scat_0 (i : S1280x256.Idx) (q : dot_S640x1280_S640x256_S1280x256_0_0_1_1_n_n.contr.Idx) :
    (dot_S640x1280_S640x256_S1280x256_0_0_1_1_n_n.lhsIdx i q 0).val = (q ⟨0, by decide⟩).val :=
  dot_S640x1280_S640x256_S1280x256_0_0_1_1_n_n.lhsIdx_val_of_single rfl i q
theorem lhs_scat_1 (i : S1280x256.Idx) (q : dot_S640x1280_S640x256_S1280x256_0_0_1_1_n_n.contr.Idx) :
    (dot_S640x1280_S640x256_S1280x256_0_0_1_1_n_n.lhsIdx i q 1).val = (i 0).val := by
  unfold DotDims.lhsIdx
  rw [dif_neg (show ¬(1 : Fin S640x1280.rank) ∈ dot_S640x1280_S640x256_S1280x256_0_0_1_1_n_n.lhsBatch by decide),
    dif_pos (show (1 : Fin S640x1280.rank) ∈ dot_S640x1280_S640x256_S1280x256_0_0_1_1_n_n.lhsNonContracting by decide)]
  rfl
theorem rhs_scat_0 (i : S1280x256.Idx) (q : dot_S640x1280_S640x256_S1280x256_0_0_1_1_n_n.contr.Idx) :
    (dot_S640x1280_S640x256_S1280x256_0_0_1_1_n_n.rhsIdx i q 0).val = (q ⟨0, by decide⟩).val :=
  dot_S640x1280_S640x256_S1280x256_0_0_1_1_n_n.rhsIdx_val_of_single rfl i q
theorem rhs_scat_1 (i : S1280x256.Idx) (q : dot_S640x1280_S640x256_S1280x256_0_0_1_1_n_n.contr.Idx) :
    (dot_S640x1280_S640x256_S1280x256_0_0_1_1_n_n.rhsIdx i q 1).val = (i 1).val := by
  unfold DotDims.rhsIdx
  rw [dif_neg (show ¬(1 : Fin S640x256.rank) ∈ dot_S640x1280_S640x256_S1280x256_0_0_1_1_n_n.rhsBatch by decide),
    dif_pos (show (1 : Fin S640x256.rank) ∈ dot_S640x1280_S640x256_S1280x256_0_0_1_1_n_n.rhsNonContracting by decide)]
  rfl

/-- The scatter at (0, j, d): the accumulator there plus column j of the one-hot matrix against column d of the
    gathered rows, over the 640 edges. -/
theorem scat_apply (m : FVec Ideal S640x1280 .bf16) (g : FVec Ideal S640x256 .bf16) (a : FVec Ideal S1x1280x256 .f32)
    (j : Fin 1280) (d : Fin 256) :
    scat m g a (ix3 0 j d) = a (ix3 0 j d) + ∑ e : Fin 640, m (ix2 e j) * g (ix2 e d) := by
  unfold scat
  rw [shapeCast_apply _ shapeCasts_S1280x256_S1x1280x256 (ix3 0 j d) (ix2 j d) (by
        rw [Shape.rowMajor_val_two, Shape.rowMajor_val_three]
        show j.val * 256 + d.val = ((0 : Fin 1).val * 1280 + j.val) * 256 + d.val
        simp),
    addf_apply,
    shapeCast_apply _ shapeCasts_S1x1280x256_S1280x256 (ix2 j d) (ix3 0 j d) (by
        rw [Shape.rowMajor_val_two, Shape.rowMajor_val_three]
        show ((0 : Fin 1).val * 1280 + j.val) * 256 + d.val = j.val * 256 + d.val
        simp)]
  congr 1
  refine (Ideal.matmul_constant_zero_apply dot_S640x1280_S640x256_S1280x256_0_0_1_1_n_n none m g (ix2 j d)).trans ?_
  rw [← Equiv.sum_comp (contrEquiv1 dot_S640x1280_S640x256_S1280x256_0_0_1_1_n_n 640 rfl rfl).symm]
  refine Finset.sum_congr rfl fun k _ => ?_
  have hk := contrEquiv1_symm_val dot_S640x1280_S640x256_S1280x256_0_0_1_1_n_n 640 rfl rfl k
  have el : dot_S640x1280_S640x256_S1280x256_0_0_1_1_n_n.lhsIdx (ix2 j d)
      ((contrEquiv1 dot_S640x1280_S640x256_S1280x256_0_0_1_1_n_n 640 rfl rfl).symm k) = ix2 k j :=
    funext fun a => Fin.ext (by
      match a with
      | ⟨0, _⟩ => exact (lhs_scat_0 _ _).trans hk
      | ⟨1, _⟩ => exact lhs_scat_1 _ _)
  have er : dot_S640x1280_S640x256_S1280x256_0_0_1_1_n_n.rhsIdx (ix2 j d)
      ((contrEquiv1 dot_S640x1280_S640x256_S1280x256_0_0_1_1_n_n 640 rfl rfl).symm k) = ix2 k d :=
    funext fun a => Fin.ext (by
      match a with
      | ⟨0, _⟩ => exact (rhs_scat_0 _ _).trans hk
      | ⟨1, _⟩ => exact rhs_scat_1 _ _)
  rw [el, er]

/-! ## A chunk's gather over the table's rows, and the gathered rows as a one-hot pick -/

/-- One chunk's gather against the table's rows `off … off + 1279`: the one-hot weights of the word at those
    numerals against the rows. -/
theorem gat_chunk (cw : IVec S640x1 32) (off : ℕ) (t : FVec Ideal S1280x256 .bf16) (T : ℕ → ℕ → EReal)
    (ht : ∀ (k : Fin 1280) (d : Fin 256), t (ix2 k d) = T (off + k.val) d.val) (e : Fin 640) (d : Fin 256) :
    gat (F := Ideal) (ohm cw (BitVec.ofNat 32 off)) t (ix2 e d)
      = ∑ j ∈ Finset.range 1280, Cert.Spec.oh (cw (ix2 e 0)) (off + j) * T (off + j) d.val := by
  rw [gat_apply, ← Fin.sum_univ_eq_sum_range (fun j => Cert.Spec.oh (cw (ix2 e 0)) (off + j) * T (off + j) d.val) 1280]
  refine Finset.sum_congr rfl fun k _ => ?_
  rw [ohm_apply, ht, Cert.Spec.oh_sub]

/-- The gathered rows are the one-hot pick of the table at the source words: the eight chunks' sums, added left
    to right onto zero, are the sum over all 10240 rows. -/
theorem gathered_eq_pick (cw : IVec S640x1 32) (t0 t1 t2 t3 t4 t5 t6 t7 : FVec Ideal S1280x256 .bf16) (T : ℕ → ℕ → EReal)
    (h0 : ∀ (k : Fin 1280) (d : Fin 256), t0 (ix2 k d) = T (0 + k.val) d.val)
    (h1 : ∀ (k : Fin 1280) (d : Fin 256), t1 (ix2 k d) = T (1280 + k.val) d.val)
    (h2 : ∀ (k : Fin 1280) (d : Fin 256), t2 (ix2 k d) = T (2560 + k.val) d.val)
    (h3 : ∀ (k : Fin 1280) (d : Fin 256), t3 (ix2 k d) = T (3840 + k.val) d.val)
    (h4 : ∀ (k : Fin 1280) (d : Fin 256), t4 (ix2 k d) = T (5120 + k.val) d.val)
    (h5 : ∀ (k : Fin 1280) (d : Fin 256), t5 (ix2 k d) = T (6400 + k.val) d.val)
    (h6 : ∀ (k : Fin 1280) (d : Fin 256), t6 (ix2 k d) = T (7680 + k.val) d.val)
    (h7 : ∀ (k : Fin 1280) (d : Fin 256), t7 (ix2 k d) = T (8960 + k.val) d.val)
    (e : Fin 640) (d : Fin 256) :
    gathered (F := Ideal) cw t0 t1 t2 t3 t4 t5 t6 t7 (ix2 e d) = Cert.Spec.pick T (cw (ix2 e 0)) d.val := by
  unfold gathered
  rw [truncf_apply]
  simp only [addf_apply]
  rw [broadcast_apply]
  show Ideal.ofBits .f32 0x00000000#32 + gat (F := Ideal) (ohm cw (BitVec.ofNat 32 0)) t0 (ix2 e d)
      + gat (F := Ideal) (ohm cw (BitVec.ofNat 32 1280)) t1 (ix2 e d) + gat (F := Ideal) (ohm cw (BitVec.ofNat 32 2560)) t2 (ix2 e d)
      + gat (F := Ideal) (ohm cw (BitVec.ofNat 32 3840)) t3 (ix2 e d) + gat (F := Ideal) (ohm cw (BitVec.ofNat 32 5120)) t4 (ix2 e d)
      + gat (F := Ideal) (ohm cw (BitVec.ofNat 32 6400)) t5 (ix2 e d) + gat (F := Ideal) (ohm cw (BitVec.ofNat 32 7680)) t6 (ix2 e d)
      + gat (F := Ideal) (ohm cw (BitVec.ofNat 32 8960)) t7 (ix2 e d) = _
  rw [gat_chunk cw 0 t0 T h0, gat_chunk cw 1280 t1 T h1, gat_chunk cw 2560 t2 T h2, gat_chunk cw 3840 t3 T h3,
    gat_chunk cw 5120 t4 T h4, gat_chunk cw 6400 t5 T h5, gat_chunk cw 7680 t6 T h6, gat_chunk cw 8960 t7 T h7,
    Ideal.ofBits_zero_f32, zero_add]
  unfold Cert.Spec.pick
  rw [Cert.Spec.sum_chunks8]
  simp only [Nat.zero_add]

/-! ## What one grid point adds, and one store of the body -/

/-- What one grid point adds at index `y` of the output's block: over the point's 640 edges, the one-hot weight of
    the edge's target word at node `y 1` times the table's row picked by the edge's source word, at feature `y 2`. -/
def addend (rw cw : IVec S640x1 32) (T : ℕ → ℕ → EReal) (y : S1x10240x256.Idx) : EReal :=
  ∑ e : Fin 640, Cert.Spec.oh (rw (ix2 e 0)) (y 1).val * Cert.Spec.pick T (cw (ix2 e 0)) (y 2).val

/-- One store of the body: the chunk at rows `off … off + 1279` receives, at each of its indices, what the
    accumulator held there (`A`, through the slice `a` the body loaded) plus the point's addend there. -/
theorem store_apply (off : ℕ) (inb : ∀ a, (![0, off, 0] : Fin 3 → ℕ) a + (![1, 1280, 256] : Fin 3 → ℕ) a ≤ S1x10240x256.size a)
    (rw cw : IVec S640x1 32) (T : ℕ → ℕ → EReal) (g : FVec Ideal S640x256 .bf16)
    (hg : ∀ (e : Fin 640) (d : Fin 256), g (ix2 e d) = Cert.Spec.pick T (cw (ix2 e 0)) d.val)
    (a : FVec Ideal S1x1280x256 .f32) (A : S1x10240x256.Idx → EReal)
    (ha : ∀ x, a x = A ((Rect.unit (s := S1x10240x256) ![0, off, 0] ![1, 1280, 256] inb).emb x))
    (x : (Rect.unit (s := S1x10240x256) ![0, off, 0] ![1, 1280, 256] inb).shape.Idx) :
    scat (F := Ideal) (ohm rw (BitVec.ofNat 32 off)) g a x
      = A ((Rect.unit (s := S1x10240x256) ![0, off, 0] ![1, 1280, 256] inb).emb x)
        + addend rw cw T ((Rect.unit (s := S1x10240x256) ![0, off, 0] ![1, 1280, 256] inb).emb x) := by
  obtain ⟨p, j, d, rfl⟩ : ∃ (p : Fin 1) (j : Fin 1280) (d : Fin 256), x = ix3 p j d := ⟨x 0, x 1, x 2, eq_ix3 x⟩
  obtain rfl : p = 0 := Subsingleton.elim _ _
  rw [scat_apply, ha]
  congr 1
  unfold addend
  refine Finset.sum_congr rfl fun e _ => ?_
  rw [ohm_apply, hg, Cert.Spec.oh_sub]
  have e1 : (((Rect.unit (s := S1x10240x256) ![0, off, 0] ![1, 1280, 256] inb).emb (ix3 0 j d)) 1).val = off + j.val := by
    show off + 1 * j.val = _; omega
  have e2 : (((Rect.unit (s := S1x10240x256) ![0, off, 0] ![1, 1280, 256] inb).emb (ix3 0 j d)) 2).val = d.val := by
    show 0 + 1 * d.val = _; omega
  rw [e1, e2]

/-! ## The body's loads of its input buffers, read back -/

theorem zero_offsets2 : (![0, 0] : Fin 2 → Nat) = fun _ => 0 := funext fun a => by fin_cases a <;> rfl
theorem zero_offsets3 : (![0, 0, 0] : Fin 3 → Nat) = fun _ => 0 := funext fun a => by fin_cases a <;> rfl

/-- The target words as the body reads them off their staging buffer. -/
abbrev rowsOf (arg2 : Memref sig .tc .vmem S640x1 .i32) (harg2 : arg2.IsWhole) (x0 : Vec Ideal S640x1 .i32) : IVec S640x1 32 :=
  k0_pay5 (F := Ideal) (View.readAt (Elt Ideal) arg2.view (Rect.unit ![0, 0] S640x1.size inb_S640x1_S640x1_0_0).toLoadRect (harg2.unread x0))

/-- The source words as the body reads them off their staging buffer. -/
abbrev colsOf (arg3 : Memref sig .tc .vmem S640x1 .i32) (harg3 : arg3.IsWhole) (x1 : Vec Ideal S640x1 .i32) : IVec S640x1 32 :=
  k0_pay6 (F := Ideal) (View.readAt (Elt Ideal) arg3.view (Rect.unit ![0, 0] S640x1.size inb_S640x1_S640x1_0_0).toLoadRect (harg3.unread x1))

/-- The table's rows `off … off + 1279` as the body reads them off the table's staging buffer. -/
abbrev tabOf (arg4 : Memref sig .tc .vmem S10240x256 .bf16) (harg4 : arg4.IsWhole) (x2 : Vec Ideal S10240x256 .bf16) (off : ℕ)
    (inb : ∀ a, (![off, 0] : Fin 2 → ℕ) a + S1280x256.size a ≤ S10240x256.size a) : Vec Ideal S1280x256 .bf16 :=
  View.readAt (Elt Ideal) arg4.view (Rect.unit (s := S10240x256) ![off, 0] S1280x256.size inb).toLoadRect (harg4.unread x2)

theorem rowsOf_apply (arg2 : Memref sig .tc .vmem S640x1 .i32) (harg2 : arg2.IsWhole) (x0 : Vec Ideal S640x1 .i32) (i : S640x1.Idx) :
    rowsOf arg2 harg2 x0 i = x0 i := by
  unfold rowsOf k0_pay5
  rw [shapeCast_self, View.readAt_eq_ld, harg2.read_unread, View.ld_unit_zero (S := S640x1) zero_offsets2]

theorem colsOf_apply (arg3 : Memref sig .tc .vmem S640x1 .i32) (harg3 : arg3.IsWhole) (x1 : Vec Ideal S640x1 .i32) (i : S640x1.Idx) :
    colsOf arg3 harg3 x1 i = x1 i := by
  unfold colsOf k0_pay6
  rw [shapeCast_self, View.readAt_eq_ld, harg3.read_unread, View.ld_unit_zero (S := S640x1) zero_offsets2]

theorem tabOf_apply (arg4 : Memref sig .tc .vmem S10240x256 .bf16) (harg4 : arg4.IsWhole) (x2 : Vec Ideal S10240x256 .bf16) (off : ℕ)
    (inb : ∀ a, (![off, 0] : Fin 2 → ℕ) a + S1280x256.size a ≤ S10240x256.size a) (k : Fin 1280) (d : Fin 256) :
    tabOf arg4 harg4 x2 off inb (ix2 k d) = Cert.Spec.acc2 x2 (off + k.val) d.val := by
  have hb : off + 1280 ≤ 10240 := inb 0
  unfold tabOf
  rw [View.readAt_eq_ld, harg4.read_unread]
  show x2 ((Rect.unit (s := S10240x256) ![off, 0] S1280x256.size inb).idx (ix2 k d)) = _
  have hi : (Rect.unit (s := S10240x256) ![off, 0] S1280x256.size inb).idx (ix2 k d)
      = ix2 (⟨off + k.val, by have := k.isLt; omega⟩ : Fin 10240) (⟨d.val, d.isLt⟩ : Fin 256) :=
    funext fun a => Fin.ext (by
      match a with
      | ⟨0, _⟩ => show off + 1 * k.val = off + k.val; omega
      | ⟨1, _⟩ => show 0 + 1 * d.val = d.val; omega)
  rw [hi]
  exact (Cert.Spec.acc2_ix x2 _ _).symm

/-- The gathered rows of a point, over the body's own loads. -/
abbrev gathOf (arg3 : Memref sig .tc .vmem S640x1 .i32) (harg3 : arg3.IsWhole) (arg4 : Memref sig .tc .vmem S10240x256 .bf16)
    (harg4 : arg4.IsWhole) (x1 : Vec Ideal S640x1 .i32) (x2 : Vec Ideal S10240x256 .bf16) : FVec Ideal S640x256 .bf16 :=
  gathered (F := Ideal) (colsOf arg3 harg3 x1)
    (tabOf arg4 harg4 x2 0 inb_S10240x256_S1280x256_0_0) (tabOf arg4 harg4 x2 1280 inb_S10240x256_S1280x256_1280_0)
    (tabOf arg4 harg4 x2 2560 inb_S10240x256_S1280x256_2560_0) (tabOf arg4 harg4 x2 3840 inb_S10240x256_S1280x256_3840_0)
    (tabOf arg4 harg4 x2 5120 inb_S10240x256_S1280x256_5120_0) (tabOf arg4 harg4 x2 6400 inb_S10240x256_S1280x256_6400_0)
    (tabOf arg4 harg4 x2 7680 inb_S10240x256_S1280x256_7680_0) (tabOf arg4 harg4 x2 8960 inb_S10240x256_S1280x256_8960_0)

/-- They are the table's rows picked by the source words. -/
theorem gathOf_apply (arg3 : Memref sig .tc .vmem S640x1 .i32) (harg3 : arg3.IsWhole) (arg4 : Memref sig .tc .vmem S10240x256 .bf16)
    (harg4 : arg4.IsWhole) (x1 : Vec Ideal S640x1 .i32) (x2 : Vec Ideal S10240x256 .bf16) (e : Fin 640) (d : Fin 256) :
    gathOf arg3 harg3 arg4 harg4 x1 x2 (ix2 e d)
      = Cert.Spec.pick (Cert.Spec.acc2 x2) (colsOf arg3 harg3 x1 (ix2 e 0)) d.val :=
  gathered_eq_pick (colsOf arg3 harg3 x1) _ _ _ _ _ _ _ _ (Cert.Spec.acc2 x2)
    (tabOf_apply arg4 harg4 x2 0 _) (tabOf_apply arg4 harg4 x2 1280 _) (tabOf_apply arg4 harg4 x2 2560 _)
    (tabOf_apply arg4 harg4 x2 3840 _) (tabOf_apply arg4 harg4 x2 5120 _) (tabOf_apply arg4 harg4 x2 6400 _)
    (tabOf_apply arg4 harg4 x2 7680 _) (tabOf_apply arg4 harg4 x2 8960 _) e d

/-- The addend only reads the words' one column. -/
theorem addend_congr (rw rw' cw cw' : IVec S640x1 32) (T : ℕ → ℕ → EReal) (y : S1x10240x256.Idx)
    (hr : ∀ e : Fin 640, rw (ix2 e 0) = rw' (ix2 e 0)) (hc : ∀ e : Fin 640, cw (ix2 e 0) = cw' (ix2 e 0)) :
    addend rw cw T y = addend rw' cw' T y := by
  unfold addend
  refine Finset.sum_congr rfl fun e _ => ?_
  rw [hr, hc]

/-! ## Case B: the eight stores over the carried contents -/

/-- A slice of the carried block, as the body loads it. -/
theorem carried_read (arg5 : Memref sig .tc .vmem S1x10240x256 .f32) (harg5 : arg5.IsWhole) (xo3 : Vec Ideal S1x10240x256 .f32)
    (off : ℕ) (inb : ∀ a, (![0, off, 0] : Fin 3 → ℕ) a + (![1, 1280, 256] : Fin 3 → ℕ) a ≤ S1x10240x256.size a)
    (x : (Rect.unit (s := S1x10240x256) ![0, off, 0] ![1, 1280, 256] inb).shape.Idx) :
    View.readAt (Elt Ideal) arg5.view (Rect.unit (s := S1x10240x256) ![0, off, 0] ![1, 1280, 256] inb).toLoadRect (harg5.unread xo3) x
      = xo3 ((Rect.unit (s := S1x10240x256) ![0, off, 0] ![1, 1280, 256] inb).emb x) := by
  rw [View.readAt_eq_ld, harg5.read_unread]
  rfl

/-- CASE B's value: every index of the block holds what it held plus the point's addend. -/
theorem out_B (c : Dev nD) (i : grid0.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (arg6 : Memref sig .tc .vmem S1x10240x128 .f32) (harg6 : arg6.IsWhole) (hc0 : ¬cond0_0 i)
    (x0 : Vec Ideal S640x1 .i32) (x1 : Vec Ideal S640x1 .i32) (x2 : Vec Ideal S10240x256 .bf16) (xo3 : Vec Ideal S1x10240x256 .f32) (xo4 : Vec Ideal S1x10240x128 .f32)
    (y : S1x10240x256.Idx) :
    out0_B_3 (F := Ideal) c i arg2 harg2 arg3 harg3 arg4 harg4 arg5 harg5 arg6 harg6 hc0 x0 x1 x2 xo3 xo4 y
      = xo3 y + addend x0 x1 (Cert.Spec.acc2 x2) y := by
  rw [← addend_congr (rowsOf arg2 harg2 x0) x0 (colsOf arg3 harg3 x1) x1 _ y (fun e => rowsOf_apply arg2 harg2 x0 _)
    (fun e => colsOf_apply arg3 harg3 x1 _)]
  unfold out0_B_3
  rw [View.read_writes_eq_canon _ _ _ (cover0_B_3 c i arg2 harg2 arg3 harg3 arg4 harg4 arg5 harg5 arg6 harg6 hc0 x0 x1 x2 xo3 xo4)]
  refine View.canon_apply_of_pieces (fun y => xo3 y + addend (rowsOf arg2 harg2 x0) (colsOf arg3 harg3 x1) (Cert.Spec.acc2 x2) y) _ ?_ y
    (cover0_B_3 c i arg2 harg2 arg3 harg3 arg4 harg4 arg5 harg5 arg6 harg6 hc0 x0 x1 x2 xo3 xo4 y)
  unfold kernelRun0_B
  dsimp only
  sl_unfold_words
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_,
      fun _ h => absurd h List.not_mem_nil⟩⟩⟩⟩⟩⟩⟩⟩
  · exact fun x => store_apply 8960 inb_S1x10240x256_S1x1280x256_0_8960_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 8960 inb_S1x10240x256_S1x1280x256_0_8960_0) x
  · exact fun x => store_apply 7680 inb_S1x10240x256_S1x1280x256_0_7680_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 7680 inb_S1x10240x256_S1x1280x256_0_7680_0) x
  · exact fun x => store_apply 6400 inb_S1x10240x256_S1x1280x256_0_6400_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 6400 inb_S1x10240x256_S1x1280x256_0_6400_0) x
  · exact fun x => store_apply 5120 inb_S1x10240x256_S1x1280x256_0_5120_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 5120 inb_S1x10240x256_S1x1280x256_0_5120_0) x
  · exact fun x => store_apply 3840 inb_S1x10240x256_S1x1280x256_0_3840_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 3840 inb_S1x10240x256_S1x1280x256_0_3840_0) x
  · exact fun x => store_apply 2560 inb_S1x10240x256_S1x1280x256_0_2560_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 2560 inb_S1x10240x256_S1x1280x256_0_2560_0) x
  · exact fun x => store_apply 1280 inb_S1x10240x256_S1x1280x256_0_1280_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 1280 inb_S1x10240x256_S1x1280x256_0_1280_0) x
  · exact fun x => store_apply 0 inb_S1x10240x256_S1x1280x256_0_0_0 (rowsOf arg2 harg2 x0) (colsOf arg3 harg3 x1)
      (Cert.Spec.acc2 x2) (gathOf arg3 harg3 arg4 harg4 x1 x2) (gathOf_apply arg3 harg3 arg4 harg4 x1 x2) _ xo3
      (carried_read arg5 harg5 xo3 0 inb_S1x10240x256_S1x1280x256_0_0_0) x

/-! ## Case A: the reset, then the eight stores, each over what the earlier ones left -/

/-- The zero block the reset stores. -/
abbrev zeroBlk : FVec Ideal S1x10240x256 .f32 := k0_pay3 (F := Ideal)

theorem zeroBlk_apply (y : S1x10240x256.Idx) : zeroBlk y = 0 := by
  show Ideal.ofBits .f32 0x00000000#32 = 0
  exact Ideal.ofBits_zero_f32

/-- The store of the chunk at rows `off … off + 1279` made over the earlier stores `H`: the accumulator slice it adds
    onto is read back from them. -/
abbrev chunkStore (v : View sig .tc .vmem S1x10240x256 .f32) (H : List (View.Piece (Elt Ideal) S1x10240x256 .f32)) (off : ℕ)
    (inb : ∀ a, (![0, off, 0] : Fin 3 → ℕ) a + (![1, 1280, 256] : Fin 3 → ℕ) a ≤ S1x10240x256.size a)
    (rw : IVec S640x1 32) (g : FVec Ideal S640x256 .bf16) : View.Piece (Elt Ideal) S1x10240x256 .f32 :=
  ⟨Rect.unit (s := S1x10240x256) ![0, off, 0] ![1, 1280, 256] inb,
    scat (F := Ideal) (ohm rw (BitVec.ofNat 32 off)) g
      (v.readCov H (Rect.unit (s := S1x10240x256) ![0, off, 0] ![1, 1280, 256] inb).toLoadRect)⟩

/-- What a list of stores leaves when the chunks below row `n` are done: below row `n` the zero block plus the
    point's addend, from row `n` on still the zero block. -/
def DoneTo (H : List (View.Piece (Elt Ideal) S1x10240x256 .f32)) (n : ℕ) (rw cw : IVec S640x1 32) (T : ℕ → ℕ → EReal) : Prop :=
  (∀ y : S1x10240x256.Idx, (y 1).val < n → View.canon H y = zeroBlk y + addend rw cw T y) ∧
  (∀ y : S1x10240x256.Idx, n ≤ (y 1).val → View.canon H y = zeroBlk y)

/-- After the reset alone nothing is done. -/
theorem doneTo_reset (inb : ∀ a, (![0, 0, 0] : Fin 3 → ℕ) a + S1x10240x256.size a ≤ S1x10240x256.size a)
    (rw cw : IVec S640x1 32) (T : ℕ → ℕ → EReal) :
    DoneTo [(⟨Rect.unit ![0, 0, 0] S1x10240x256.size inb, k0_pay3 (F := Ideal)⟩ : View.Piece (Elt Ideal) S1x10240x256 .f32)] 0 rw cw T :=
  ⟨fun y h => absurd h (Nat.not_lt_zero _), fun y _ => congrFun (View.canon_unit_zero zero_offsets3 inb _) y⟩

/-- One more chunk's store moves the boundary up by 1280 rows: on its own rows it reads the zero block back and adds
    the addend, elsewhere it leaves what was there. -/
theorem doneTo_step (v : View sig .tc .vmem S1x10240x256 .f32) (H : List (View.Piece (Elt Ideal) S1x10240x256 .f32)) (off : ℕ)
    (inb : ∀ a, (![0, off, 0] : Fin 3 → ℕ) a + (![1, 1280, 256] : Fin 3 → ℕ) a ≤ S1x10240x256.size a)
    (rw cw : IVec S640x1 32) (T : ℕ → ℕ → EReal) (g : FVec Ideal S640x256 .bf16)
    (hg : ∀ (e : Fin 640) (d : Fin 256), g (ix2 e d) = Cert.Spec.pick T (cw (ix2 e 0)) d.val)
    (h : DoneTo H off rw cw T) : DoneTo (chunkStore v H off inb rw g :: H) (off + 1280) rw cw T := by
  obtain ⟨hlo, hhi⟩ := h
  have hmem : ∀ y : S1x10240x256.Idx, y ∈ (Rect.unit (s := S1x10240x256) ![0, off, 0] ![1, 1280, 256] inb).set
      ↔ off ≤ (y 1).val ∧ (y 1).val < off + 1280 := by
    intro y
    rw [Rect.mem_set_unit]
    constructor
    · intro h; exact h 1
    · intro h a
      match a with
      | ⟨0, _⟩ => exact ⟨Nat.zero_le _, by have h0 : (y 0).val < 1 := (y 0).isLt; show (y 0).val < 0 + 1; omega⟩
      | ⟨1, _⟩ => exact h
      | ⟨2, _⟩ => exact ⟨Nat.zero_le _, by have h2 : (y 2).val < 256 := (y 2).isLt; show (y 2).val < 0 + 256; omega⟩
  have hin : ∀ y : S1x10240x256.Idx, off ≤ (y 1).val → (y 1).val < off + 1280 →
      View.canon (chunkStore v H off inb rw g :: H) y = zeroBlk y + addend rw cw T y := by
    intro y h1 h2
    obtain ⟨x, hx⟩ : ∃ x : (Rect.unit (s := S1x10240x256) ![0, off, 0] ![1, 1280, 256] inb).shape.Idx,
        (Rect.unit (s := S1x10240x256) ![0, off, 0] ![1, 1280, 256] inb).emb x = y :=
      ⟨ix3 0 ⟨(y 1).val - off, by omega⟩ ⟨(y 2).val, (y 2).isLt⟩, funext fun a => Fin.ext (by
        match a with
        | ⟨0, _⟩ => show 0 + 1 * 0 = (y 0).val; have h0 : (y 0).val < 1 := (y 0).isLt; omega
        | ⟨1, _⟩ => show off + 1 * ((y 1).val - off) = (y 1).val; omega
        | ⟨2, _⟩ => show 0 + 1 * (y 2).val = (y 2).val; omega)⟩
    subst hx
    rw [View.canon_cons_emb,
      store_apply off inb rw cw T g hg _ (View.canon H) (fun x => by rw [View.readCov_eq_canon']; rfl) x,
      hhi _ h1]
  have hout : ∀ y : S1x10240x256.Idx, ¬(off ≤ (y 1).val ∧ (y 1).val < off + 1280) →
      View.canon (chunkStore v H off inb rw g :: H) y = View.canon H y :=
    fun y hn => View.canon_cons_of_not_mem _ H (fun hm => hn ((hmem y).mp hm))
  refine ⟨fun y hy => ?_, fun y hy => ?_⟩
  · by_cases h1 : off ≤ (y 1).val
    · exact hin y h1 hy
    · rw [hout y (by omega)]; exact hlo y (by omega)
  · rw [hout y (by omega)]; exact hhi y (by omega)

/-- When all 10240 rows are done the stores leave the addend everywhere. -/
theorem doneTo_all (L : List (View.Piece (Elt Ideal) S1x10240x256 .f32)) (rw cw : IVec S640x1 32) (T : ℕ → ℕ → EReal)
    (h : DoneTo L 10240 rw cw T) (y : S1x10240x256.Idx) : View.canon L y = addend rw cw T y := by
  rw [h.1 y (by have h1 : (y 1).val < 10240 := (y 1).isLt; exact h1), zeroBlk_apply, zero_add]

/-- CASE A's value: every index of the block holds the point's addend (onto the zero the reset left). -/
theorem out_A (c : Dev nD) (i : grid0.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (arg6 : Memref sig .tc .vmem S1x10240x128 .f32) (harg6 : arg6.IsWhole) (hc0 : cond0_0 i)
    (x0 : Vec Ideal S640x1 .i32) (x1 : Vec Ideal S640x1 .i32) (x2 : Vec Ideal S10240x256 .bf16) (y : S1x10240x256.Idx) :
    out0_A_3 (F := Ideal) c i arg2 harg2 arg3 harg3 arg4 harg4 arg5 harg5 arg6 harg6 hc0 x0 x1 x2 y
      = addend x0 x1 (Cert.Spec.acc2 x2) y := by
  rw [← addend_congr (rowsOf arg2 harg2 x0) x0 (colsOf arg3 harg3 x1) x1 _ y (fun e => rowsOf_apply arg2 harg2 x0 _)
    (fun e => colsOf_apply arg3 harg3 x1 _)]
  unfold out0_A_3
  rw [View.read_writes_eq_canon _ _ _ (cover0_A_3 c i arg2 harg2 arg3 harg3 arg4 harg4 arg5 harg5 arg6 harg6 hc0 x0 x1 x2)]
  unfold kernelRun0_A
  dsimp only
  refine doneTo_all _ (rowsOf arg2 harg2 x0) (colsOf arg3 harg3 x1) (Cert.Spec.acc2 x2) ?_ y
  refine doneTo_step arg5.view _ 8960 inb_S1x10240x256_S1x1280x256_0_8960_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 7680 inb_S1x10240x256_S1x1280x256_0_7680_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 6400 inb_S1x10240x256_S1x1280x256_0_6400_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 5120 inb_S1x10240x256_S1x1280x256_0_5120_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 3840 inb_S1x10240x256_S1x1280x256_0_3840_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 2560 inb_S1x10240x256_S1x1280x256_0_2560_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 1280 inb_S1x10240x256_S1x1280x256_0_1280_0 (rowsOf arg2 harg2 x0) (colsOf arg3 harg3 x1)
    (Cert.Spec.acc2 x2) (gathOf arg3 harg3 arg4 harg4 x1 x2) (gathOf_apply arg3 harg3 arg4 harg4 x1 x2) ?_
  refine doneTo_step arg5.view _ 0 inb_S1x10240x256_S1x1280x256_0_0_0 (rowsOf arg2 harg2 x0) (colsOf arg3 harg3 x1)
    (Cert.Spec.acc2 x2) (gathOf arg3 harg3 arg4 harg4 x1 x2) (gathOf_apply arg3 harg3 arg4 harg4 x1 x2) ?_
  exact doneTo_reset inb_S1x10240x256_S1x10240x256_0_0_0 _ _ _

/-! ## The region: its arrays, its blocks, and the run of points -/

section Region
variable (V : (c : Dev nD) → (b : Ref sig .tc) → Buf (Elt Ideal) ((c : Thread nD τ).loc b))

/-- The three input arrays as the region finds them: the target words, the source words, the padded table. -/
abbrev rowA (c : Dev nD) : Cert.Spec.S160000x1.Idx → BitVec 32 := V c (Pipeline.arrRef spec0 0)
abbrev colA (c : Dev nD) : Cert.Spec.S160000x1.Idx → BitVec 32 := V c (Pipeline.arrRef spec0 1)
abbrev tabA (c : Dev nD) : Cert.Spec.S10240x256.Idx → EReal := V c (Pipeline.arrRef spec0 2)

/-- Their blocks at a point, at their literal types. -/
abbrev rblk (c : Dev nD) (t : Fin cfg0.N) : Vec Ideal S640x1 .i32 := iblk0 V c 0 t
abbrev cblk (c : Dev nD) (t : Fin cfg0.N) : Vec Ideal S640x1 .i32 := iblk0 V c 1 t
abbrev tblk (c : Dev nD) (t : Fin cfg0.N) : Vec Ideal S10240x256 .bf16 := iblk0 V c 2 t

/-- The printed index maps, decided over the grid: the word columns' block is the point's number, the table's block
    is the whole table, the output's block is the slab `t / 125`. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 3) = t.val / 125 ∧ win0_3.index t (1 : Fin 3) = 0 ∧ win0_3.index t (2 : Fin 3) = 0 :=
  (by decide +kernel : ∀ t : Fin grid0.N, _)

/-- Edge `e` of point `t`'s block of target words is edge `640 t + e` of the column. -/
theorem rblk_apply (c : Dev nD) (t : Fin cfg0.N) (e : Fin 640) :
    rblk V c t (ix2 e 0) = Cert.Spec.edgeW (rowA V c) (640 * t.val + e.val) := by
  have hN : cfg0.N = 250 := N_0
  have ht : t.val < 250 := by have := t.isLt; omega
  obtain ⟨e0, e1, -⟩ := idx_facts t
  unfold Cert.Spec.edgeW Cert.Spec.wrd
  rw [dif_pos ⟨by omega, Nat.one_pos⟩]
  unfold rblk iblk0
  rw [View.read_apply]
  show V c (Pipeline.arrRef spec0 0) _ = V c (Pipeline.arrRef spec0 0) _
  congr 1
  funext a
  apply Fin.ext
  match a with
  | ⟨0, _⟩ => show win0_0.index t (0 : Fin 2) * 640 + 1 * e.val = 640 * t.val + e.val; omega
  | ⟨1, _⟩ => show win0_0.index t (1 : Fin 2) * 1 + 1 * 0 = 0; omega

/-- Edge `e` of point `t`'s block of source words is edge `640 t + e` of the column. -/
theorem cblk_apply (c : Dev nD) (t : Fin cfg0.N) (e : Fin 640) :
    cblk V c t (ix2 e 0) = Cert.Spec.edgeW (colA V c) (640 * t.val + e.val) := by
  have hN : cfg0.N = 250 := N_0
  have ht : t.val < 250 := by have := t.isLt; omega
  obtain ⟨-, -, e0, e1, -⟩ := idx_facts t
  unfold Cert.Spec.edgeW Cert.Spec.wrd
  rw [dif_pos ⟨by omega, Nat.one_pos⟩]
  unfold cblk iblk0
  rw [View.read_apply]
  show V c (Pipeline.arrRef spec0 1) _ = V c (Pipeline.arrRef spec0 1) _
  congr 1
  funext a
  apply Fin.ext
  match a with
  | ⟨0, _⟩ => show win0_1.index t (0 : Fin 2) * 640 + 1 * e.val = 640 * t.val + e.val; omega
  | ⟨1, _⟩ => show win0_1.index t (1 : Fin 2) * 1 + 1 * 0 = 0; omega

/-- Every point's block of the table is the whole table. -/
theorem tblk_eq (c : Dev nD) (t : Fin cfg0.N) : tblk V c t = tabA V c := by
  obtain ⟨-, -, -, -, e0, e1, -⟩ := idx_facts t
  funext j
  unfold tblk iblk0
  rw [View.read_apply]
  show V c (Pipeline.arrRef spec0 2) _ = V c (Pipeline.arrRef spec0 2) j
  congr 1
  funext a
  apply Fin.ext
  match a with
  | ⟨0, _⟩ => show win0_2.index t (0 : Fin 2) * 10240 + 1 * (j 0).val = (j 0).val; omega
  | ⟨1, _⟩ => show win0_2.index t (1 : Fin 2) * 256 + 1 * (j 1).val = (j 1).val; omega

/-- What grid step `t` adds at index `y` of the output's block, over the region's arrays. -/
def stepN (c : Dev nD) (t : ℕ) (y : S1x10240x256.Idx) : EReal :=
  Cert.Spec.nbrStep (Cert.Spec.edgeW (rowA V c)) (Cert.Spec.edgeW (colA V c)) (Cert.Spec.acc2 (tabA V c)) t (y 1).val (y 2).val

/-- The addend of point `t`'s blocks is that step. -/
theorem addend_eq_step (c : Dev nD) (t : Fin cfg0.N) (y : S1x10240x256.Idx) :
    addend (rblk V c t) (cblk V c t) (Cert.Spec.acc2 (tblk V c t)) y = stepN V c t.val y := by
  unfold addend stepN Cert.Spec.nbrStep
  rw [tblk_eq, ← Fin.sum_univ_eq_sum_range (fun e => Cert.Spec.oh (Cert.Spec.edgeW (rowA V c) (640 * t.val + e)) (y 1).val
    * Cert.Spec.pick (Cert.Spec.acc2 (tabA V c)) (Cert.Spec.edgeW (colA V c) (640 * t.val + e)) (y 2).val) 640]
  refine Finset.sum_congr rfl fun e _ => ?_
  rw [rblk_apply, cblk_apply]

/-- THE RUNNING SUM. After point `n` the output's buffer holds the steps of its slab so far: those from the slab's
    first point `125 (n / 125)` up to `n`. By induction on the point: a slab's first point leaves its own step, a
    later one adds its step onto what the point before left. -/
theorem outs_eq (c : Dev nD) : ∀ (n : ℕ) (h : n < cfg0.N) (y : S1x10240x256.Idx),
    (outsAt0 V c n h).1 y = ∑ s ∈ Finset.range (n % 125 + 1), stepN V c (125 * (n / 125) + s) y
  | 0, h, y => by
    rw [outsAt0_A V c ⟨0, h⟩ rfl]
    dsimp only
    refine (out_A c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩)
      (ms0_3 ⟨0, h⟩) (hs0_3 ⟨0, h⟩) (ms0_4 ⟨0, h⟩) (hs0_4 ⟨0, h⟩) ((hcond0_0 ⟨0, h⟩).mpr rfl)
      (iblk0 V c 0 ⟨0, h⟩) (iblk0 V c 1 ⟨0, h⟩) (iblk0 V c 2 ⟨0, h⟩) y).trans ?_
    refine (addend_eq_step V c ⟨0, h⟩ y).trans ?_
    rw [Finset.sum_range_one]
  | n + 1, h, y => by
    by_cases h0 : (n + 1) % 125 = 0
    · rw [outsAt0_A V c ⟨n + 1, h⟩ h0]
      dsimp only
      refine (out_A c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        ((hcond0_0 ⟨n + 1, h⟩).mpr h0) (iblk0 V c 0 ⟨n + 1, h⟩) (iblk0 V c 1 ⟨n + 1, h⟩) (iblk0 V c 2 ⟨n + 1, h⟩) y).trans ?_
      refine (addend_eq_step V c ⟨n + 1, h⟩ y).trans ?_
      rw [h0, Finset.sum_range_one]
      exact congrArg (fun k => stepN V c k y) (by show n + 1 = 125 * ((n + 1) / 125) + 0; omega)
    · rw [outsAt0_B V c ⟨n + 1, h⟩ h0]
      dsimp only
      refine (out_B c (grid0.coords ⟨n + 1, h⟩) (ms0_0 ⟨n + 1, h⟩) (hs0_0 ⟨n + 1, h⟩) (ms0_1 ⟨n + 1, h⟩) (hs0_1 ⟨n + 1, h⟩)
        (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩)
        (fun hc => h0 ((hcond0_0 ⟨n + 1, h⟩).mp hc)) (iblk0 V c 0 ⟨n + 1, h⟩) (iblk0 V c 1 ⟨n + 1, h⟩) (iblk0 V c 2 ⟨n + 1, h⟩)
        (outsAt0 V c n (Nat.lt_of_succ_lt h)).1 (outsAt0 V c n (Nat.lt_of_succ_lt h)).2 y).trans ?_
      rw [outs_eq c n (Nat.lt_of_succ_lt h) y]
      have e1 : (n + 1) % 125 = n % 125 + 1 := by omega
      have e2 : (n + 1) / 125 = n / 125 := by omega
      rw [e1, e2, Finset.sum_range_succ _ (n % 125 + 1)]
      refine congrArg (HAdd.hAdd _) ?_
      refine (addend_eq_step V c ⟨n + 1, h⟩ y).trans ?_
      exact congrArg (fun k => stepN V c k y) (by show n + 1 = 125 * (n / 125) + (n % 125 + 1); omega)

/-- WHAT A WRITING POINT WRITES BACK: at a slab's last point the buffer holds all 125 steps of the slab, which is
    that slab of the partial neighbour sums. -/
theorem flushed_eq (c : Dev nD) (t : Fin cfg0.N) (hf : (cfg0.win 3).flush t = true) :
    (dat0 (F := Ideal) V c).flushed 3 t
      = ((cfg0.win 3).blk t).view.read (Elt Ideal) (Cert.Spec.nbrVec (rowA V c) (colA V c) (tabA V c)) := by
  have h124 : t.val % 125 = 124 := (flush0_3 t).mp hf
  obtain ⟨-, -, -, -, -, -, e0, e1, e2⟩ := idx_facts t
  show (cfg0.win 3).cut (grid0.coords t) ((dat0 (F := Ideal) V c).after 3 t) = _
  rw [after0_3]
  funext j
  show (outsAt0 V c t.val t.isLt).1 j = Cert.Spec.nbrVec (rowA V c) (colA V c) (tabA V c) (((cfg0.win 3).blk t).view.emb j)
  rw [outs_eq V c t.val t.isLt j, h124]
  unfold Cert.Spec.nbrVec Cert.Spec.nbrPart stepN
  have c0 : ((((cfg0.win 3).blk t).view.emb j) 0).val = t.val / 125 := by
    show win0_3.index t (0 : Fin 3) * 1 + 1 * (j 0).val = _
    have hj : (j 0).val < 1 := (j 0).isLt
    omega
  have c1 : ((((cfg0.win 3).blk t).view.emb j) 1).val = (j 1).val := by
    show win0_3.index t (1 : Fin 3) * 10240 + 1 * (j 1).val = _
    omega
  have c2 : ((((cfg0.win 3).blk t).view.emb j) 2).val = (j 2).val := by
    show win0_3.index t (2 : Fin 3) * 256 + 1 * (j 2).val = _
    omega
  rw [c0, c1, c2]

/-- Every index of the result array lies in the block its slab's last point writes back. -/
theorem cover (i : S2x10240x256.Idx) :
    ∃ t : Fin cfg0.N, (cfg0.win 3).flush t = true ∧ i ∈ ((cfg0.win 3).blk t).view.set := by
  have hN : grid0.N = 250 := N_0
  have hi0 : (i 0).val < 2 := (i 0).isLt
  have hi1 : (i 1).val < 10240 := (i 1).isLt
  have hi2 : (i 2).val < 256 := (i 2).isLt
  have hlt : 125 * (i 0).val + 124 < cfg0.N := by show _ < grid0.N; omega
  obtain ⟨t, htv⟩ : ∃ t : Fin cfg0.N, t.val = 125 * (i 0).val + 124 := ⟨⟨_, hlt⟩, rfl⟩
  obtain ⟨-, -, -, -, -, -, e0, e1, e2⟩ := idx_facts t
  refine ⟨t, (flush0_3 t).mpr (by omega), ?_⟩
  show i ∈ ((View.whole main_v10_0).slice (win0_3.rect t)).set
  rw [View.set_slice_whole, Rect.mem_set_unit]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 10240 ≤ (i 1).val ∧ (i 1).val < win0_3.index t (1 : Fin 3) * 10240 + 10240
    omega
  | ⟨2, _⟩ =>
    show win0_3.index t (2 : Fin 3) * 256 ≤ (i 2).val ∧ (i 2).val < win0_3.index t (2 : Fin 3) * 256 + 256
    omega

/-- Region 0's first result array: the two slabs of partial neighbour sums of the region's three input arrays. -/
theorem nbr_eq (c : Dev nD) :
    (dat0 (F := Ideal) V c).arrAt 3 cfg0.N
      = Cert.Spec.nbrVec (V c (Pipeline.arrRef spec0 0)) (V c (Pipeline.arrRef spec0 1)) (V c (Pipeline.arrRef spec0 2)) :=
  (dat0 (F := Ideal) V c).arrAt_eq_of_cover 3 (Cert.Spec.nbrVec (rowA V c) (colA V c) (tabA V c))
    (fun t hf => flushed_eq V c t hf) cover

/-- Region 0's second result array: the two slabs of partial degrees. -/
theorem deg_eq (c : Dev nD) :
    (dat0 (F := Ideal) V c).arrAt 4 cfg0.N = Cert.Spec.degVec (V c (Pipeline.arrRef spec0 0)) := by
  exact Cert.KernelIdeal.Reg0D.deg_eq V c

end Region

end Cert.KernelIdeal.Reg0

end
-- ==== Proof.Reg1.lean ====
import proofs.«406477_j5858335391841_3_alg».proof.Proof.Gen.KernelIdeal.Frame
import proofs.«406477_j5858335391841_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Reg1

open Cert.KernelIdeal Cert.KernelIdeal.Gen

/-- The constant 1.0 is the extended real 1. -/
theorem one_f32 : Ideal.ofBits .f32 0x3F800000#32 = 1 := by
  simp [Ideal.ofBits, Ideal.ieee]
  rw [← EReal.coe_mul]
  norm_num

/-- The reciprocal clamped degree of a block pair, at a row and a lane. -/
theorem pay2_apply (v5 v7 : Vec Ideal S1x1280x128 .f32) (p : Fin 1280) (q : Fin 128) :
    k1_pay2 (F := Ideal) v5 v7 (ix2 p q)
      = Ideal.div 1 (max (v5 (ix3 (0 : Fin 1) p q) + v7 (ix3 (0 : Fin 1) p q)) 1) := by
  unfold k1_pay2
  show Ideal.div (Ideal.ofBits .f32 0x3F800000#32)
      (max (shapeCast S1280x128 v5 shapeCasts_S1x1280x128_S1280x128 (ix2 p q)
          + shapeCast S1280x128 v7 shapeCasts_S1x1280x128_S1280x128 (ix2 p q)) (Ideal.ofBits .f32 0x3F800000#32)) = _
  rw [one_f32, shapeCast_1ab_ab_apply, shapeCast_1ab_ab_apply]

/-! ## The product of a 1280-row block with a 256 × 256 matrix, at an index -/

theorem lhs_dot_0 (i : S1280x256.Idx) (q : dot_S1280x256_S256x256_S1280x256_1_0_0_1_n_n.contr.Idx) :
    (dot_S1280x256_S256x256_S1280x256_1_0_0_1_n_n.lhsIdx i q 0).val = (i 0).val := by
  unfold DotDims.lhsIdx
  rw [dif_neg (show ¬(0 : Fin S1280x256.rank) ∈ dot_S1280x256_S256x256_S1280x256_1_0_0_1_n_n.lhsBatch by decide), dif_pos (show (0 : Fin S1280x256.rank) ∈ dot_S1280x256_S256x256_S1280x256_1_0_0_1_n_n.lhsNonContracting by decide)]
  rfl
theorem lhs_dot_1 (i : S1280x256.Idx) (q : dot_S1280x256_S256x256_S1280x256_1_0_0_1_n_n.contr.Idx) :
    (dot_S1280x256_S256x256_S1280x256_1_0_0_1_n_n.lhsIdx i q 1).val = (q ⟨0, by decide⟩).val :=
  dot_S1280x256_S256x256_S1280x256_1_0_0_1_n_n.lhsIdx_val_of_single rfl i q
theorem rhs_dot_0 (i : S1280x256.Idx) (q : dot_S1280x256_S256x256_S1280x256_1_0_0_1_n_n.contr.Idx) :
    (dot_S1280x256_S256x256_S1280x256_1_0_0_1_n_n.rhsIdx i q 0).val = (q ⟨0, by decide⟩).val :=
  dot_S1280x256_S256x256_S1280x256_1_0_0_1_n_n.rhsIdx_val_of_single rfl i q
theorem rhs_dot_1 (i : S1280x256.Idx) (q : dot_S1280x256_S256x256_S1280x256_1_0_0_1_n_n.contr.Idx) :
    (dot_S1280x256_S256x256_S1280x256_1_0_0_1_n_n.rhsIdx i q 1).val = (i 1).val := by
  unfold DotDims.rhsIdx
  rw [dif_neg (show ¬(1 : Fin S256x256.rank) ∈ dot_S1280x256_S256x256_S1280x256_1_0_0_1_n_n.rhsBatch by decide), dif_pos (show (1 : Fin S256x256.rank) ∈ dot_S1280x256_S256x256_S1280x256_1_0_0_1_n_n.rhsNonContracting by decide)]
  rfl

/-- Row `p` of the left factor against column `d` of the right one, summed over the 256 contracted positions. -/
theorem mm_apply (l : FVec Ideal S1280x256 .bf16) (r : FVec Ideal S256x256 .bf16) (p : Fin 1280) (d : Fin 256) :
    matmul dot_S1280x256_S256x256_S1280x256_1_0_0_1_n_n none l r (constant (F := Ideal) S1280x256 .f32 0x00000000#32) (ix2 p d)
      = ∑ k : Fin 256, l (ix2 p k) * r (ix2 k d) := by
  refine (Ideal.matmul_constant_zero_apply dot_S1280x256_S256x256_S1280x256_1_0_0_1_n_n none l r (ix2 p d)).trans ?_
  rw [← Equiv.sum_comp (ValueIdx.contrEquiv1 dot_S1280x256_S256x256_S1280x256_1_0_0_1_n_n 256 rfl rfl).symm]
  refine Finset.sum_congr rfl fun k _ => ?_
  have hk := ValueIdx.contrEquiv1_symm_val dot_S1280x256_S256x256_S1280x256_1_0_0_1_n_n 256 rfl rfl k
  have el : dot_S1280x256_S256x256_S1280x256_1_0_0_1_n_n.lhsIdx (ix2 p d) ((ValueIdx.contrEquiv1 dot_S1280x256_S256x256_S1280x256_1_0_0_1_n_n 256 rfl rfl).symm k) = ix2 p k := funext fun a => Fin.ext (by
    match a with
    | ⟨0, _⟩ => exact lhs_dot_0 _ _
    | ⟨1, _⟩ => exact (lhs_dot_1 _ _).trans hk)
  have er : dot_S1280x256_S256x256_S1280x256_1_0_0_1_n_n.rhsIdx (ix2 p d) ((ValueIdx.contrEquiv1 dot_S1280x256_S256x256_S1280x256_1_0_0_1_n_n 256 rfl rfl).symm k) = ix2 k d := funext fun a => Fin.ext (by
    match a with
    | ⟨0, _⟩ => exact (rhs_dot_0 _ _).trans hk
    | ⟨1, _⟩ => exact rhs_dot_1 _ _)
  rw [el, er]

/-- The pre-activation of a block, at a row and a feature: the two products and the bias, the mean's lane `k` reading
    the reciprocal degree at lane `k % 128` (the two 128-lane halves are the same array). -/
theorem pay3_apply (v0 v2 : Vec Ideal S1x1280x256 .f32) (v5 v7 : Vec Ideal S1x1280x128 .f32) (v17 : Vec Ideal S1280x256 .bf16)
    (v19 v23 : Vec Ideal S256x256 .bf16) (v27 : Vec Ideal S256 .f32) (p : Fin 1280) (d : Fin 256) :
    k1_pay3 (F := Ideal) v0 v2 v5 v7 v17 v19 v23 v27 (ix2 p d)
      = ((∑ k : Fin 256, v17 (ix2 p k) * v19 (ix2 k d))
          + ∑ k : Fin 256, ((v0 (ix3 (0 : Fin 1) p k) + v2 (ix3 (0 : Fin 1) p k))
              * k1_pay2 (F := Ideal) v5 v7 (ix2 p ⟨k.val % 128, Nat.mod_lt _ (by decide)⟩)) * v23 (ix2 k d))
        + v27 (ix1 d) := by
  unfold k1_pay3
  rw [shapeCast_self, shapeCast_self, shapeCast_self]
  refine congrArg₂ (· + ·) (congrArg₂ (· + ·) (mm_apply v17 v19 p d) ?_) ?_
  · refine (mm_apply _ v23 p d).trans (Finset.sum_congr rfl fun k _ => ?_)
    refine congrArg (fun z : EReal => z * v23 (ix2 k d)) ?_
    show (shapeCast S1280x256 v0 shapeCasts_S1x1280x256_S1280x256 (ix2 p k)
          + shapeCast S1280x256 v2 shapeCasts_S1x1280x256_S1280x256 (ix2 p k))
        * concatenate S1280x256 1 [⟨S1280x128, k1_pay2 (F := Ideal) v5 v7⟩, ⟨S1280x128, k1_pay2 (F := Ideal) v5 v7⟩]
            concatenates_S1280x128_S1280x128_S1280x256_d1 (ix2 p k) = _
    rw [shapeCast_1ab_ab_apply, shapeCast_1ab_ab_apply]
    refine congrArg (fun z : EReal => (v0 (ix3 (0 : Fin 1) p k) + v2 (ix3 (0 : Fin 1) p k)) * z) ?_
    exact concatenate_replicate_apply (t := S1280x256) (s₁ := S1280x128) 1 2 (k1_pay2 (F := Ideal) v5 v7)
      concatenates_S1280x128_S1280x128_S1280x256_d1 rfl (ix2 p k) (ix2 p ⟨k.val % 128, Nat.mod_lt _ (by decide)⟩) rfl
      (fun b hb => by
        match b with
        | ⟨0, _⟩ => rfl
        | ⟨1, _⟩ => exact absurd rfl hb)
  · exact (broadcastTo_1b_ab_apply _ broadcasts_S1x256_S1280x256 p d).trans
      (shapeCast_a_1a_apply v27 shapeCasts_S256_S1x256 0 d)

/-! ## What the body leaves in the two output blocks, at an index, over variable input blocks -/

theorem hz1 : (![0] : Fin 1 → Nat) = fun _ => 0 := funext fun a => by fin_cases a <;> rfl
theorem hz2 : (![0, 0] : Fin 2 → Nat) = fun _ => 0 := funext fun a => by fin_cases a <;> rfl

/-- The load of the first half of a two-slab block of partial sums reads slab 0. -/
theorem ld_sum0 (x0 : Vec Ideal S2x1280x256 .f32) (p : Fin 1280) (k : Fin 256) :
    View.ld x0 r1_0 (ix3 (0 : Fin 1) p k) = x0 (ix3 (0 : Fin 2) p k) := by
  show x0 _ = x0 _
  refine congrArg x0 ?_
  funext a; apply Fin.ext
  match a with
  | ⟨0, _⟩ => rfl
  | ⟨1, _⟩ => show 0 + 1 * p.val = p.val; omega
  | ⟨2, _⟩ => show 0 + 1 * k.val = k.val; omega
/-- The load of its second half reads slab 1. -/
theorem ld_sum1 (x0 : Vec Ideal S2x1280x256 .f32) (p : Fin 1280) (k : Fin 256) :
    View.ld x0 r1_1 (ix3 (0 : Fin 1) p k) = x0 (ix3 (1 : Fin 2) p k) := by
  show x0 _ = x0 _
  refine congrArg x0 ?_
  funext a; apply Fin.ext
  match a with
  | ⟨0, _⟩ => rfl
  | ⟨1, _⟩ => show 0 + 1 * p.val = p.val; omega
  | ⟨2, _⟩ => show 0 + 1 * k.val = k.val; omega
/-- The same two loads of a two-slab block of partial degrees. -/
theorem ld_deg0 (x1 : Vec Ideal S2x1280x128 .f32) (p : Fin 1280) (q : Fin 128) :
    View.ld x1 r1_2 (ix3 (0 : Fin 1) p q) = x1 (ix3 (0 : Fin 2) p q) := by
  show x1 _ = x1 _
  refine congrArg x1 ?_
  funext a; apply Fin.ext
  match a with
  | ⟨0, _⟩ => rfl
  | ⟨1, _⟩ => show 0 + 1 * p.val = p.val; omega
  | ⟨2, _⟩ => show 0 + 1 * q.val = q.val; omega
theorem ld_deg1 (x1 : Vec Ideal S2x1280x128 .f32) (p : Fin 1280) (q : Fin 128) :
    View.ld x1 r1_3 (ix3 (0 : Fin 1) p q) = x1 (ix3 (1 : Fin 2) p q) := by
  show x1 _ = x1 _
  refine congrArg x1 ?_
  funext a; apply Fin.ext
  match a with
  | ⟨0, _⟩ => rfl
  | ⟨1, _⟩ => show 0 + 1 * p.val = p.val; omega
  | ⟨2, _⟩ => show 0 + 1 * q.val = q.val; omega

/-- The reciprocal-degree block, at a row and a lane. -/
theorem out7_apply (x0 : Vec Ideal S2x1280x256 .f32) (x1 : Vec Ideal S2x1280x128 .f32) (x2 : Vec Ideal S1280x256 .bf16)
    (x3 x4 : Vec Ideal S256x256 .bf16) (x5 : Vec Ideal S256 .f32) (p : Fin 1280) (q : Fin 128) :
    out1_7 (F := Ideal) x0 x1 x2 x3 x4 x5 (ix2 p q)
      = Ideal.div 1 (max (x1 (ix3 (0 : Fin 2) p q) + x1 (ix3 (1 : Fin 2) p q)) 1) := by
  unfold out1_7
  rw [View.canon_unit_zero hz2, pay2_apply, ld_deg0, ld_deg1]

/-- The hidden-feature block, at a row and a feature. -/
theorem out6_apply (x0 : Vec Ideal S2x1280x256 .f32) (x1 : Vec Ideal S2x1280x128 .f32) (x2 : Vec Ideal S1280x256 .bf16)
    (x3 x4 : Vec Ideal S256x256 .bf16) (x5 : Vec Ideal S256 .f32) (p : Fin 1280) (d : Fin 256) :
    out1_6 (F := Ideal) x0 x1 x2 x3 x4 x5 (ix2 p d)
      = max (((∑ k : Fin 256, x2 (ix2 p k) * x3 (ix2 k d))
            + ∑ k : Fin 256, ((x0 (ix3 (0 : Fin 2) p k) + x0 (ix3 (1 : Fin 2) p k))
                * Ideal.div 1 (max (x1 (ix3 (0 : Fin 2) p ⟨k.val % 128, Nat.mod_lt _ (by decide)⟩)
                    + x1 (ix3 (1 : Fin 2) p ⟨k.val % 128, Nat.mod_lt _ (by decide)⟩)) 1)) * x4 (ix2 k d))
          + x5 (ix1 d)) 0 := by
  unfold out1_6
  rw [View.canon_unit_zero hz2]
  simp only [View.ld_unit_zero (S := S1280x256) hz2, View.ld_unit_zero (S := S256x256) hz2, View.ld_unit_zero (S := S256) hz1]
  show max (k1_pay3 (F := Ideal) (View.ld x0 r1_0) (View.ld x0 r1_1) (View.ld x1 r1_2) (View.ld x1 r1_3) x2 x3 x4 x5 (ix2 p d))
      (Ideal.ofBits .f32 0x00000000#32) = _
  rw [pay3_apply, Ideal.ofBits_zero_f32]
  refine congrArg (fun z : EReal => max (((∑ k : Fin 256, x2 (ix2 p k) * x3 (ix2 k d)) + z) + x5 (ix1 d)) 0)
    (Finset.sum_congr rfl fun k _ => ?_)
  rw [pay2_apply, ld_sum0, ld_sum1, ld_deg0, ld_deg1]

variable (V : (c : Dev nD) → (b : Ref sig .tc) → Buf (Elt Ideal) ((c : Thread nD τ).loc b))

/-! ## The blocks as rows of the arrays -/

/-- The windows' index maps over the eight grid points: the row-blocked windows sit at block `t` of the rows and block 0
    of every other axis, the whole-array windows at block 0. -/
theorem idx_facts : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 8 := by
  have h := t.isLt
  have hN : cfg1.N = 8 := N_1
  omega

/-- Row `p` of block `t` is row `1280 t + p` of the array. -/
theorem row_lt (t : Fin cfg1.N) (p : Fin 1280) : 1280 * t.val + p.val < 10240 := by
  have := t_lt t; have := p.isLt; omega

/-- Block `t` of the partial sums holds rows `1280 t … 1280 t + 1279` of both slabs. -/
theorem blk0_apply (c : Dev nD) (t : Fin cfg1.N) (s : Fin 2) (p : Fin 1280) (k : Fin 256) :
    (iblk1 (F := Ideal) V c 0 t : Vec Ideal S2x1280x256 .f32) (ix3 s p k)
      = (V c (Pipeline.arrRef spec1 0) : S2x10240x256.Idx → EReal) (ix3 s ⟨1280 * t.val + p.val, row_lt t p⟩ k) := by
  obtain ⟨e0, e1, e2, -⟩ := idx_facts t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 3) * 2 + 1 * s.val = s.val; rw [e0]; omega
  | ⟨1, _⟩ => show win1_0.index t (1 : Fin 3) * 1280 + 1 * p.val = 1280 * t.val + p.val; rw [e1]; omega
  | ⟨2, _⟩ => show win1_0.index t (2 : Fin 3) * 256 + 1 * k.val = k.val; rw [e2]; omega

/-- Block `t` of the partial degrees holds the same rows of both slabs. -/
theorem blk1_apply (c : Dev nD) (t : Fin cfg1.N) (s : Fin 2) (p : Fin 1280) (q : Fin 128) :
    (iblk1 (F := Ideal) V c 1 t : Vec Ideal S2x1280x128 .f32) (ix3 s p q)
      = (V c (Pipeline.arrRef spec1 1) : S2x10240x128.Idx → EReal) (ix3 s ⟨1280 * t.val + p.val, row_lt t p⟩ q) := by
  obtain ⟨-, -, -, e0, e1, e2, -⟩ := idx_facts t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 3) * 2 + 1 * s.val = s.val; rw [e0]; omega
  | ⟨1, _⟩ => show win1_1.index t (1 : Fin 3) * 1280 + 1 * p.val = 1280 * t.val + p.val; rw [e1]; omega
  | ⟨2, _⟩ => show win1_1.index t (2 : Fin 3) * 128 + 1 * q.val = q.val; rw [e2]; omega

/-- Block `t` of the padded features holds the same rows. -/
theorem blk2_apply (c : Dev nD) (t : Fin cfg1.N) (p : Fin 1280) (k : Fin 256) :
    (iblk1 (F := Ideal) V c 2 t : Vec Ideal S1280x256 .bf16) (ix2 p k)
      = (V c (Pipeline.arrRef spec1 2) : S10240x256.Idx → EReal) (ix2 ⟨1280 * t.val + p.val, row_lt t p⟩ k) := by
  obtain ⟨-, -, -, -, -, -, e0, e1, -⟩ := idx_facts t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 2) * 1280 + 1 * p.val = 1280 * t.val + p.val; rw [e0]; omega
  | ⟨1, _⟩ => show win1_2.index t (1 : Fin 2) * 256 + 1 * k.val = k.val; rw [e1]; omega

/-- The two weight matrices and the bias are whole at every point. -/
theorem blk3_apply (c : Dev nD) (t : Fin cfg1.N) (k d : Fin 256) :
    (iblk1 (F := Ideal) V c 3 t : Vec Ideal S256x256 .bf16) (ix2 k d)
      = (V c (Pipeline.arrRef spec1 3) : S256x256.Idx → EReal) (ix2 k d) := by
  obtain ⟨-, -, -, -, -, -, -, -, e0, e1, -⟩ := idx_facts t
  unfold iblk1
  rw [View.read_apply]
  show V c (Pipeline.arrRef spec1 3) _ = V c (Pipeline.arrRef spec1 3) _
  refine congrArg _ ?_
  funext a
  apply Fin.ext
  match a with
  | ⟨0, _⟩ => show win1_3.index t (0 : Fin 2) * 256 + 1 * k.val = k.val; rw [e0]; omega
  | ⟨1, _⟩ => show win1_3.index t (1 : Fin 2) * 256 + 1 * d.val = d.val; rw [e1]; omega
theorem blk4_apply (c : Dev nD) (t : Fin cfg1.N) (k d : Fin 256) :
    (iblk1 (F := Ideal) V c 4 t : Vec Ideal S256x256 .bf16) (ix2 k d)
      = (V c (Pipeline.arrRef spec1 4) : S256x256.Idx → EReal) (ix2 k d) := by
  obtain ⟨-, -, -, -, -, -, -, -, -, -, e0, e1, -⟩ := idx_facts t
  unfold iblk1
  rw [View.read_apply]
  show V c (Pipeline.arrRef spec1 4) _ = V c (Pipeline.arrRef spec1 4) _
  refine congrArg _ ?_
  funext a
  apply Fin.ext
  match a with
  | ⟨0, _⟩ => show win1_4.index t (0 : Fin 2) * 256 + 1 * k.val = k.val; rw [e0]; omega
  | ⟨1, _⟩ => show win1_4.index t (1 : Fin 2) * 256 + 1 * d.val = d.val; rw [e1]; omega
theorem blk5_apply (c : Dev nD) (t : Fin cfg1.N) (d : Fin 256) :
    (iblk1 (F := Ideal) V c 5 t : Vec Ideal S256 .f32) (ix1 d)
      = (V c (Pipeline.arrRef spec1 5) : S256.Idx → EReal) (ix1 d) := by
  obtain ⟨-, -, -, -, -, -, -, -, -, -, -, -, e0, -⟩ := idx_facts t
  unfold iblk1
  rw [View.read_apply]
  show V c (Pipeline.arrRef spec1 5) _ = V c (Pipeline.arrRef spec1 5) _
  refine congrArg _ ?_
  funext a
  apply Fin.ext
  match a with
  | ⟨0, _⟩ => show win1_5.index t (0 : Fin 1) * 256 + 1 * d.val = d.val; rw [e0]; omega

/-- Where row `p`, feature `d` of output block `t` sits in the hidden-feature array. -/
theorem emb6 (t : Fin cfg1.N) (p : Fin 1280) (d : Fin 256) :
    (((cfg1.win 6).blk t).view.emb (ix2 p d) : S10240x256.Idx) = ix2 ⟨1280 * t.val + p.val, row_lt t p⟩ d := by
  obtain ⟨-, -, -, -, -, -, -, -, -, -, -, -, -, e0, e1, -⟩ := idx_facts t
  funext a
  apply Fin.ext
  match a with
  | ⟨0, _⟩ => show win1_6.index t (0 : Fin 2) * 1280 + 1 * p.val = 1280 * t.val + p.val; rw [e0]; omega
  | ⟨1, _⟩ => show win1_6.index t (1 : Fin 2) * 256 + 1 * d.val = d.val; rw [e1]; omega
/-- Where row `p`, lane `q` of output block `t` sits in the reciprocal-degree array. -/
theorem emb7 (t : Fin cfg1.N) (p : Fin 1280) (q : Fin 128) :
    (((cfg1.win 7).blk t).view.emb (ix2 p q) : S10240x128.Idx) = ix2 ⟨1280 * t.val + p.val, row_lt t p⟩ q := by
  obtain ⟨-, -, -, -, -, -, -, -, -, -, -, -, -, -, -, e0, e1⟩ := idx_facts t
  funext a
  apply Fin.ext
  match a with
  | ⟨0, _⟩ => show win1_7.index t (0 : Fin 2) * 1280 + 1 * p.val = 1280 * t.val + p.val; rw [e0]; omega
  | ⟨1, _⟩ => show win1_7.index t (1 : Fin 2) * 128 + 1 * q.val = q.val; rw [e1]; omega

/-! ## The specification at in-range coordinates -/

/-- The hidden feature of an in-range node and feature, with the arrays read at indices and the sums over `Fin 256`. -/
theorem hid_fin (S : Cert.Spec.S2x10240x256.Idx → EReal) (P : Cert.Spec.S2x10240x128.Idx → EReal)
    (xp : Cert.Spec.S10240x256.Idx → EReal) (wr wn : Cert.Spec.S256x256.Idx → EReal) (b : Cert.Spec.S256.Idx → EReal)
    (n : Fin 10240) (d : Fin 256) :
    Cert.Spec.hid (Cert.Spec.acc3 S) (Cert.Spec.acc3 P) (Cert.Spec.acc2 xp) (Cert.Spec.acc2 wr) (Cert.Spec.acc2 wn)
        (Cert.Spec.acc1 b) n.val d.val
      = max (((∑ k : Fin 256, xp (ix2 n k) * wr (ix2 k d))
            + ∑ k : Fin 256, ((S (ix3 (0 : Fin 2) n k) + S (ix3 (1 : Fin 2) n k))
                * Ideal.div 1 (max (P (ix3 (0 : Fin 2) n ⟨k.val % 128, Nat.mod_lt _ (by decide)⟩)
                    + P (ix3 (1 : Fin 2) n ⟨k.val % 128, Nat.mod_lt _ (by decide)⟩)) 1)) * wn (ix2 k d))
          + b (ix1 d)) 0 := by
  have hS0 : ∀ k : Fin 256, Cert.Spec.acc3 S 0 n.val k.val = S (ix3 (0 : Fin 2) n k) := fun k => Cert.Spec.acc3_ix S 0 n k
  have hS1 : ∀ k : Fin 256, Cert.Spec.acc3 S 1 n.val k.val = S (ix3 (1 : Fin 2) n k) := fun k => Cert.Spec.acc3_ix S 1 n k
  have hP0 : ∀ k : Fin 256, Cert.Spec.acc3 P 0 n.val (k.val % 128)
      = P (ix3 (0 : Fin 2) n ⟨k.val % 128, Nat.mod_lt _ (by decide)⟩) :=
    fun k => Cert.Spec.acc3_ix P 0 n ⟨k.val % 128, Nat.mod_lt _ (by decide)⟩
  have hP1 : ∀ k : Fin 256, Cert.Spec.acc3 P 1 n.val (k.val % 128)
      = P (ix3 (1 : Fin 2) n ⟨k.val % 128, Nat.mod_lt _ (by decide)⟩) :=
    fun k => Cert.Spec.acc3_ix P 1 n ⟨k.val % 128, Nat.mod_lt _ (by decide)⟩
  unfold Cert.Spec.hid Cert.Spec.rdeg
  rw [Finset.sum_range, Finset.sum_range]
  simp only [hS0, hS1, hP0, hP1, Cert.Spec.acc2_ix, Cert.Spec.acc1_ix]

/-- The reciprocal degree of an in-range node and lane, with the array read at indices. -/
theorem rdeg_fin (P : Cert.Spec.S2x10240x128.Idx → EReal) (n : Fin 10240) (q : Fin 128) :
    Cert.Spec.rdeg (Cert.Spec.acc3 P) n.val q.val
      = Ideal.div 1 (max (P (ix3 (0 : Fin 2) n q) + P (ix3 (1 : Fin 2) n q)) 1) := by
  have hP0 : Cert.Spec.acc3 P 0 n.val q.val = P (ix3 (0 : Fin 2) n q) := Cert.Spec.acc3_ix P 0 n q
  have hP1 : Cert.Spec.acc3 P 1 n.val q.val = P (ix3 (1 : Fin 2) n q) := Cert.Spec.acc3_ix P 1 n q
  unfold Cert.Spec.rdeg
  rw [hP0, hP1]

/-! ## What each point writes back, and the arrays after the region -/

/-- Point `t` writes back block `t` of the hidden features of the six arrays. -/
theorem flushed6_eq (c : Dev nD) (t : Fin cfg1.N) :
    (dat1 (F := Ideal) V c).flushed 6 t
      = ((cfg1.win 6).blk t).view.read (Elt Ideal)
          (Cert.Spec.hidVec (V c (Pipeline.arrRef spec1 0)) (V c (Pipeline.arrRef spec1 1)) (V c (Pipeline.arrRef spec1 2))
            (V c (Pipeline.arrRef spec1 3)) (V c (Pipeline.arrRef spec1 4)) (V c (Pipeline.arrRef spec1 5))) := by
  show (cfg1.win 6).cut (grid1.coords t) ((dat1 V c).after 6 t) = _
  rw [after1_6]
  funext (y : S1280x256.Idx)
  obtain ⟨p, d, rfl⟩ : ∃ (p : Fin 1280) (d : Fin 256), y = ix2 p d := ⟨y 0, y 1, eq_ix2 y⟩
  rw [View.read_apply]
  show out1_6 (iblk1 V c 0 t) (iblk1 V c 1 t) (iblk1 V c 2 t) (iblk1 V c 3 t) (iblk1 V c 4 t) (iblk1 V c 5 t) (ix2 p d)
    = Cert.Spec.hidVec (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (((cfg1.win 6).blk t).view.emb (ix2 p d))
  rw [emb6 t p d, out6_apply (iblk1 V c 0 t) (iblk1 V c 1 t) (iblk1 V c 2 t) (iblk1 V c 3 t) (iblk1 V c 4 t) (iblk1 V c 5 t) p d]
  simp only [blk0_apply V c t, blk1_apply V c t, blk2_apply V c t, blk3_apply V c t, blk4_apply V c t, blk5_apply V c t]
  exact (hid_fin (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    ⟨1280 * t.val + p.val, row_lt t p⟩ d).symm

/-- Point `t` writes back block `t` of the reciprocal degree of the partial degrees. -/
theorem flushed7_eq (c : Dev nD) (t : Fin cfg1.N) :
    (dat1 (F := Ideal) V c).flushed 7 t
      = ((cfg1.win 7).blk t).view.read (Elt Ideal) (Cert.Spec.rdegVec (V c (Pipeline.arrRef spec1 1))) := by
  show (cfg1.win 7).cut (grid1.coords t) ((dat1 V c).after 7 t) = _
  rw [after1_7]
  funext (y : S1280x128.Idx)
  obtain ⟨p, q, rfl⟩ : ∃ (p : Fin 1280) (q : Fin 128), y = ix2 p q := ⟨y 0, y 1, eq_ix2 y⟩
  rw [View.read_apply]
  show out1_7 (iblk1 V c 0 t) (iblk1 V c 1 t) (iblk1 V c 2 t) (iblk1 V c 3 t) (iblk1 V c 4 t) (iblk1 V c 5 t) (ix2 p q)
    = Cert.Spec.rdegVec (V c (Pipeline.arrRef spec1 1)) (((cfg1.win 7).blk t).view.emb (ix2 p q))
  rw [emb7 t p q, out7_apply (iblk1 V c 0 t) (iblk1 V c 1 t) (iblk1 V c 2 t) (iblk1 V c 3 t) (iblk1 V c 4 t) (iblk1 V c 5 t) p q,
    blk1_apply V c t, blk1_apply V c t]
  exact (rdeg_fin (V c (Pipeline.arrRef spec1 1)) ⟨1280 * t.val + p.val, row_lt t p⟩ q).symm

/-- An index of the hidden-feature array is in point `t`'s block iff each coordinate is in the block's range. -/
theorem mem_blk6 (t : Fin cfg1.N) (i : S10240x256.Idx) :
    i ∈ ((cfg1.win 6).blk t).view.set ↔ ∀ a : Fin 2, win1_6.index t a * S1280x256.size a ≤ (i a).val
      ∧ (i a).val < win1_6.index t a * S1280x256.size a + S1280x256.size a := by
  show i ∈ ((View.whole main_v11_0).slice (win1_6.rect t)).set ↔ _
  rw [View.set_slice_whole, Rect.mem_set_unit]
  exact Iff.rfl
theorem mem_blk7 (t : Fin cfg1.N) (i : S10240x128.Idx) :
    i ∈ ((cfg1.win 7).blk t).view.set ↔ ∀ a : Fin 2, win1_7.index t a * S1280x128.size a ≤ (i a).val
      ∧ (i a).val < win1_7.index t a * S1280x128.size a + S1280x128.size a := by
  show i ∈ ((View.whole main_v11_1).slice (win1_7.rect t)).set ↔ _
  rw [View.set_slice_whole, Rect.mem_set_unit]
  exact Iff.rfl

/-- Row `r` of the hidden-feature array is in the block of point `r / 1280`. -/
theorem cover6 (i : S10240x256.Idx) :
    ∃ t : Fin cfg1.N, (cfg1.win 6).flush t = true ∧ i ∈ ((cfg1.win 6).blk t).view.set := by
  have hi0 : (i 0).val < 10240 := (i 0).isLt
  have hi1 : (i 1).val < 256 := (i 1).isLt
  have hN : cfg1.N = 8 := N_1
  have ht : (i 0).val / 1280 < cfg1.N := by rw [hN]; omega
  obtain ⟨-, -, -, -, -, -, -, -, -, -, -, -, -, e0, e1, -⟩ := idx_facts ⟨(i 0).val / 1280, ht⟩
  refine ⟨⟨(i 0).val / 1280, ht⟩, flush1_6 _, ?_⟩
  rw [mem_blk6]
  intro a
  match a with
  | ⟨0, _⟩ =>
    show win1_6.index ⟨(i 0).val / 1280, ht⟩ (0 : Fin 2) * 1280 ≤ (i 0).val
      ∧ (i 0).val < win1_6.index ⟨(i 0).val / 1280, ht⟩ (0 : Fin 2) * 1280 + 1280
    rw [e0]; show (i 0).val / 1280 * 1280 ≤ (i 0).val ∧ (i 0).val < (i 0).val / 1280 * 1280 + 1280; omega
  | ⟨1, _⟩ =>
    show win1_6.index ⟨(i 0).val / 1280, ht⟩ (1 : Fin 2) * 256 ≤ (i 1).val
      ∧ (i 1).val < win1_6.index ⟨(i 0).val / 1280, ht⟩ (1 : Fin 2) * 256 + 256
    rw [e1]; omega
/-- Row `r` of the reciprocal-degree array is in the block of point `r / 1280`. -/
theorem cover7 (i : S10240x128.Idx) :
    ∃ t : Fin cfg1.N, (cfg1.win 7).flush t = true ∧ i ∈ ((cfg1.win 7).blk t).view.set := by
  have hi0 : (i 0).val < 10240 := (i 0).isLt
  have hi1 : (i 1).val < 128 := (i 1).isLt
  have hN : cfg1.N = 8 := N_1
  have ht : (i 0).val / 1280 < cfg1.N := by rw [hN]; omega
  obtain ⟨-, -, -, -, -, -, -, -, -, -, -, -, -, -, -, e0, e1⟩ := idx_facts ⟨(i 0).val / 1280, ht⟩
  refine ⟨⟨(i 0).val / 1280, ht⟩, flush1_7 _, ?_⟩
  rw [mem_blk7]
  intro a
  match a with
  | ⟨0, _⟩ =>
    show win1_7.index ⟨(i 0).val / 1280, ht⟩ (0 : Fin 2) * 1280 ≤ (i 0).val
      ∧ (i 0).val < win1_7.index ⟨(i 0).val / 1280, ht⟩ (0 : Fin 2) * 1280 + 1280
    rw [e0]; show (i 0).val / 1280 * 1280 ≤ (i 0).val ∧ (i 0).val < (i 0).val / 1280 * 1280 + 1280; omega
  | ⟨1, _⟩ =>
    show win1_7.index ⟨(i 0).val / 1280, ht⟩ (1 : Fin 2) * 128 ≤ (i 1).val
      ∧ (i 1).val < win1_7.index ⟨(i 0).val / 1280, ht⟩ (1 : Fin 2) * 128 + 128
    rw [e1]; omega

/-- Region 1's first result array: the hidden features of its six input arrays. -/
theorem hid_eq (c : Dev nD) :
    (dat1 (F := Ideal) V c).arrAt 6 cfg1.N
      = Cert.Spec.hidVec (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 _ (fun t _ => flushed6_eq V c t) cover6

/-- Region 1's second result array: the reciprocal clamped degree. -/
theorem rdeg_eq (c : Dev nD) :
    (dat1 (F := Ideal) V c).arrAt 7 cfg1.N = Cert.Spec.rdegVec (V c (Pipeline.arrRef spec1 1)) :=
  (dat1 (F := Ideal) V c).arrAt_eq_of_cover 7 _ (fun t _ => flushed7_eq V c t) cover7

end Cert.KernelIdeal.Reg1

end
-- ==== Proof.Reg2.lean ====
/-
  Region 2 of the graph-convolution kernel: the partial sums of squared feature differences.

  The region visits the 160000 edges in 250 grid points of 640 edges. At a point the body gathers, for each of its
  edges, the hidden-feature rows named by the edge's target word and by its source word — for each, a one-hot matrix
  of the words times the table, chunk by chunk of 1280 rows, the eight chunk products added left to right onto
  zero —, takes the difference of the two rows and squares it, and scatters the squares onto the nodes: for each
  chunk of 1280 nodes, the transposed one-hot matrix of the target words times the squares is added onto the
  chunk's slice of the output's block. The first point of a slab (points 0 and 125) zeroes the block before adding;
  every other point adds onto what the point before left. So after point `n` the block holds the steps of its slab
  from the slab's first point up to `n`, and the slab's last point (124, 249) writes back the slab of
  `Cert.Spec.difVec`.

  The one-hot matrix, the two matrix products and their readings at an index are those of region 0's module; what
  is new here is the value an edge scatters (a squared difference of two picked rows instead of one picked row), so
  one store of the body, the two cases of a point and the run of points are stated over a general per-edge value.
-/
import proofs.«406477_j5858335391841_3_alg».proof.Proof.Gen.KernelIdeal.Frame
import proofs.«406477_j5858335391841_3_alg».proof.Proof.Spec
import proofs.«406477_j5858335391841_3_alg».proof.Proof.OneHot
import proofs.«406477_j5858335391841_3_alg».proof.Proof.Reg0
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Reg2

open Cert.KernelIdeal Cert.KernelIdeal.Gen

/-! ## The body's vocabulary, at any float instance -/

section Vocabulary
variable {F : FTy → Type} [FloatOps F]

/-- The table's rows named by a column of 640 words: the eight chunks' gathers added left to right onto zero. -/
def rowsAt (w : IVec S640x1 32) (t0 t1 t2 t3 t4 t5 t6 t7 : Vec F S1280x256 .bf16) : FVec F S640x256 .f32 :=
  addf (addf (addf (addf (addf (addf (addf (addf (broadcast S640x256 (Scalar.ofBits .f32 0x00000000#32))
    (Reg0.gat (Reg0.ohm w 0#32) t0)) (Reg0.gat (Reg0.ohm w 1280#32) t1)) (Reg0.gat (Reg0.ohm w 2560#32) t2))
    (Reg0.gat (Reg0.ohm w 3840#32) t3)) (Reg0.gat (Reg0.ohm w 5120#32) t4)) (Reg0.gat (Reg0.ohm w 6400#32) t5))
    (Reg0.gat (Reg0.ohm w 7680#32) t6)) (Reg0.gat (Reg0.ohm w 8960#32) t7)

/-- The squared differences of the target words' rows and the source words' rows, narrowed. -/
def sqdiff (rw cw : IVec S640x1 32) (t0 t1 t2 t3 t4 t5 t6 t7 : Vec F S1280x256 .bf16) : FVec F S640x256 .bf16 :=
  truncf .bf16
    (mulf (subf (rowsAt rw t0 t1 t2 t3 t4 t5 t6 t7) (rowsAt cw t0 t1 t2 t3 t4 t5 t6 t7))
      (subf (rowsAt rw t0 t1 t2 t3 t4 t5 t6 t7) (rowsAt cw t0 t1 t2 t3 t4 t5 t6 t7)))
    bitsLt_bf16_f32

end Vocabulary

/-! ## The vocabulary at an index, over the extended reals -/

/-- The rows named by the words are the one-hot pick of the table at the words: the eight chunks' sums, added left
    to right onto zero, are the sum over all 10240 rows (narrowing is the identity on extended reals). -/
theorem rowsAt_eq_pick (w : IVec S640x1 32) (t0 t1 t2 t3 t4 t5 t6 t7 : FVec Ideal S1280x256 .bf16) (T : ℕ → ℕ → EReal)
    (h0 : ∀ (k : Fin 1280) (d : Fin 256), t0 (ix2 k d) = T (0 + k.val) d.val)
    (h1 : ∀ (k : Fin 1280) (d : Fin 256), t1 (ix2 k d) = T (1280 + k.val) d.val)
    (h2 : ∀ (k : Fin 1280) (d : Fin 256), t2 (ix2 k d) = T (2560 + k.val) d.val)
    (h3 : ∀ (k : Fin 1280) (d : Fin 256), t3 (ix2 k d) = T (3840 + k.val) d.val)
    (h4 : ∀ (k : Fin 1280) (d : Fin 256), t4 (ix2 k d) = T (5120 + k.val) d.val)
    (h5 : ∀ (k : Fin 1280) (d : Fin 256), t5 (ix2 k d) = T (6400 + k.val) d.val)
    (h6 : ∀ (k : Fin 1280) (d : Fin 256), t6 (ix2 k d) = T (7680 + k.val) d.val)
    (h7 : ∀ (k : Fin 1280) (d : Fin 256), t7 (ix2 k d) = T (8960 + k.val) d.val)
    (e : Fin 640) (d : Fin 256) :
    rowsAt (F := Ideal) w t0 t1 t2 t3 t4 t5 t6 t7 (ix2 e d) = Cert.Spec.pick T (w (ix2 e 0)) d.val :=
  Reg0.gathered_eq_pick w t0 t1 t2 t3 t4 t5 t6 t7 T h0 h1 h2 h3 h4 h5 h6 h7 e d

/-- The value an edge scatters at feature `d`: the squared difference of the table's rows picked by its target word
    and by its source word. -/
def sqv (rw cw : IVec S640x1 32) (T : ℕ → ℕ → EReal) (e : Fin 640) (d : ℕ) : EReal :=
  (Cert.Spec.pick T (rw (ix2 e 0)) d - Cert.Spec.pick T (cw (ix2 e 0)) d)
    * (Cert.Spec.pick T (rw (ix2 e 0)) d - Cert.Spec.pick T (cw (ix2 e 0)) d)

theorem sqdiff_apply (rw cw : IVec S640x1 32) (t0 t1 t2 t3 t4 t5 t6 t7 : FVec Ideal S1280x256 .bf16) (T : ℕ → ℕ → EReal)
    (h0 : ∀ (k : Fin 1280) (d : Fin 256), t0 (ix2 k d) = T (0 + k.val) d.val)
    (h1 : ∀ (k : Fin 1280) (d : Fin 256), t1 (ix2 k d) = T (1280 + k.val) d.val)
    (h2 : ∀ (k : Fin 1280) (d : Fin 256), t2 (ix2 k d) = T (2560 + k.val) d.val)
    (h3 : ∀ (k : Fin 1280) (d : Fin 256), t3 (ix2 k d) = T (3840 + k.val) d.val)
    (h4 : ∀ (k : Fin 1280) (d : Fin 256), t4 (ix2 k d) = T (5120 + k.val) d.val)
    (h5 : ∀ (k : Fin 1280) (d : Fin 256), t5 (ix2 k d) = T (6400 + k.val) d.val)
    (h6 : ∀ (k : Fin 1280) (d : Fin 256), t6 (ix2 k d) = T (7680 + k.val) d.val)
    (h7 : ∀ (k : Fin 1280) (d : Fin 256), t7 (ix2 k d) = T (8960 + k.val) d.val)
    (e : Fin 640) (d : Fin 256) :
    sqdiff (F := Ideal) rw cw t0 t1 t2 t3 t4 t5 t6 t7 (ix2 e d) = sqv rw cw T e d.val := by
  unfold sqdiff sqv
  rw [truncf_apply, mulf_apply, subf_apply,
    rowsAt_eq_pick rw t0 t1 t2 t3 t4 t5 t6 t7 T h0 h1 h2 h3 h4 h5 h6 h7 e d, rowsAt_eq_pick cw t0 t1 t2 t3 t4 t5 t6 t7 T h0 h1 h2 h3 h4 h5 h6 h7 e d]

/-! ## What one grid point adds, and one store of the body -/

/-- What one grid point adds at index `y` of the output's block: over the point's 640 edges, the one-hot weight of
    the edge's target word at node `y 1` times the edge's value at feature `y 2`. -/
def addendV (rw : IVec S640x1 32) (val : Fin 640 → ℕ → EReal) (y : S1x10240x256.Idx) : EReal :=
  ∑ e : Fin 640, Cert.Spec.oh (rw (ix2 e 0)) (y 1).val * val e (y 2).val

/-- One store of the body: the chunk at rows `off … off + 1279` receives, at each of its indices, what the
    accumulator held there (`A`, through the slice `a` the body loaded) plus the point's addend there. -/
theorem store_val (off : ℕ) (inb : ∀ a, (![0, off, 0] : Fin 3 → ℕ) a + (![1, 1280, 256] : Fin 3 → ℕ) a ≤ S1x10240x256.size a)
    (rw : IVec S640x1 32) (val : Fin 640 → ℕ → EReal) (g : FVec Ideal S640x256 .bf16)
    (hg : ∀ (e : Fin 640) (d : Fin 256), g (ix2 e d) = val e d.val)
    (a : FVec Ideal S1x1280x256 .f32) (A : S1x10240x256.Idx → EReal)
    (ha : ∀ x, a x = A ((Rect.unit (s := S1x10240x256) ![0, off, 0] ![1, 1280, 256] inb).emb x))
    (x : (Rect.unit (s := S1x10240x256) ![0, off, 0] ![1, 1280, 256] inb).shape.Idx) :
    Reg0.scat (F := Ideal) (Reg0.ohm rw (BitVec.ofNat 32 off)) g a x
      = A ((Rect.unit (s := S1x10240x256) ![0, off, 0] ![1, 1280, 256] inb).emb x)
        + addendV rw val ((Rect.unit (s := S1x10240x256) ![0, off, 0] ![1, 1280, 256] inb).emb x) := by
  obtain ⟨p, j, d, rfl⟩ : ∃ (p : Fin 1) (j : Fin 1280) (d : Fin 256), x = ix3 p j d := ⟨x 0, x 1, x 2, eq_ix3 x⟩
  obtain rfl : p = 0 := Subsingleton.elim _ _
  rw [Reg0.scat_apply, ha]
  congr 1
  unfold addendV
  refine Finset.sum_congr rfl fun e _ => ?_
  rw [Reg0.ohm_apply, hg, Cert.Spec.oh_sub]
  have e1 : (((Rect.unit (s := S1x10240x256) ![0, off, 0] ![1, 1280, 256] inb).emb (ix3 0 j d)) 1).val = off + j.val := by
    show off + 1 * j.val = _; omega
  have e2 : (((Rect.unit (s := S1x10240x256) ![0, off, 0] ![1, 1280, 256] inb).emb (ix3 0 j d)) 2).val = d.val := by
    show 0 + 1 * d.val = _; omega
  rw [e1, e2]

/-! ## The body's loads of its input buffers, read back -/

/-- The target words as the body reads them off their staging buffer. -/
abbrev rowsOf2 (arg2 : Memref sig .tc .vmem S640x1 .i32) (harg2 : arg2.IsWhole) (x0 : Vec Ideal S640x1 .i32) : IVec S640x1 32 :=
  k2_pay3 (F := Ideal) (View.readAt (Elt Ideal) arg2.view (Rect.unit ![0, 0] S640x1.size inb_S640x1_S640x1_0_0).toLoadRect (harg2.unread x0))

/-- The source words as the body reads them off their staging buffer. -/
abbrev colsOf2 (arg3 : Memref sig .tc .vmem S640x1 .i32) (harg3 : arg3.IsWhole) (x1 : Vec Ideal S640x1 .i32) : IVec S640x1 32 :=
  k2_pay4 (F := Ideal) (View.readAt (Elt Ideal) arg3.view (Rect.unit ![0, 0] S640x1.size inb_S640x1_S640x1_0_0).toLoadRect (harg3.unread x1))

theorem rowsOf2_apply (arg2 : Memref sig .tc .vmem S640x1 .i32) (harg2 : arg2.IsWhole) (x0 : Vec Ideal S640x1 .i32) (i : S640x1.Idx) :
    rowsOf2 arg2 harg2 x0 i = x0 i := by
  unfold rowsOf2 k2_pay3
  rw [shapeCast_self, View.readAt_eq_ld, harg2.read_unread, View.ld_unit_zero (S := S640x1) Reg0.zero_offsets2]

theorem colsOf2_apply (arg3 : Memref sig .tc .vmem S640x1 .i32) (harg3 : arg3.IsWhole) (x1 : Vec Ideal S640x1 .i32) (i : S640x1.Idx) :
    colsOf2 arg3 harg3 x1 i = x1 i := by
  unfold colsOf2 k2_pay4
  rw [shapeCast_self, View.readAt_eq_ld, harg3.read_unread, View.ld_unit_zero (S := S640x1) Reg0.zero_offsets2]

/-- The squared differences of a point, over the body's own loads. -/
abbrev sqOf (arg2 : Memref sig .tc .vmem S640x1 .i32) (harg2 : arg2.IsWhole) (arg3 : Memref sig .tc .vmem S640x1 .i32) (harg3 : arg3.IsWhole)
    (arg4 : Memref sig .tc .vmem S10240x256 .bf16) (harg4 : arg4.IsWhole)
    (x0 x1 : Vec Ideal S640x1 .i32) (x2 : Vec Ideal S10240x256 .bf16) : FVec Ideal S640x256 .bf16 :=
  sqdiff (F := Ideal) (rowsOf2 arg2 harg2 x0) (colsOf2 arg3 harg3 x1)
    (Reg0.tabOf arg4 harg4 x2 0 inb_S10240x256_S1280x256_0_0)
    (Reg0.tabOf arg4 harg4 x2 1280 inb_S10240x256_S1280x256_1280_0)
    (Reg0.tabOf arg4 harg4 x2 2560 inb_S10240x256_S1280x256_2560_0)
    (Reg0.tabOf arg4 harg4 x2 3840 inb_S10240x256_S1280x256_3840_0)
    (Reg0.tabOf arg4 harg4 x2 5120 inb_S10240x256_S1280x256_5120_0)
    (Reg0.tabOf arg4 harg4 x2 6400 inb_S10240x256_S1280x256_6400_0)
    (Reg0.tabOf arg4 harg4 x2 7680 inb_S10240x256_S1280x256_7680_0)
    (Reg0.tabOf arg4 harg4 x2 8960 inb_S10240x256_S1280x256_8960_0)

/-- They are the squared differences of the table's rows picked by the target and the source words. -/
theorem sqOf_apply (arg2 : Memref sig .tc .vmem S640x1 .i32) (harg2 : arg2.IsWhole) (arg3 : Memref sig .tc .vmem S640x1 .i32) (harg3 : arg3.IsWhole)
    (arg4 : Memref sig .tc .vmem S10240x256 .bf16) (harg4 : arg4.IsWhole)
    (x0 x1 : Vec Ideal S640x1 .i32) (x2 : Vec Ideal S10240x256 .bf16) (e : Fin 640) (d : Fin 256) :
    sqOf arg2 harg2 arg3 harg3 arg4 harg4 x0 x1 x2 (ix2 e d)
      = sqv (rowsOf2 arg2 harg2 x0) (colsOf2 arg3 harg3 x1) (Cert.Spec.acc2 x2) e d.val :=
  sqdiff_apply (rowsOf2 arg2 harg2 x0) (colsOf2 arg3 harg3 x1) _ _ _ _ _ _ _ _ (Cert.Spec.acc2 x2)
    (Reg0.tabOf_apply arg4 harg4 x2 0 _) (Reg0.tabOf_apply arg4 harg4 x2 1280 _) (Reg0.tabOf_apply arg4 harg4 x2 2560 _) (Reg0.tabOf_apply arg4 harg4 x2 3840 _) (Reg0.tabOf_apply arg4 harg4 x2 5120 _) (Reg0.tabOf_apply arg4 harg4 x2 6400 _) (Reg0.tabOf_apply arg4 harg4 x2 7680 _) (Reg0.tabOf_apply arg4 harg4 x2 8960 _) e d

/-- The point's addend over the words as loaded is the addend over the words themselves. -/
theorem addend_words (arg2 : Memref sig .tc .vmem S640x1 .i32) (harg2 : arg2.IsWhole) (arg3 : Memref sig .tc .vmem S640x1 .i32) (harg3 : arg3.IsWhole)
    (x0 x1 : Vec Ideal S640x1 .i32) (T : ℕ → ℕ → EReal) (y : S1x10240x256.Idx) :
    addendV (rowsOf2 arg2 harg2 x0) (sqv (rowsOf2 arg2 harg2 x0) (colsOf2 arg3 harg3 x1) T) y = addendV x0 (sqv x0 x1 T) y := by
  unfold addendV sqv
  refine Finset.sum_congr rfl fun e _ => ?_
  rw [rowsOf2_apply, colsOf2_apply]

/-! ## Case B: the eight stores over the carried contents -/

/-- CASE B's value: every index of the block holds what it held plus the point's addend. -/
theorem out_B (c : Dev nD) (i : grid2.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (hc0 : ¬cond2_0 i)
    (x0 : Vec Ideal S640x1 .i32) (x1 : Vec Ideal S640x1 .i32) (x2 : Vec Ideal S10240x256 .bf16) (xo3 : Vec Ideal S1x10240x256 .f32)
    (y : S1x10240x256.Idx) :
    out2_B_3 (F := Ideal) c i arg2 harg2 arg3 harg3 arg4 harg4 arg5 harg5 hc0 x0 x1 x2 xo3 y
      = xo3 y + addendV x0 (sqv x0 x1 (Cert.Spec.acc2 x2)) y := by
  rw [← addend_words arg2 harg2 arg3 harg3 x0 x1 (Cert.Spec.acc2 x2) y]
  unfold out2_B_3
  rw [View.read_writes_eq_canon _ _ _ (cover2_B_3 c i arg2 harg2 arg3 harg3 arg4 harg4 arg5 harg5 hc0 x0 x1 x2 xo3)]
  refine View.canon_apply_of_pieces (fun y => xo3 y + addendV (rowsOf2 arg2 harg2 x0)
      (sqv (rowsOf2 arg2 harg2 x0) (colsOf2 arg3 harg3 x1) (Cert.Spec.acc2 x2)) y) _ ?_ y
    (cover2_B_3 c i arg2 harg2 arg3 harg3 arg4 harg4 arg5 harg5 hc0 x0 x1 x2 xo3 y)
  unfold kernelRun2_B
  dsimp only
  sl_unfold_words
  refine List.forall_mem_cons.mpr ⟨?_, List.forall_mem_cons.mpr ⟨?_, List.forall_mem_cons.mpr ⟨?_, List.forall_mem_cons.mpr ⟨?_,
    List.forall_mem_cons.mpr ⟨?_, List.forall_mem_cons.mpr ⟨?_, List.forall_mem_cons.mpr ⟨?_, List.forall_mem_cons.mpr ⟨?_,
      fun _ h => absurd h List.not_mem_nil⟩⟩⟩⟩⟩⟩⟩⟩
  · exact fun x => store_val 8960 inb_S1x10240x256_S1x1280x256_0_8960_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 8960 inb_S1x10240x256_S1x1280x256_0_8960_0) x
  · exact fun x => store_val 7680 inb_S1x10240x256_S1x1280x256_0_7680_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 7680 inb_S1x10240x256_S1x1280x256_0_7680_0) x
  · exact fun x => store_val 6400 inb_S1x10240x256_S1x1280x256_0_6400_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 6400 inb_S1x10240x256_S1x1280x256_0_6400_0) x
  · exact fun x => store_val 5120 inb_S1x10240x256_S1x1280x256_0_5120_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 5120 inb_S1x10240x256_S1x1280x256_0_5120_0) x
  · exact fun x => store_val 3840 inb_S1x10240x256_S1x1280x256_0_3840_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 3840 inb_S1x10240x256_S1x1280x256_0_3840_0) x
  · exact fun x => store_val 2560 inb_S1x10240x256_S1x1280x256_0_2560_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 2560 inb_S1x10240x256_S1x1280x256_0_2560_0) x
  · exact fun x => store_val 1280 inb_S1x10240x256_S1x1280x256_0_1280_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 1280 inb_S1x10240x256_S1x1280x256_0_1280_0) x
  · exact fun x => store_val 0 inb_S1x10240x256_S1x1280x256_0_0_0 (rowsOf2 arg2 harg2 x0)
      (sqv (rowsOf2 arg2 harg2 x0) (colsOf2 arg3 harg3 x1) (Cert.Spec.acc2 x2)) (sqOf arg2 harg2 arg3 harg3 arg4 harg4 x0 x1 x2)
      (sqOf_apply arg2 harg2 arg3 harg3 arg4 harg4 x0 x1 x2) _ xo3
      (Reg0.carried_read arg5 harg5 xo3 0 inb_S1x10240x256_S1x1280x256_0_0_0) x

/-! ## Case A: the reset, then the eight stores, each over what the earlier ones left -/

/-- The zero block the reset stores. -/
abbrev zeroBlk : FVec Ideal S1x10240x256 .f32 := k2_pay2 (F := Ideal)

theorem zeroBlk_apply (y : S1x10240x256.Idx) : zeroBlk y = 0 := by
  show Ideal.ofBits .f32 0x00000000#32 = 0
  exact Ideal.ofBits_zero_f32

/-- What a list of stores leaves when the chunks below row `n` are done: below row `n` the zero block plus the
    point's addend, from row `n` on still the zero block. -/
def Done (H : List (View.Piece (Elt Ideal) S1x10240x256 .f32)) (n : ℕ) (rw : IVec S640x1 32) (val : Fin 640 → ℕ → EReal) : Prop :=
  (∀ y : S1x10240x256.Idx, (y 1).val < n → View.canon H y = zeroBlk y + addendV rw val y) ∧
  (∀ y : S1x10240x256.Idx, n ≤ (y 1).val → View.canon H y = zeroBlk y)

/-- After the reset alone nothing is done. -/
theorem done_reset (inb : ∀ a, (![0, 0, 0] : Fin 3 → ℕ) a + S1x10240x256.size a ≤ S1x10240x256.size a)
    (rw : IVec S640x1 32) (val : Fin 640 → ℕ → EReal) :
    Done [(⟨Rect.unit ![0, 0, 0] S1x10240x256.size inb, k2_pay2 (F := Ideal)⟩ : View.Piece (Elt Ideal) S1x10240x256 .f32)] 0 rw val :=
  ⟨fun y h => absurd h (Nat.not_lt_zero _), fun y _ => congrFun (View.canon_unit_zero Reg0.zero_offsets3 inb _) y⟩

/-- One more chunk's store moves the boundary up by 1280 rows: on its own rows it reads the zero block back and adds
    the addend, elsewhere it leaves what was there. -/
theorem done_step (v : View sig .tc .vmem S1x10240x256 .f32) (H : List (View.Piece (Elt Ideal) S1x10240x256 .f32)) (off : ℕ)
    (inb : ∀ a, (![0, off, 0] : Fin 3 → ℕ) a + (![1, 1280, 256] : Fin 3 → ℕ) a ≤ S1x10240x256.size a)
    (rw : IVec S640x1 32) (val : Fin 640 → ℕ → EReal) (g : FVec Ideal S640x256 .bf16)
    (hg : ∀ (e : Fin 640) (d : Fin 256), g (ix2 e d) = val e d.val)
    (h : Done H off rw val) : Done (Reg0.chunkStore v H off inb rw g :: H) (off + 1280) rw val := by
  obtain ⟨hlo, hhi⟩ := h
  have hmem : ∀ y : S1x10240x256.Idx, y ∈ (Rect.unit (s := S1x10240x256) ![0, off, 0] ![1, 1280, 256] inb).set
      ↔ off ≤ (y 1).val ∧ (y 1).val < off + 1280 := by
    intro y
    rw [Rect.mem_set_unit]
    constructor
    · intro h; exact h 1
    · intro h a
      match a with
      | ⟨0, _⟩ => exact ⟨Nat.zero_le _, by have h0 : (y 0).val < 1 := (y 0).isLt; show (y 0).val < 0 + 1; omega⟩
      | ⟨1, _⟩ => exact h
      | ⟨2, _⟩ => exact ⟨Nat.zero_le _, by have h2 : (y 2).val < 256 := (y 2).isLt; show (y 2).val < 0 + 256; omega⟩
  have hin : ∀ y : S1x10240x256.Idx, off ≤ (y 1).val → (y 1).val < off + 1280 →
      View.canon (Reg0.chunkStore v H off inb rw g :: H) y = zeroBlk y + addendV rw val y := by
    intro y h1 h2
    obtain ⟨x, hx⟩ : ∃ x : (Rect.unit (s := S1x10240x256) ![0, off, 0] ![1, 1280, 256] inb).shape.Idx,
        (Rect.unit (s := S1x10240x256) ![0, off, 0] ![1, 1280, 256] inb).emb x = y :=
      ⟨ix3 0 ⟨(y 1).val - off, by omega⟩ ⟨(y 2).val, (y 2).isLt⟩, funext fun a => Fin.ext (by
        match a with
        | ⟨0, _⟩ => show 0 + 1 * 0 = (y 0).val; have h0 : (y 0).val < 1 := (y 0).isLt; omega
        | ⟨1, _⟩ => show off + 1 * ((y 1).val - off) = (y 1).val; omega
        | ⟨2, _⟩ => show 0 + 1 * (y 2).val = (y 2).val; omega)⟩
    subst hx
    rw [View.canon_cons_emb,
      store_val off inb rw val g hg _ (View.canon H) (fun x => by rw [View.readCov_eq_canon']; rfl) x,
      hhi _ h1]
  have hout : ∀ y : S1x10240x256.Idx, ¬(off ≤ (y 1).val ∧ (y 1).val < off + 1280) →
      View.canon (Reg0.chunkStore v H off inb rw g :: H) y = View.canon H y :=
    fun y hn => View.canon_cons_of_not_mem _ H (fun hm => hn ((hmem y).mp hm))
  refine ⟨fun y hy => ?_, fun y hy => ?_⟩
  · by_cases h1 : off ≤ (y 1).val
    · exact hin y h1 hy
    · rw [hout y (by omega)]; exact hlo y (by omega)
  · rw [hout y (by omega)]; exact hhi y (by omega)

/-- When all 10240 rows are done the stores leave the addend everywhere. -/
theorem done_all (L : List (View.Piece (Elt Ideal) S1x10240x256 .f32)) (rw : IVec S640x1 32) (val : Fin 640 → ℕ → EReal)
    (h : Done L 10240 rw val) (y : S1x10240x256.Idx) : View.canon L y = addendV rw val y := by
  rw [h.1 y (by have h1 : (y 1).val < 10240 := (y 1).isLt; exact h1), zeroBlk_apply, zero_add]

/-- CASE A's value: every index of the block holds the point's addend (onto the zero the reset left). -/
theorem out_A (c : Dev nD) (i : grid2.Coords) (arg2 : Memref sig .tc .vmem S640x1 .i32) (harg2 : arg2.IsWhole) (arg3 : Memref sig .tc .vmem S640x1 .i32) (harg3 : arg3.IsWhole) (arg4 : Memref sig .tc .vmem S10240x256 .bf16) (harg4 : arg4.IsWhole) (arg5 : Memref sig .tc .vmem S1x10240x256 .f32) (harg5 : arg5.IsWhole) (hc0 : cond2_0 i)
    (x0 : Vec Ideal S640x1 .i32) (x1 : Vec Ideal S640x1 .i32) (x2 : Vec Ideal S10240x256 .bf16) (y : S1x10240x256.Idx) :
    out2_A_3 (F := Ideal) c i arg2 harg2 arg3 harg3 arg4 harg4 arg5 harg5 hc0 x0 x1 x2 y
      = addendV x0 (sqv x0 x1 (Cert.Spec.acc2 x2)) y := by
  rw [← addend_words arg2 harg2 arg3 harg3 x0 x1 (Cert.Spec.acc2 x2) y]
  unfold out2_A_3
  rw [View.read_writes_eq_canon _ _ _ (cover2_A_3 c i arg2 harg2 arg3 harg3 arg4 harg4 arg5 harg5 hc0 x0 x1 x2)]
  unfold kernelRun2_A
  dsimp only
  refine done_all _ (rowsOf2 arg2 harg2 x0) (sqv (rowsOf2 arg2 harg2 x0) (colsOf2 arg3 harg3 x1) (Cert.Spec.acc2 x2)) ?_ y
  refine done_step arg5.view _ 8960 inb_S1x10240x256_S1x1280x256_0_8960_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 7680 inb_S1x10240x256_S1x1280x256_0_7680_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 6400 inb_S1x10240x256_S1x1280x256_0_6400_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 5120 inb_S1x10240x256_S1x1280x256_0_5120_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 3840 inb_S1x10240x256_S1x1280x256_0_3840_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 2560 inb_S1x10240x256_S1x1280x256_0_2560_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 1280 inb_S1x10240x256_S1x1280x256_0_1280_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  refine done_step arg5.view _ 0 inb_S1x10240x256_S1x1280x256_0_0_0 (rowsOf2 arg2 harg2 x0)
    (sqv (rowsOf2 arg2 harg2 x0) (colsOf2 arg3 harg3 x1) (Cert.Spec.acc2 x2)) (sqOf arg2 harg2 arg3 harg3 arg4 harg4 x0 x1 x2)
    (sqOf_apply arg2 harg2 arg3 harg3 arg4 harg4 x0 x1 x2) ?_
  exact done_reset inb_S1x10240x256_S1x10240x256_0_0_0 _ _

/-! ## The region: its arrays, its blocks, and the run of points -/

section Region
variable (V : (c : Dev nD) → (b : Ref sig .tc) → Buf (Elt Ideal) ((c : Thread nD τ).loc b))

/-- The three input arrays as the region finds them: the target words, the source words, the hidden features. -/
abbrev rowA (c : Dev nD) : Cert.Spec.S160000x1.Idx → BitVec 32 := V c (Pipeline.arrRef spec2 0)
abbrev colA (c : Dev nD) : Cert.Spec.S160000x1.Idx → BitVec 32 := V c (Pipeline.arrRef spec2 1)
abbrev tabA (c : Dev nD) : Cert.Spec.S10240x256.Idx → EReal := V c (Pipeline.arrRef spec2 2)

/-- Their blocks at a point, at their literal types. -/
abbrev rblk (c : Dev nD) (t : Fin cfg2.N) : Vec Ideal S640x1 .i32 := iblk2 V c 0 t
abbrev cblk (c : Dev nD) (t : Fin cfg2.N) : Vec Ideal S640x1 .i32 := iblk2 V c 1 t
abbrev tblk (c : Dev nD) (t : Fin cfg2.N) : Vec Ideal S10240x256 .bf16 := iblk2 V c 2 t

/-- The printed index maps, decided over the grid: the word columns' block is the point's number, the table's block
    is the whole table, the output's block is the slab `t / 125`. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 3) = t.val / 125 ∧ win2_3.index t (1 : Fin 3) = 0 ∧ win2_3.index t (2 : Fin 3) = 0 :=
  (by decide +kernel : ∀ t : Fin grid2.N, _)

/-- Edge `e` of point `t`'s block of target words is edge `640 t + e` of the column. -/
theorem rblk_apply (c : Dev nD) (t : Fin cfg2.N) (e : Fin 640) :
    rblk V c t (ix2 e 0) = Cert.Spec.edgeW (rowA V c) (640 * t.val + e.val) := by
  have hN : cfg2.N = 250 := N_2
  have ht : t.val < 250 := by have := t.isLt; omega
  obtain ⟨e0, e1, -⟩ := idx_facts t
  unfold Cert.Spec.edgeW Cert.Spec.wrd
  rw [dif_pos ⟨by omega, Nat.one_pos⟩]
  unfold rblk iblk2
  rw [View.read_apply]
  show V c (Pipeline.arrRef spec2 0) _ = V c (Pipeline.arrRef spec2 0) _
  congr 1
  funext a
  apply Fin.ext
  match a with
  | ⟨0, _⟩ => show win2_0.index t (0 : Fin 2) * 640 + 1 * e.val = 640 * t.val + e.val; omega
  | ⟨1, _⟩ => show win2_0.index t (1 : Fin 2) * 1 + 1 * 0 = 0; omega

/-- Edge `e` of point `t`'s block of source words is edge `640 t + e` of the column. -/
theorem cblk_apply (c : Dev nD) (t : Fin cfg2.N) (e : Fin 640) :
    cblk V c t (ix2 e 0) = Cert.Spec.edgeW (colA V c) (640 * t.val + e.val) := by
  have hN : cfg2.N = 250 := N_2
  have ht : t.val < 250 := by have := t.isLt; omega
  obtain ⟨-, -, e0, e1, -⟩ := idx_facts t
  unfold Cert.Spec.edgeW Cert.Spec.wrd
  rw [dif_pos ⟨by omega, Nat.one_pos⟩]
  unfold cblk iblk2
  rw [View.read_apply]
  show V c (Pipeline.arrRef spec2 1) _ = V c (Pipeline.arrRef spec2 1) _
  congr 1
  funext a
  apply Fin.ext
  match a with
  | ⟨0, _⟩ => show win2_1.index t (0 : Fin 2) * 640 + 1 * e.val = 640 * t.val + e.val; omega
  | ⟨1, _⟩ => show win2_1.index t (1 : Fin 2) * 1 + 1 * 0 = 0; omega

/-- Every point's block of the table is the whole table. -/
theorem tblk_eq (c : Dev nD) (t : Fin cfg2.N) : tblk V c t = tabA V c := by
  obtain ⟨-, -, -, -, e0, e1, -⟩ := idx_facts t
  funext j
  unfold tblk iblk2
  rw [View.read_apply]
  show V c (Pipeline.arrRef spec2 2) _ = V c (Pipeline.arrRef spec2 2) j
  congr 1
  funext a
  apply Fin.ext
  match a with
  | ⟨0, _⟩ => show win2_2.index t (0 : Fin 2) * 10240 + 1 * (j 0).val = (j 0).val; omega
  | ⟨1, _⟩ => show win2_2.index t (1 : Fin 2) * 256 + 1 * (j 1).val = (j 1).val; omega

/-- What grid step `t` adds at index `y` of the output's block, over the region's arrays. -/
def stepN (c : Dev nD) (t : ℕ) (y : S1x10240x256.Idx) : EReal :=
  Cert.Spec.difStep (Cert.Spec.edgeW (rowA V c)) (Cert.Spec.edgeW (colA V c)) (Cert.Spec.acc2 (tabA V c)) t (y 1).val (y 2).val

/-- The addend of point `t`'s blocks is that step. -/
theorem addend_eq_step (c : Dev nD) (t : Fin cfg2.N) (y : S1x10240x256.Idx) :
    addendV (rblk V c t) (sqv (rblk V c t) (cblk V c t) (Cert.Spec.acc2 (tblk V c t))) y = stepN V c t.val y := by
  unfold addendV sqv stepN Cert.Spec.difStep
  rw [tblk_eq, ← Fin.sum_univ_eq_sum_range (fun e => Cert.Spec.oh (Cert.Spec.edgeW (rowA V c) (640 * t.val + e)) (y 1).val
    * ((Cert.Spec.pick (Cert.Spec.acc2 (tabA V c)) (Cert.Spec.edgeW (rowA V c) (640 * t.val + e)) (y 2).val
        - Cert.Spec.pick (Cert.Spec.acc2 (tabA V c)) (Cert.Spec.edgeW (colA V c) (640 * t.val + e)) (y 2).val)
      * (Cert.Spec.pick (Cert.Spec.acc2 (tabA V c)) (Cert.Spec.edgeW (rowA V c) (640 * t.val + e)) (y 2).val
        - Cert.Spec.pick (Cert.Spec.acc2 (tabA V c)) (Cert.Spec.edgeW (colA V c) (640 * t.val + e)) (y 2).val))) 640]
  refine Finset.sum_congr rfl fun e _ => ?_
  rw [rblk_apply, cblk_apply]

/-- THE RUNNING SUM. After point `n` the output's buffer holds the steps of its slab so far: those from the slab's
    first point `125 (n / 125)` up to `n`. By induction on the point: a slab's first point leaves its own step, a
    later one adds its step onto what the point before left. -/
theorem outs_eq (c : Dev nD) : ∀ (n : ℕ) (h : n < cfg2.N) (y : S1x10240x256.Idx),
    outsAt2 V c n h y = ∑ s ∈ Finset.range (n % 125 + 1), stepN V c (125 * (n / 125) + s) y
  | 0, h, y => by
    rw [outsAt2_A V c ⟨0, h⟩ rfl]
    refine (out_A c (grid2.coords ⟨0, h⟩) (ms2_0 ⟨0, h⟩) (hs2_0 ⟨0, h⟩) (ms2_1 ⟨0, h⟩) (hs2_1 ⟨0, h⟩) (ms2_2 ⟨0, h⟩) (hs2_2 ⟨0, h⟩) (ms2_3 ⟨0, h⟩) (hs2_3 ⟨0, h⟩) ((hcond2_0 ⟨0, h⟩).mpr rfl)
      (iblk2 V c 0 ⟨0, h⟩) (iblk2 V c 1 ⟨0, h⟩) (iblk2 V c 2 ⟨0, h⟩) y).trans ?_
    refine (addend_eq_step V c ⟨0, h⟩ y).trans ?_
    rw [Finset.sum_range_one]
  | n + 1, h, y => by
    by_cases h0 : (n + 1) % 125 = 0
    · rw [outsAt2_A V c ⟨n + 1, h⟩ h0]
      refine (out_A c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩)
        ((hcond2_0 ⟨n + 1, h⟩).mpr h0) (iblk2 V c 0 ⟨n + 1, h⟩) (iblk2 V c 1 ⟨n + 1, h⟩) (iblk2 V c 2 ⟨n + 1, h⟩) y).trans ?_
      refine (addend_eq_step V c ⟨n + 1, h⟩ y).trans ?_
      rw [h0, Finset.sum_range_one]
      exact congrArg (fun k => stepN V c k y) (by show n + 1 = 125 * ((n + 1) / 125) + 0; omega)
    · rw [outsAt2_B V c ⟨n + 1, h⟩ h0]
      refine (out_B c (grid2.coords ⟨n + 1, h⟩) (ms2_0 ⟨n + 1, h⟩) (hs2_0 ⟨n + 1, h⟩) (ms2_1 ⟨n + 1, h⟩) (hs2_1 ⟨n + 1, h⟩) (ms2_2 ⟨n + 1, h⟩) (hs2_2 ⟨n + 1, h⟩) (ms2_3 ⟨n + 1, h⟩) (hs2_3 ⟨n + 1, h⟩)
        (fun hc => h0 ((hcond2_0 ⟨n + 1, h⟩).mp hc)) (iblk2 V c 0 ⟨n + 1, h⟩) (iblk2 V c 1 ⟨n + 1, h⟩) (iblk2 V c 2 ⟨n + 1, h⟩)
        (outsAt2 V c n (Nat.lt_of_succ_lt h)) y).trans ?_
      rw [outs_eq c n (Nat.lt_of_succ_lt h) y]
      have e1 : (n + 1) % 125 = n % 125 + 1 := by omega
      have e2 : (n + 1) / 125 = n / 125 := by omega
      rw [e1, e2, Finset.sum_range_succ _ (n % 125 + 1)]
      refine congrArg (HAdd.hAdd _) ?_
      refine (addend_eq_step V c ⟨n + 1, h⟩ y).trans ?_
      exact congrArg (fun k => stepN V c k y) (by show n + 1 = 125 * (n / 125) + (n % 125 + 1); omega)

/-- WHAT A WRITING POINT WRITES BACK: at a slab's last point the buffer holds all 125 steps of the slab, which is
    that slab of the partial sums of squared differences. -/
theorem flushed_eq (c : Dev nD) (t : Fin cfg2.N) (hf : (cfg2.win 3).flush t = true) :
    (dat2 (F := Ideal) V c).flushed 3 t
      = ((cfg2.win 3).blk t).view.read (Elt Ideal) (Cert.Spec.difVec (rowA V c) (colA V c) (tabA V c)) := by
  have h124 : t.val % 125 = 124 := (flush2_3 t).mp hf
  obtain ⟨-, -, -, -, -, -, e0, e1, e2⟩ := idx_facts t
  show (cfg2.win 3).cut (grid2.coords t) ((dat2 (F := Ideal) V c).after 3 t) = _
  rw [after2_3]
  funext j
  show outsAt2 V c t.val t.isLt j = Cert.Spec.difVec (rowA V c) (colA V c) (tabA V c) (((cfg2.win 3).blk t).view.emb j)
  rw [outs_eq V c t.val t.isLt j, h124]
  unfold Cert.Spec.difVec Cert.Spec.difPart stepN
  have c0 : ((((cfg2.win 3).blk t).view.emb j) 0).val = t.val / 125 := by
    show win2_3.index t (0 : Fin 3) * 1 + 1 * (j 0).val = _
    have hj : (j 0).val < 1 := (j 0).isLt
    omega
  have c1 : ((((cfg2.win 3).blk t).view.emb j) 1).val = (j 1).val := by
    show win2_3.index t (1 : Fin 3) * 10240 + 1 * (j 1).val = _
    omega
  have c2 : ((((cfg2.win 3).blk t).view.emb j) 2).val = (j 2).val := by
    show win2_3.index t (2 : Fin 3) * 256 + 1 * (j 2).val = _
    omega
  rw [c0, c1, c2]

/-- Every index of the result array lies in the block its slab's last point writes back. -/
theorem cover (i : S2x10240x256.Idx) :
    ∃ t : Fin cfg2.N, (cfg2.win 3).flush t = true ∧ i ∈ ((cfg2.win 3).blk t).view.set := by
  have hN : grid2.N = 250 := N_2
  have hi0 : (i 0).val < 2 := (i 0).isLt
  have hi1 : (i 1).val < 10240 := (i 1).isLt
  have hi2 : (i 2).val < 256 := (i 2).isLt
  have hlt : 125 * (i 0).val + 124 < cfg2.N := by show _ < grid2.N; omega
  obtain ⟨t, htv⟩ : ∃ t : Fin cfg2.N, t.val = 125 * (i 0).val + 124 := ⟨⟨_, hlt⟩, rfl⟩
  obtain ⟨-, -, -, -, -, -, e0, e1, e2⟩ := idx_facts t
  refine ⟨t, (flush2_3 t).mpr (by omega), ?_⟩
  show i ∈ ((View.whole main_v12).slice (win2_3.rect t)).set
  rw [View.set_slice_whole, Rect.mem_set_unit]
  intro a
  match a with
  | ⟨0, _⟩ =>
    show win2_3.index t (0 : Fin 3) * 1 ≤ (i 0).val ∧ (i 0).val < win2_3.index t (0 : Fin 3) * 1 + 1
    omega
  | ⟨1, _⟩ =>
    show win2_3.index t (1 : Fin 3) * 10240 ≤ (i 1).val ∧ (i 1).val < win2_3.index t (1 : Fin 3) * 10240 + 10240
    omega
  | ⟨2, _⟩ =>
    show win2_3.index t (2 : Fin 3) * 256 ≤ (i 2).val ∧ (i 2).val < win2_3.index t (2 : Fin 3) * 256 + 256
    omega

/-- Region 2's result array: the two slabs of partial sums of squared differences of the region's three input arrays. -/
theorem dif_eq (c : Dev nD) :
    (dat2 (F := Ideal) V c).arrAt 3 cfg2.N
      = Cert.Spec.difVec (V c (Pipeline.arrRef spec2 0)) (V c (Pipeline.arrRef spec2 1)) (V c (Pipeline.arrRef spec2 2)) :=
  (dat2 (F := Ideal) V c).arrAt_eq_of_cover 3 (Cert.Spec.difVec (rowA V c) (colA V c) (tabA V c))
    (fun t hf => flushed_eq V c t hf) cover

end Region

end Cert.KernelIdeal.Reg2

end
-- ==== Proof.Reg3.lean ====
import proofs.«406477_j5858335391841_3_alg».proof.Proof.Gen.KernelIdeal.Frame
import proofs.«406477_j5858335391841_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Reg3

open Cert.KernelIdeal Cert.KernelIdeal.Gen

/-! ## Arrays at natural coordinates, read at an index with those coordinates -/

theorem acc3_at {a b e : ℕ} (x : (⟨3, ![a, b, e]⟩ : Shape).Idx → EReal) (k : (⟨3, ![a, b, e]⟩ : Shape).Idx) (i j l : ℕ)
    (h0 : (k 0).val = i) (h1 : (k 1).val = j) (h2 : (k 2).val = l) : Cert.Spec.acc3 x i j l = x k := by
  subst h0 h1 h2
  exact (Cert.Spec.acc3_ix x (k 0) (k 1) (k 2)).trans (congrArg x (eq_ix3 k).symm)

theorem acc2_at {a b : ℕ} (x : (⟨2, ![a, b]⟩ : Shape).Idx → EReal) (k : (⟨2, ![a, b]⟩ : Shape).Idx) (i j : ℕ)
    (h0 : (k 0).val = i) (h1 : (k 1).val = j) : Cert.Spec.acc2 x i j = x k := by
  subst h0 h1
  exact (Cert.Spec.acc2_ix x (k 0) (k 1)).trans (congrArg x (eq_ix2 k).symm)

/-! ## The body's arithmetic at one entry of its block -/

/-- Dropping the leading unit axis of a slab `[1, 1280, 256]` reads row `p`, lane `q` at `(0, p, q)`. -/
theorem slab_at (v : Vec Ideal S1x1280x256 .f32) (p : Fin 1280) (q : Fin 256) :
    shapeCast S1280x256 v shapeCasts_S1x1280x256_S1280x256 (ix2 p q) = v (ix3 (0 : Fin 1) p q) := by
  refine shapeCast_apply v _ (ix2 p q) (ix3 (0 : Fin 1) p q) ?_
  rw [Shape.rowMajor_val_three, Shape.rowMajor_val_two]
  show ((0 : ℕ) * 1280 + p.val) * 256 + q.val = p.val * 256 + q.val
  omega

/-- The reciprocal-degree block set beside itself along the lanes reads lane `q` at `q % 128`. -/
theorem twice_at (v : Vec Ideal S1280x128 .f32) (p : Fin 1280) (q : Fin 256) :
    concatenate S1280x256 1 [⟨S1280x128, v⟩, ⟨S1280x128, v⟩] concatenates_S1280x128_S1280x128_S1280x256_d1 (ix2 p q)
      = v (ix2 p (⟨q.val % 128, Nat.mod_lt _ (by decide)⟩ : Fin 128)) := by
  refine concatenate_replicate_apply (t := S1280x256) (s₁ := S1280x128) 1 2 v concatenates_S1280x128_S1280x128_S1280x256_d1 rfl (ix2 p q)
    (ix2 p (⟨q.val % 128, Nat.mod_lt _ (by decide)⟩ : Fin 128)) ?_ ?_
  · rfl
  · intro b hb
    match b with
    | ⟨0, _⟩ => rfl
    | ⟨1, _⟩ => exact absurd rfl hb

/-- The body's stored value at row `p`, lane `q` of its block: tanh of the two slabs' sum times the reciprocal
    degree at lane `q % 128`. -/
theorem pay_at (v0 v2 : Vec Ideal S1x1280x256 .f32) (v5 : Vec Ideal S1280x128 .f32) (p : Fin 1280) (q : Fin 256) :
    (k3_pay1 (F := Ideal) v0 v2 v5) (ix2 p q)
      = Ideal.tanh ((v0 (ix3 (0 : Fin 1) p q) + v2 (ix3 (0 : Fin 1) p q))
          * v5 (ix2 p (⟨q.val % 128, Nat.mod_lt _ (by decide)⟩ : Fin 128))) := by
  unfold k3_pay1
  rw [shapeCast_self]
  show Ideal.tanh ((shapeCast S1280x256 v0 shapeCasts_S1x1280x256_S1280x256 (ix2 p q)
      + shapeCast S1280x256 v2 shapeCasts_S1x1280x256_S1280x256 (ix2 p q))
      * concatenate S1280x256 1 [⟨S1280x128, v5⟩, ⟨S1280x128, v5⟩] concatenates_S1280x128_S1280x128_S1280x256_d1 (ix2 p q)) = _
  rw [slab_at, slab_at, twice_at]

/-! ## The body's three loads: slab 0 and slab 1 of the partial-sum block, and the whole reciprocal-degree block -/

theorem hz2 : (![0, 0] : Fin 2 → Nat) = fun _ => 0 := funext fun a => by fin_cases a <;> rfl

theorem ld_slab0 (x0 : Vec Ideal S2x1280x256 .f32) (p : Fin 1280) (q : Fin 256) :
    View.ld x0 r3_0 (ix3 (0 : Fin 1) p q) = x0 (ix3 (0 : Fin 2) p q) := by
  show x0 (r3_0.idx (ix3 (0 : Fin 1) p q)) = _
  refine congrArg x0 (funext fun a => Fin.ext ?_)
  match a with
  | ⟨0, _⟩ => rfl
  | ⟨1, _⟩ => show 0 + 1 * p.val = p.val; omega
  | ⟨2, _⟩ => show 0 + 1 * q.val = q.val; omega

theorem ld_slab1 (x0 : Vec Ideal S2x1280x256 .f32) (p : Fin 1280) (q : Fin 256) :
    View.ld x0 r3_1 (ix3 (0 : Fin 1) p q) = x0 (ix3 (1 : Fin 2) p q) := by
  show x0 (r3_1.idx (ix3 (0 : Fin 1) p q)) = _
  refine congrArg x0 (funext fun a => Fin.ext ?_)
  match a with
  | ⟨0, _⟩ => rfl
  | ⟨1, _⟩ => show 0 + 1 * p.val = p.val; omega
  | ⟨2, _⟩ => show 0 + 1 * q.val = q.val; omega

/-- One entry of what the body leaves in the result block, when the partial-sum block `x0` and the reciprocal-degree
    block `x1` hold, at that row, the arrays `D` and `R` at node `n`: the gate at node `n`, feature `d`. -/
theorem entry_eq (D : ℕ → ℕ → ℕ → EReal) (R : ℕ → ℕ → EReal)
    (x0 : Vec Ideal S2x1280x256 .f32) (x1 : Vec Ideal S1280x128 .f32) (n d : ℕ) (p : Fin 1280) (q : Fin 256)
    (h0 : ∀ s : Fin 2, x0 (ix3 s p q) = D s.val n d)
    (h1 : x1 (ix2 p (⟨q.val % 128, Nat.mod_lt _ (by decide)⟩ : Fin 128)) = R n (d % 128)) :
    (k3_pay1 (F := Ideal) (View.ld x0 r3_0) (View.ld x0 r3_1) (View.ld x1 r3_2)) (ix2 p q) = Cert.Spec.gate D R n d := by
  rw [pay_at, ld_slab0, ld_slab1, View.ld_unit_zero (S := S1280x128) hz2, h0 0, h0 1, h1]
  rfl

variable (V : (c : Dev nD) → (b : Ref sig .tc) → Buf (Elt Ideal) ((c : Thread nD τ).loc b))

/-! ## From blocks to the array -/

/-- Where the three windows' blocks sit at grid step `t`: both slabs, rows `1280 t … 1280 t + 1279`, all lanes. -/
theorem idx_facts : ∀ t : Fin cfg3.N, win3_0.index t (0 : Fin 3) = 0 ∧ win3_0.index t (1 : Fin 3) = t.val
    ∧ win3_0.index t (2 : Fin 3) = 0 ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What grid step `t` writes back is block `t` of the gate of the two arrays the region reads. -/
theorem flushed_eq (c : Dev nD) (t : Fin cfg3.N) :
    (dat3 (F := Ideal) V c).flushed 2 t = ((cfg3.win 2).blk t).view.read (Elt Ideal)
      (Cert.Spec.gateVec (V c (Pipeline.arrRef spec3 0)) (V c (Pipeline.arrRef spec3 1))) := by
  show (cfg3.win 2).cut (grid3.coords t) ((dat3 V c).after 2 t) = _
  rw [after3_2]
  unfold out3_2
  rw [View.canon_unit_zero hz2]
  obtain ⟨e00, e01, e02, e10, e11, e20, e21⟩ := idx_facts t
  funext j
  obtain ⟨p, q, rfl⟩ : ∃ (p : Fin 1280) (q : Fin 256), j = ix2 p q := ⟨j 0, j 1, eq_ix2 j⟩
  show (k3_pay1 (F := Ideal) (View.ld (iblk3 V c 0 t) r3_0) (View.ld (iblk3 V c 0 t) r3_1) (View.ld (iblk3 V c 1 t) r3_2)) (ix2 p q)
    = Cert.Spec.gate (Cert.Spec.acc3 (V c (Pipeline.arrRef spec3 0))) (Cert.Spec.acc2 (V c (Pipeline.arrRef spec3 1)))
        (((cfg3.win 2).blk t).view.emb (ix2 p q) 0).val (((cfg3.win 2).blk t).view.emb (ix2 p q) 1).val
  refine entry_eq _ _ (iblk3 V c 0 t) (iblk3 V c 1 t) _ _ p q (fun s => ?_) ?_
  · show V c (Pipeline.arrRef spec3 0) (((cfg3.win 0).blk t).view.emb (ix3 s p q)) = _
    refine (acc3_at _ _ _ _ _ ?_ ?_ ?_).symm
    · show win3_0.index t (0 : Fin 3) * 2 + 1 * s.val = s.val; omega
    · show win3_0.index t (1 : Fin 3) * 1280 + 1 * p.val = win3_2.index t (0 : Fin 2) * 1280 + 1 * p.val; omega
    · show win3_0.index t (2 : Fin 3) * 256 + 1 * q.val = win3_2.index t (1 : Fin 2) * 256 + 1 * q.val; omega
  · show V c (Pipeline.arrRef spec3 1) (((cfg3.win 1).blk t).view.emb (ix2 p (⟨q.val % 128, Nat.mod_lt _ (by decide)⟩ : Fin 128))) = _
    refine (acc2_at _ _ _ _ ?_ ?_).symm
    · show win3_1.index t (0 : Fin 2) * 1280 + 1 * p.val = win3_2.index t (0 : Fin 2) * 1280 + 1 * p.val; omega
    · show win3_1.index t (1 : Fin 2) * 128 + 1 * (q.val % 128) = (win3_2.index t (1 : Fin 2) * 256 + 1 * q.val) % 128; omega

/-- An index of the result array is in step `t`'s block iff each coordinate is in the block's range on its axis. -/
theorem mem_blk (t : Fin cfg3.N) (i : S10240x256.Idx) :
    i ∈ ((cfg3.win 2).blk t).view.set ↔ ∀ a : Fin 2, win3_2.index t a * S1280x256.size a ≤ (i a).val
      ∧ (i a).val < win3_2.index t a * S1280x256.size a + S1280x256.size a := by
  show i ∈ ((View.whole main_v13).slice (win3_2.rect t)).set ↔ _
  rw [View.set_slice_whole, Rect.mem_set_unit]
  exact Iff.rfl

/-- Row `r` of the result array is in the block of step `r / 1280`. -/
theorem cover (i : S10240x256.Idx) : ∃ t : Fin cfg3.N, (cfg3.win 2).flush t = true ∧ i ∈ ((cfg3.win 2).blk t).view.set := by
  have hN : cfg3.N = 8 := N_3
  have hi0 : (i 0).val < 10240 := (i 0).isLt
  have hi1 : (i 1).val < 256 := (i 1).isLt
  refine ⟨⟨(i 0).val / 1280, by rw [hN]; omega⟩, flush3_2 _, ?_⟩
  rw [mem_blk]
  obtain ⟨-, -, -, -, -, e20, e21⟩ := idx_facts ⟨(i 0).val / 1280, by rw [hN]; omega⟩
  intro a
  match a with
  | ⟨0, _⟩ =>
    show win3_2.index _ (0 : Fin 2) * 1280 ≤ (i 0).val ∧ (i 0).val < win3_2.index _ (0 : Fin 2) * 1280 + 1280
    rw [e20]; show (i 0).val / 1280 * 1280 ≤ (i 0).val ∧ (i 0).val < (i 0).val / 1280 * 1280 + 1280; omega
  | ⟨1, _⟩ =>
    show win3_2.index _ (1 : Fin 2) * 256 ≤ (i 1).val ∧ (i 1).val < win3_2.index _ (1 : Fin 2) * 256 + 256
    rw [e21]; omega

/-- Region 3's result array: the gate of the summed slabs and the reciprocal degree. -/
theorem gate_eq (c : Dev nD) :
    (dat3 (F := Ideal) V c).arrAt 2 cfg3.N
      = Cert.Spec.gateVec (V c (Pipeline.arrRef spec3 0)) (V c (Pipeline.arrRef spec3 1)) :=
  (dat3 (F := Ideal) V c).arrAt_eq_of_cover 2 _ (fun t _ => flushed_eq V c t) cover

end Cert.KernelIdeal.Reg3

end
-- ==== Proof.HostIO.lean ====
import proofs.«406477_j5858335391841_3_alg».proof.Proof.Gen.KernelIdeal.Frame
import proofs.«406477_j5858335391841_3_alg».proof.Proof.Spec
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.ShloMosaic.ValueIdx Idealize.SL.Sem
open Idealize.ShloMosaic.Pipeline (Dat)

namespace Cert.KernelIdeal.HostIO

open Cert.KernelIdeal Cert.KernelIdeal.Gen

variable (m : (ℓ : Loc nD τ sig) → Buf (Elt Ideal) ℓ) (ρ : Dev nD → PrngReg)

/-! ## The edge-index columns: a row of the edge index sliced out, flattened, and stood up as a column -/

/-- Row `r` of the edge index, sliced out as `[1, 160000]`, flattened to `[160000]` and reshaped to the column
    `[160000, 1]`, read at edge `j 0`: the edge index at `(r, j 0)`. -/
theorem column_at (r : Fin 2) (off : Fin 2 → ℕ) (h : S2x160000.Slices off S1x160000) (hoff0 : off 0 = r.val) (hoff1 : off 1 = 0)
    (ei : S2x160000.Idx → BitVec 32) (j : S160000x1.Idx) :
    shapeCast S160000x1 (shapeCast S160000 (extractStridedSlice S1x160000 off ei h) shapeCasts_S1x160000_S160000)
        shapeCasts_S160000_S160000x1 j
      = ei (ix2 r (⟨(j 0).val, (j 0).isLt⟩ : Fin 160000)) := by
  have hj1 : (j 1).val < 1 := (j 1).isLt
  refine (shapeCast_apply _ shapeCasts_S160000_S160000x1 j (ix1 (⟨(j 0).val, (j 0).isLt⟩ : Fin 160000)) ?_).trans ?_
  · rw [Shape.rowMajor_val_one, Shape.rowMajor_val_two]
    show (j 0).val = (j 0).val * 1 + (j 1).val
    omega
  refine (shapeCast_apply _ shapeCasts_S1x160000_S160000 (ix1 (⟨(j 0).val, (j 0).isLt⟩ : Fin 160000))
    (ix2 (0 : Fin 1) (⟨(j 0).val, (j 0).isLt⟩ : Fin 160000)) ?_).trans ?_
  · rw [Shape.rowMajor_val_two, Shape.rowMajor_val_one]
    show 0 * 160000 + (j 0).val = (j 0).val
    omega
  exact extractStridedSlice_apply off ei h _ _ (fun a => match a with
    | ⟨0, _⟩ => by show r.val = off 0 + 0; omega
    | ⟨1, _⟩ => by show (j 0).val = off 1 + (j 0).val; omega)

/-- The target column the first region reads is row 0 of the edge index. -/
theorem row_eq (c : Dev nD) :
    (V3 m ρ c (Pipeline.arrRef spec0 0) : Cert.Spec.S160000x1.Idx → BitVec 32)
      = Cert.Spec.edgeCol 0 (m ((c : Thread nD τ).loc main_arg1)) := by
  have e : (V3 m ρ c main_v2 : S160000x1.Idx → BitVec 32)
      = shapeCast S160000x1 (shapeCast S160000 (extractStridedSlice S1x160000 ![0, 0]
          (m ((c : Thread nD τ).loc main_arg1) : S2x160000.Idx → BitVec 32) slices_S2x160000_S1x160000_0_0)
          shapeCasts_S1x160000_S160000) shapeCasts_S160000_S160000x1 := by
    show StableHlo.after hostOps0_2 (StableHlo.after hostOps0_1 (StableHlo.after hostOps0 (W0 m ρ c))) (Proc.devRef .tc main_v2) = _
    simp only [hostOps0, hostOps0_1, hostOps0_2]
    after_results
    rfl
  refine e.trans (funext fun j => ?_)
  exact column_at 0 ![0, 0] slices_S2x160000_S1x160000_0_0 rfl rfl _ j

/-- The source column is row 1 of the edge index. -/
theorem col_eq (c : Dev nD) :
    (V3 m ρ c (Pipeline.arrRef spec0 1) : Cert.Spec.S160000x1.Idx → BitVec 32)
      = Cert.Spec.edgeCol 1 (m ((c : Thread nD τ).loc main_arg1)) := by
  have e : (V3 m ρ c main_v5 : S160000x1.Idx → BitVec 32)
      = shapeCast S160000x1 (shapeCast S160000 (extractStridedSlice S1x160000 ![1, 0]
          (m ((c : Thread nD τ).loc main_arg1) : S2x160000.Idx → BitVec 32) slices_S2x160000_S1x160000_1_0)
          shapeCasts_S1x160000_S160000) shapeCasts_S160000_S160000x1 := by
    show StableHlo.after hostOps0_2 (StableHlo.after hostOps0_1 (StableHlo.after hostOps0 (W0 m ρ c))) (Proc.devRef .tc main_v5) = _
    simp only [hostOps0, hostOps0_1, hostOps0_2]
    after_results
    rfl
  refine e.trans (funext fun j => ?_)
  exact column_at 1 ![1, 0] slices_S2x160000_S1x160000_1_0 rfl rfl _ j

/-! ## The padded feature table -/

/-- The integer zero converted to a float is the real zero. -/
theorem zero_word : (FloatOps.sitofp (F := Ideal) .f32 (0#32) : EReal) = 0 := by
  show (((0#32 : BitVec 32).toInt : ℝ) : EReal) = 0
  rw [show (0#32 : BitVec 32).toInt = 0 from by decide, Int.cast_zero, EReal.coe_zero]

/-- The features padded below with 240 rows of a value `z`, read at row `j 0`, lane `j 1`: the features where the
    row is one of theirs, `z` on the added rows. -/
theorem pad_at (X : S10000x256.Idx → EReal) (z : S_.Idx → EReal) (j : S10240x256.Idx) :
    pad S10240x256 ![0, 0] ![240, 0] ![0, 0] X z pads_S10000x256_S10240x256_02400_000 h_S_ j
      = if h : (j 0).val < 10000 ∧ (j 1).val < 256 then X (ix2 ⟨(j 0).val, h.1⟩ ⟨(j 1).val, h.2⟩) else z ix0 := by
  have hj1 : (j 1).val < 256 := (j 1).isLt
  unfold pad
  by_cases h : (j 0).val < 10000
  · rw [dif_pos (fun a => match a with
      | ⟨0, _⟩ => by show 0 ≤ (j 0).val ∧ ((j 0).val - 0) % (0 + 1) = 0 ∧ ((j 0).val - 0) / (0 + 1) < 10000; omega
      | ⟨1, _⟩ => by show 0 ≤ (j 1).val ∧ ((j 1).val - 0) % (0 + 1) = 0 ∧ ((j 1).val - 0) / (0 + 1) < 256; omega),
      dif_pos ⟨h, hj1⟩]
    refine congrArg X (funext fun a => Fin.ext ?_)
    match a with
    | ⟨0, _⟩ => show ((j 0).val - 0) / (0 + 1) = (j 0).val; omega
    | ⟨1, _⟩ => show ((j 1).val - 0) / (0 + 1) = (j 1).val; omega
  · rw [dif_neg (fun hin => h (by
      have h0 : 0 ≤ (j 0).val ∧ ((j 0).val - 0) % (0 + 1) = 0 ∧ ((j 0).val - 0) / (0 + 1) < 10000 := hin 0
      omega)), dif_neg (fun hh => h hh.1)]
    exact congrArg z (eq_ix0 _)

/-- The padded feature table: the features over 240 rows of zeros (the change of float format is the identity). -/
theorem xp_eq (c : Dev nD) :
    (V3 m ρ c (Pipeline.arrRef spec0 2) : Cert.Spec.S10240x256.Idx → EReal)
      = Cert.Spec.padVec (m ((c : Thread nD τ).loc main_arg0)) := by
  have e : (V3 m ρ c main_v7 : S10240x256.Idx → EReal)
      = truncf (F := Ideal) .bf16 (pad S10240x256 ![0, 0] ![240, 0] ![0, 0]
          (m ((c : Thread nD τ).loc main_arg0) : S10000x256.Idx → EReal)
          (sitofp (F := Ideal) .f32 (constantI S_ 32 0#32)) pads_S10000x256_S10240x256_02400_000 h_S_) bitsLt_bf16_f32 := by
    show StableHlo.after hostOps0_2 (StableHlo.after hostOps0_1 (StableHlo.after hostOps0 (W0 m ρ c))) (Proc.devRef .tc main_v7) = _
    simp only [hostOps0, hostOps0_1, hostOps0_2]
    after_results
    rfl
  refine e.trans (funext fun j => ?_)
  rw [truncf_apply, pad_at]
  show _ = Cert.Spec.acc2 _ (j 0).val (j 1).val
  unfold Cert.Spec.acc2
  by_cases h : (j 0).val < 10000 ∧ (j 1).val < 256
  · rw [dif_pos h, dif_pos h]
  · rw [dif_neg h, dif_neg h]
    exact zero_word

/-! ## The weights and the bias -/

/-- The root weights as the second region reads them. -/
theorem wr_eq (c : Dev nD) :
    (V3 m ρ c (Pipeline.arrRef spec1 3) : Cert.Spec.S256x256.Idx → EReal) = m ((c : Thread nD τ).loc main_arg2) := by
  show StableHlo.after hostOps0_2 (StableHlo.after hostOps0_1 (StableHlo.after hostOps0 (W0 m ρ c))) (Proc.devRef .tc main_v8) = _
  simp only [hostOps0, hostOps0_1, hostOps0_2]
  after_results
  rfl

/-- The neighbour weights as the second region reads them. -/
theorem wn_eq (c : Dev nD) :
    (V3 m ρ c (Pipeline.arrRef spec1 4) : Cert.Spec.S256x256.Idx → EReal) = m ((c : Thread nD τ).loc main_arg3) := by
  show StableHlo.after hostOps0_2 (StableHlo.after hostOps0_1 (StableHlo.after hostOps0 (W0 m ρ c))) (Proc.devRef .tc main_v9) = _
  simp only [hostOps0, hostOps0_1, hostOps0_2]
  after_results
  rfl

/-- The bias as the second region reads it. -/
theorem b_eq (c : Dev nD) :
    (V3 m ρ c (Pipeline.arrRef spec1 5) : Cert.Spec.S256.Idx → EReal) = m ((c : Thread nD τ).loc main_arg4) := by
  show StableHlo.after hostOps0_2 (StableHlo.after hostOps0_1 (StableHlo.after hostOps0 (W0 m ρ c))) (Proc.devRef .tc main_arg4) = _
  simp only [hostOps0, hostOps0_1, hostOps0_2]
  after_results

/-! ## The program's result -/

/-- The program's result: the first 10000 rows of the last region's result array. -/
theorem out_eq (c : Dev nD) :
    (W8 m ρ c (Proc.devRef .tc main_v14) : Cert.Spec.S10000x256.Idx → EReal)
      = fun j => (V7 m ρ c (Pipeline.arrRef spec3 2) : Cert.Spec.S10240x256.Idx → EReal)
          (ix2 ⟨(j 0).val, Nat.lt_trans (j 0).isLt (by decide)⟩ ⟨(j 1).val, (j 1).isLt⟩) := by
  have e : (W8 m ρ c (Proc.devRef .tc main_v14) : S10000x256.Idx → EReal)
      = extractStridedSlice S10000x256 ![0, 0] (W7 m ρ c (Proc.devRef .tc main_v13) : S10240x256.Idx → EReal)
          slices_S10240x256_S10000x256_0_0 := by
    show StableHlo.after hostOps4 (W7 m ρ c) (Proc.devRef .tc main_v14) = _
    simp only [hostOps4]
    after_results
  refine e.trans (funext fun j => ?_)
  exact extractStridedSlice_apply (s := S10240x256) (t := S10000x256) ![0, 0]
    (W7 m ρ c (Proc.devRef .tc main_v13) : S10240x256.Idx → EReal) slices_S10240x256_S10000x256_0_0 j
    (ix2 (⟨(j 0).val, Nat.lt_trans (j 0).isLt (by decide)⟩ : Fin 10240) (⟨(j 1).val, (j 1).isLt⟩ : Fin 256)) (fun a => match a with
    | ⟨0, _⟩ => by show (j 0).val = 0 + (j 0).val; omega
    | ⟨1, _⟩ => by show (j 1).val = 0 + (j 1).val; omega)

end Cert.KernelIdeal.HostIO

end
-- ==== Proof.Chain.lean ====
/-
  The kernel program's result as ONE function of its arguments: the four regions' result arrays and the host
  operations around them, threaded through the contents of the buffers at each segment boundary. Region 0 reads the
  target and source columns and the padded features and leaves the partial neighbour sums and partial degrees;
  region 1 reads those, the padded features, the weights and the bias and leaves the hidden features and the
  reciprocal degree; region 2 reads the columns and the hidden features and leaves the partial sums of squared
  differences; region 3 reads those and the reciprocal degree and leaves the gate; the result is its first 10000 rows.
  A buffer that a region neither reads through a window nor writes is as the region found it; an input window's array
  is never written back.
-/
import proofs.«406477_j5858335391841_3_alg».proof.Proof.Reg0
import proofs.«406477_j5858335391841_3_alg».proof.Proof.Reg1
import proofs.«406477_j5858335391841_3_alg».proof.Proof.Reg2
import proofs.«406477_j5858335391841_3_alg».proof.Proof.Reg3
import proofs.«406477_j5858335391841_3_alg».proof.Proof.HostIO

set_option maxRecDepth 16384

noncomputable section

open Idealize.ShloMosaic Idealize.ShloMosaic.TcCoe Idealize.ShloMosaic.ValueIdx Idealize.SL.Sem
open Idealize.ShloMosaic.Pipeline (Dat)

namespace Cert.KernelIdeal.Chain

open Cert.KernelIdeal Cert.KernelIdeal.Gen Cert.Spec

variable (m : (ℓ : Loc nD τ sig) → Buf (Elt Ideal) ℓ) (ρ : Dev nD → PrngReg)

/-- The arguments as the formulas below name them. -/
abbrev aX (c : Dev nD) : Cert.Spec.S10000x256.Idx → EReal := m ((c : Thread nD τ).loc main_arg0)
abbrev aE (c : Dev nD) : Cert.Spec.S2x160000.Idx → BitVec 32 := m ((c : Thread nD τ).loc main_arg1)
abbrev aWr (c : Dev nD) : Cert.Spec.S256x256.Idx → EReal := m ((c : Thread nD τ).loc main_arg2)
abbrev aWn (c : Dev nD) : Cert.Spec.S256x256.Idx → EReal := m ((c : Thread nD τ).loc main_arg3)
abbrev aB (c : Dev nD) : Cert.Spec.S256.Idx → EReal := m ((c : Thread nD τ).loc main_arg4)

/-! ## After region 0 -/

/-- The partial neighbour sums. -/
theorem nbr4 (c : Dev nD) : (V4 m ρ c (Pipeline.arrRef spec0 3) : Cert.Spec.S2x10240x256.Idx → EReal)
    = nbrVec (edgeCol 0 (aE m c)) (edgeCol 1 (aE m c)) (padVec (aX m c)) := by
  rw [← hF0 m ρ c 3, Reg0.nbr_eq, HostIO.row_eq, HostIO.col_eq, HostIO.xp_eq]

/-- The partial degrees. -/
theorem deg4 (c : Dev nD) : (V4 m ρ c (Pipeline.arrRef spec0 4) : Cert.Spec.S2x10240x128.Idx → EReal)
    = degVec (edgeCol 0 (aE m c)) := by
  rw [← hF0 m ρ c 4, Reg0.deg_eq, HostIO.row_eq]

/-- Region 0 leaves its input arrays as it found them. -/
theorem row4 (c : Dev nD) : (V4 m ρ c (Pipeline.arrRef spec0 0) : Cert.Spec.S160000x1.Idx → BitVec 32) = edgeCol 0 (aE m c) := by
  rw [← hF0 m ρ c 0, (dat0 (V3 m ρ) c).arrAt_in 0 rfl, A_eq0, HostIO.row_eq]
theorem col4 (c : Dev nD) : (V4 m ρ c (Pipeline.arrRef spec0 1) : Cert.Spec.S160000x1.Idx → BitVec 32) = edgeCol 1 (aE m c) := by
  rw [← hF0 m ρ c 1, (dat0 (V3 m ρ) c).arrAt_in 1 rfl, A_eq0, HostIO.col_eq]
theorem xp4 (c : Dev nD) : (V4 m ρ c (Pipeline.arrRef spec0 2) : Cert.Spec.S10240x256.Idx → EReal) = padVec (aX m c) := by
  rw [← hF0 m ρ c 2, (dat0 (V3 m ρ) c).arrAt_in 2 rfl, A_eq0, HostIO.xp_eq]

/-- The weights and the bias are no array of region 0. -/
theorem wr4 (c : Dev nD) : (V4 m ρ c (Pipeline.arrRef spec1 3) : Cert.Spec.S256x256.Idx → EReal) = aWr m c :=
  (W4_of_ne m ρ c _ (by decide)).trans (HostIO.wr_eq m ρ c)
theorem wn4 (c : Dev nD) : (V4 m ρ c (Pipeline.arrRef spec1 4) : Cert.Spec.S256x256.Idx → EReal) = aWn m c :=
  (W4_of_ne m ρ c _ (by decide)).trans (HostIO.wn_eq m ρ c)
theorem b4 (c : Dev nD) : (V4 m ρ c (Pipeline.arrRef spec1 5) : Cert.Spec.S256.Idx → EReal) = aB m c :=
  (W4_of_ne m ρ c _ (by decide)).trans (HostIO.b_eq m ρ c)

/-! ## After region 1 -/

/-- The hidden features. -/
theorem hid5 (c : Dev nD) : (V5 m ρ c (Pipeline.arrRef spec1 6) : Cert.Spec.S10240x256.Idx → EReal)
    = hidVec (nbrVec (edgeCol 0 (aE m c)) (edgeCol 1 (aE m c)) (padVec (aX m c))) (degVec (edgeCol 0 (aE m c)))
        (padVec (aX m c)) (aWr m c) (aWn m c) (aB m c) := by
  rw [← hF1 m ρ c 6, Reg1.hid_eq]
  exact congr (congr (congr (congr (congr (congrArg hidVec (nbr4 m ρ c)) (deg4 m ρ c)) (xp4 m ρ c)) (wr4 m ρ c)) (wn4 m ρ c)) (b4 m ρ c)

/-- The reciprocal degree. -/
theorem rdeg5 (c : Dev nD) : (V5 m ρ c (Pipeline.arrRef spec1 7) : Cert.Spec.S10240x128.Idx → EReal)
    = rdegVec (degVec (edgeCol 0 (aE m c))) := by
  rw [← hF1 m ρ c 7, Reg1.rdeg_eq]
  exact congrArg rdegVec (deg4 m ρ c)

/-- The columns are no array of region 1. -/
theorem row5 (c : Dev nD) : (V5 m ρ c (Pipeline.arrRef spec2 0) : Cert.Spec.S160000x1.Idx → BitVec 32) = edgeCol 0 (aE m c) :=
  (W5_of_ne m ρ c _ (by decide)).trans (row4 m ρ c)
theorem col5 (c : Dev nD) : (V5 m ρ c (Pipeline.arrRef spec2 1) : Cert.Spec.S160000x1.Idx → BitVec 32) = edgeCol 1 (aE m c) :=
  (W5_of_ne m ρ c _ (by decide)).trans (col4 m ρ c)

/-! ## After region 2 -/

/-- The partial sums of squared differences. -/
theorem dif6 (c : Dev nD) : (V6 m ρ c (Pipeline.arrRef spec2 3) : Cert.Spec.S2x10240x256.Idx → EReal)
    = difVec (edgeCol 0 (aE m c)) (edgeCol 1 (aE m c))
        (hidVec (nbrVec (edgeCol 0 (aE m c)) (edgeCol 1 (aE m c)) (padVec (aX m c))) (degVec (edgeCol 0 (aE m c)))
          (padVec (aX m c)) (aWr m c) (aWn m c) (aB m c)) := by
  rw [← hF2 m ρ c 3, Reg2.dif_eq]
  exact congr (congr (congrArg difVec (row5 m ρ c)) (col5 m ρ c)) (hid5 m ρ c)

/-- The reciprocal degree is no array of region 2. -/
theorem rdeg6 (c : Dev nD) : (V6 m ρ c (Pipeline.arrRef spec3 1) : Cert.Spec.S10240x128.Idx → EReal)
    = rdegVec (degVec (edgeCol 0 (aE m c))) :=
  (W6_of_ne m ρ c _ (by decide)).trans (rdeg5 m ρ c)

/-! ## After region 3, and the result -/

/-- The program's result buffer at the last segment boundary is the kernel function of the arguments. -/
theorem result_eq (c : Dev nD) : (W8 m ρ c (Proc.devRef .tc main_v14) : Cert.Spec.S10000x256.Idx → EReal)
    = kernelVec (aX m c) (aE m c) (aWr m c) (aWn m c) (aB m c) := by
  rw [HostIO.out_eq]
  funext j
  show (V7 m ρ c (Pipeline.arrRef spec3 2) : Cert.Spec.S10240x256.Idx → EReal) _ = _
  rw [← hF3 m ρ c 2, Reg3.gate_eq]
  unfold kernelVec
  exact congrFun (congr (congrArg gateVec (dif6 m ρ c)) (rdeg6 m ρ c)) _

end Cert.KernelIdeal.Chain

end
-- ==== Proof.RefValue.lean ====
import proofs.«406477_j5858335391841_3_alg».proof.Proof.Gen.ReferenceIdeal.Read
import proofs.«406477_j5858335391841_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.ShloMosaic.ValueIdx

namespace Cert.ReferenceIdeal.RefValue

open Cert.ReferenceIdeal Cert.ReferenceIdeal.Gen Cert.ReferenceIdeal.Read

/-!
  The reference, stage by stage, as the functions of `Spec`.

  Three kinds of stage are read by hand. A row gather reads, at `(e, k)`, the table at the row its start word names, read
  signed and clamped into `[0, 9999]` (`gather_rows`). A scatter-add lands the update `(e, k)` on `(i, k')` exactly when
  the edge's target word, read signed and not clamped, is `i` and `k = k'` (`scatter_rows_iff`, `scatter_deg_iff`), so
  what it adds to element `(i, k)` is the sum over the edges `Spec.into row i` (`scatter_rows_sum`, `scatter_deg_sum`).
  The index normalisation is `Spec.nrm` word by word (`nrm_word`). Every other stage is pointwise, a broadcast or a
  contraction over 256 features, and is read off the generated stage lemmas: the clamped degree `Spec.rDen` (`v9_at`),
  the mean of the neighbours (`v22_at`), the hidden features `Spec.rHid` (`v29_at`), the squared difference of an edge's
  two hidden rows (`v47_at`), and the result `Spec.rOut` (`v53_at`).
-/

/-! ## The row gather read at an index -/

/-- The gather of rows: result element `(e, k)` is the table at the row the start word `idx[e, 0]` names, read signed
    and clamped into `[0, 9999]`, column `k`. -/
theorem gather_rows {α : Type} (x : S10000x256.Idx → α) (idx : IVec S160000x1 32) (e : Fin 160000) (k : Fin 256) :
    Host.gather gather_S10000x256_S160000x1_S160000x256_1_0_n_n_0_1_1256 x idx (ix2 e k)
      = x (ix2 ⟨min (idx (ix2 e (0 : Fin 1))).toInt.toNat 9999, by omega⟩ k) := by
  unfold Host.gather
  congr 1
  funext a
  refine Fin.ext ?_
  match a with
  | ⟨0, _⟩ =>
    show gather_S10000x256_S160000x1_S160000x256_1_0_n_n_0_1_1256.start (ix2 e k) idx 0
        + gather_S10000x256_S160000x1_S160000x256_1_0_n_n_0_1_1256.batchCoord (ix2 e k) 0
        + gather_S10000x256_S160000x1_S160000x256_1_0_n_n_0_1_1256.offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S10000x256_S160000x1_S160000x256_1_0_n_n_0_1_1256.startIndexMap from List.mem_singleton.mpr rfl)]
    have hsi : gather_S10000x256_S160000x1_S160000x256_1_0_n_n_0_1_1256.siIdx (ix2 e k)
        ⟨List.idxOf (0 : Fin 2) gather_S10000x256_S160000x1_S160000x256_1_0_n_n_0_1_1256.startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show gather_S10000x256_S160000x1_S160000x256_1_0_n_n_0_1_1256.start (ix2 e k) idx 1
        + gather_S10000x256_S160000x1_S160000x256_1_0_n_n_0_1_1256.batchCoord (ix2 e k) 1
        + gather_S10000x256_S160000x1_S160000x256_1_0_n_n_0_1_1256.offCoord (ix2 e k) 1 = k.val
    rw [GatherDims.batchCoord_eq_zero _ _ _ List.not_mem_nil]
    unfold GatherDims.start
    rw [dif_neg (show ¬ (1 : Fin 2) ∈ gather_S10000x256_S160000x1_S160000x256_1_0_n_n_0_1_1256.startIndexMap by decide)]
    simp only [Nat.add_zero, Nat.zero_add]
    unfold GatherDims.offCoord
    rw [dif_pos (show (1 : Fin 2) ∈ gather_S10000x256_S160000x1_S160000x256_1_0_n_n_0_1_1256.sKept by decide)]
    rfl

/-- The same, with the start word named. -/
theorem gather_rows_of {α : Type} (x : S10000x256.Idx → α) (idx : IVec S160000x1 32) (e : Fin 160000) (k : Fin 256)
    (w : BitVec 32) (hw : idx (ix2 e (0 : Fin 1)) = w) :
    Host.gather gather_S10000x256_S160000x1_S160000x256_1_0_n_n_0_1_1256 x idx (ix2 e k)
      = x (ix2 ⟨min w.toInt.toNat 9999, by omega⟩ k) := by
  subst hw; exact gather_rows x idx e k

/-! ## The scatters' landing index -/

/-- An update lands on operand element `i` exactly when, on every axis, its start (read signed, not clamped) plus its
    window coordinate is `i`'s coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split
  · rename_i h
    rw [Option.some.injEq]
    constructor
    · intro hf a
      have h1 := congrArg Fin.val (congrFun hf a)
      have h2 := (h a).1
      simp only at h1
      omega
    · intro hall
      funext a
      apply Fin.ext
      show (d.start j idx a + d.window j a).toNat = (i a).val
      rw [hall a]; exact Int.toNat_natCast _
  · rename_i h
    constructor
    · intro hf; exact absurd hf (by simp)
    · intro hall
      exfalso; apply h
      intro a
      rw [hall a]
      exact ⟨Int.natCast_nonneg _, by exact_mod_cast (i a).isLt⟩

/-- The row scatter: the update `(e, k)` lands on `(i, k')` exactly when the target word `idx[e, 0]`, read signed, is
    `i` and the columns agree. -/
theorem scatter_rows_iff (idx : IVec S160000x1 32) (e : Fin 160000) (k : Fin 256) (i : Fin 10000) (k' : Fin 256) :
    scatter_S10000x256_S160000x1_S160000x256_1_0_0_1.resultIdx? (ix2 e k) idx = some (ix2 i k')
      ↔ (idx (ix2 e (0 : Fin 1))).toInt = (i.val : ℤ) ∧ k = k' := by
  rw [resultIdx?_eq_some_iff]
  have hs0 : scatter_S10000x256_S160000x1_S160000x256_1_0_0_1.start (ix2 e k) idx 0 = (idx (ix2 e (0 : Fin 1))).toInt := by
    unfold ScatterDims.start
    rw [dif_pos (show (0 : Fin 2) ∈ scatter_S10000x256_S160000x1_S160000x256_1_0_0_1.scatterDimsToOperandDims from List.mem_singleton.mpr rfl)]
    have hsi : scatter_S10000x256_S160000x1_S160000x256_1_0_0_1.siIdx (ix2 e k)
        ⟨List.idxOf (0 : Fin 2) scatter_S10000x256_S160000x1_S160000x256_1_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hs1 : scatter_S10000x256_S160000x1_S160000x256_1_0_0_1.start (ix2 e k) idx 1 = 0 := by
    unfold ScatterDims.start
    rw [dif_neg (show ¬ (1 : Fin 2) ∈ scatter_S10000x256_S160000x1_S160000x256_1_0_0_1.scatterDimsToOperandDims by decide)]
  have hw0 : scatter_S10000x256_S160000x1_S160000x256_1_0_0_1.window (ix2 e k) 0 = 0 := by
    unfold ScatterDims.window
    rw [dif_neg (show ¬ (0 : Fin 2) ∈ scatter_S10000x256_S160000x1_S160000x256_1_0_0_1.sKept by decide)]
  have hw1 : scatter_S10000x256_S160000x1_S160000x256_1_0_0_1.window (ix2 e k) 1 = k.val := by
    unfold ScatterDims.window
    rw [dif_pos (show (1 : Fin 2) ∈ scatter_S10000x256_S160000x1_S160000x256_1_0_0_1.sKept by decide)]
    rfl
  constructor
  · intro h
    have h0 := h 0
    have h1 := h 1
    rw [hs0, hw0] at h0
    rw [hs1, hw1] at h1
    refine ⟨by simpa using h0, Fin.ext ?_⟩
    have : ((k.val : ℤ)) = (k'.val : ℤ) := by simpa using h1
    exact_mod_cast this
  · rintro ⟨h0, rfl⟩ a
    match a with
    | ⟨0, _⟩ =>
      show scatter_S10000x256_S160000x1_S160000x256_1_0_0_1.start (ix2 e k) idx 0
        + (scatter_S10000x256_S160000x1_S160000x256_1_0_0_1.window (ix2 e k) 0 : ℤ) = (i.val : ℤ)
      rw [hs0, hw0, h0]; simp
    | ⟨1, _⟩ =>
      show scatter_S10000x256_S160000x1_S160000x256_1_0_0_1.start (ix2 e k) idx 1
        + (scatter_S10000x256_S160000x1_S160000x256_1_0_0_1.window (ix2 e k) 1 : ℤ) = (k.val : ℤ)
      rw [hs1, hw1]; simp

/-- The degree scatter: the update `e` lands on `i` exactly when the target word `idx[e, 0]`, read signed, is `i`. -/
theorem scatter_deg_iff (idx : IVec S160000x1 32) (e : Fin 160000) (i : Fin 10000) :
    scatter_S10000_S160000x1_S160000_n_0_0_1.resultIdx? (ix1 e) idx = some (ix1 i)
      ↔ (idx (ix2 e (0 : Fin 1))).toInt = (i.val : ℤ) := by
  rw [resultIdx?_eq_some_iff]
  have hs0 : scatter_S10000_S160000x1_S160000_n_0_0_1.start (ix1 e) idx 0 = (idx (ix2 e (0 : Fin 1))).toInt := by
    unfold ScatterDims.start
    rw [dif_pos (show (0 : Fin 1) ∈ scatter_S10000_S160000x1_S160000_n_0_0_1.scatterDimsToOperandDims from List.mem_singleton.mpr rfl)]
    have hsi : scatter_S10000_S160000x1_S160000_n_0_0_1.siIdx (ix1 e)
        ⟨List.idxOf (0 : Fin 1) scatter_S10000_S160000x1_S160000_n_0_0_1.scatterDimsToOperandDims,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
  have hw0 : scatter_S10000_S160000x1_S160000_n_0_0_1.window (ix1 e) 0 = 0 := by
    unfold ScatterDims.window
    rw [dif_neg (show ¬ (0 : Fin 1) ∈ scatter_S10000_S160000x1_S160000_n_0_0_1.sKept by decide)]
  constructor
  · intro h
    have h0 := h 0
    rw [hs0, hw0] at h0
    simpa using h0
  · intro h0 a
    match a with
    | ⟨0, _⟩ =>
      show scatter_S10000_S160000x1_S160000_n_0_0_1.start (ix1 e) idx 0
        + (scatter_S10000_S160000x1_S160000_n_0_0_1.window (ix1 e) 0 : ℤ) = (i.val : ℤ)
      rw [hs0, hw0, h0]; simp

/-! ## The scatters' sums over the edges that land on a node -/

/-- A sum over a rank-1 index set is the sum over its coordinate. -/
theorem sum_idx1 {M : Type*} [AddCommMonoid M] {n : ℕ} (g : (⟨1, ![n]⟩ : Shape).Idx → M) :
    ∑ j, g j = ∑ a : Fin n, g (ix1 a) :=
  Fintype.sum_equiv ⟨fun j => j 0, ix1, fun j => (eq_ix1 j).symm, fun _ => rfl⟩ _ _ (fun j => congrArg g (eq_ix1 j))

/-- A sum over all edge numbers of the terms whose target word, read signed, is `i`, is the sum over `Spec.into`. -/
theorem sum_fin_eq_into (row : ℕ → BitVec 32) (i : ℕ) (f : ℕ → EReal) :
    ∑ e : Fin 160000, (if (row e.val).toInt = (i : ℤ) then f e.val else 0) = ∑ e ∈ Cert.Spec.into row i, f e := by
  unfold Cert.Spec.into
  rw [Finset.sum_filter, Finset.sum_range]

/-- The updates the row scatter lands on `(i, k)`: column `k` of the edges whose target is `i`. -/
theorem scatter_rows_sum (idx : IVec S160000x1 32) (upd : S160000x256.Idx → EReal) (row : ℕ → BitVec 32) (f : ℕ → EReal)
    (i : Fin 10000) (k : Fin 256) (hrow : ∀ e : Fin 160000, idx (ix2 e (0 : Fin 1)) = row e.val)
    (hf : ∀ e : Fin 160000, upd (ix2 e k) = f e.val) :
    ∑ j ∈ Finset.univ.filter (fun j => scatter_S10000x256_S160000x1_S160000x256_1_0_0_1.resultIdx? j idx = some (ix2 i k)), upd j
      = ∑ e ∈ Cert.Spec.into row i.val, f e := by
  rw [Finset.sum_filter, sum_idx2, ← sum_fin_eq_into]
  refine Finset.sum_congr rfl fun e _ => ?_
  simp only [scatter_rows_iff, hrow]
  by_cases hc : (row e.val).toInt = (i.val : ℤ)
  · simp only [hc, true_and, Finset.sum_ite_eq', Finset.mem_univ, if_true, hf]
  · simp only [hc, false_and, if_false, Finset.sum_const_zero]

/-- The updates the degree scatter lands on `i`: the edges whose target is `i`. -/
theorem scatter_deg_sum (idx : IVec S160000x1 32) (upd : S160000.Idx → EReal) (row : ℕ → BitVec 32) (f : ℕ → EReal)
    (i : Fin 10000) (hrow : ∀ e : Fin 160000, idx (ix2 e (0 : Fin 1)) = row e.val)
    (hf : ∀ e : Fin 160000, upd (ix1 e) = f e.val) :
    ∑ j ∈ Finset.univ.filter (fun j => scatter_S10000_S160000x1_S160000_n_0_0_1.resultIdx? j idx = some (ix1 i)), upd j
      = ∑ e ∈ Cert.Spec.into row i.val, f e := by
  rw [Finset.sum_filter, sum_idx1, ← sum_fin_eq_into]
  refine Finset.sum_congr rfl fun e _ => ?_
  simp only [scatter_deg_iff, hrow, hf]

/-! ## Words -/

/-- The index normalisation on one word: a negative word has the extent 10000 added. -/
theorem nrm_word (w : BitVec 32) :
    Scalar.select (IntOp.cmpi .slt w 0#32) (IntOp.addi w 10000#32) w = Cert.Spec.nrm w := by
  unfold Cert.Spec.nrm Scalar.select IntOp.cmpi IntOp.addi
  by_cases h : w.toInt < 0
  · simp [BitVec.slt, h]
  · simp [BitVec.slt, h]

/-- The f32 pattern `0x3F800000` is the extended real one. -/
theorem ofBits_one : Ideal.ofBits .f32 0x3F800000#32 = 1 := by
  rw [show (1 : EReal) = ((1 : ℝ) : EReal) by norm_cast]
  simp [Ideal.ofBits, Ideal.ieee, -EReal.coe_mul]; norm_num

/-- The f32 pattern `0x40000000` is the extended real two. -/
theorem ofBits_two : Ideal.ofBits .f32 0x40000000#32 = 2 := by
  rw [show (2 : EReal) = ((2 : ℝ) : EReal) by norm_cast]
  simp [Ideal.ofBits, Ideal.ieee, -EReal.coe_mul]; norm_num

/-! ## The edge words -/

section Stages

variable (x0 : (⟨S10000x256, .f32⟩ : BufTy).Contents (Elt Ideal)) (x1 : (⟨S2x160000, .i32⟩ : BufTy).Contents (Elt Ideal))
  (x2 x3 : (⟨S256x256, .f32⟩ : BufTy).Contents (Elt Ideal)) (x4 : (⟨S256, .f32⟩ : BufTy).Contents (Elt Ideal))

/-- The target words: row 0 of the edge index. -/
theorem v1_at (e : Fin 160000) : val_main_v1 (F := Ideal) x1 (ix1 e) = Cert.Spec.edgeRow 0 x1 e.val := by
  rw [val_main_v1_apply, val_main_v0_apply]
  unfold Cert.Spec.edgeRow Cert.Spec.wrd
  rw [dif_pos ⟨by decide, e.isLt⟩]
  congr 1
  funext a
  refine Fin.ext ?_
  match a with
  | ⟨0, _⟩ => rfl
  | ⟨1, _⟩ => exact Nat.mod_eq_of_lt e.isLt

/-- The source words: row 1 of the edge index. -/
theorem v3_at (e : Fin 160000) : val_main_v3 (F := Ideal) x1 (ix1 e) = Cert.Spec.edgeRow 1 x1 e.val := by
  rw [val_main_v3_apply, val_main_v2_apply]
  unfold Cert.Spec.edgeRow Cert.Spec.wrd
  rw [dif_pos ⟨by decide, e.isLt⟩]
  congr 1
  funext a
  refine Fin.ext ?_
  match a with
  | ⟨0, _⟩ => rfl
  | ⟨1, _⟩ => exact Nat.mod_eq_of_lt e.isLt

/-- The column of an index `(e, 0)` of a one-column array is `e`. -/
theorem col_idx (e : Fin 160000) :
    (fun a => match a with | ⟨0, _⟩ => ⟨((ix2 e (0 : Fin 1) : S160000x1.Idx) 0).val, ((ix2 e (0 : Fin 1) : S160000x1.Idx) 0).isLt⟩ : S160000.Idx)
      = ix1 e := by
  funext a; match a with | ⟨0, _⟩ => rfl

/-- The target words as a column (the three scatters' indices). -/
theorem v6_at (e : Fin 160000) : val_main_v6 (F := Ideal) x1 (ix2 e (0 : Fin 1)) = Cert.Spec.edgeRow 0 x1 e.val := by
  rw [val_main_v6_apply, show idx_main_v6 (ix2 e (0 : Fin 1)) = ix1 e from col_idx e, v1_at]
theorem v19_at (e : Fin 160000) : val_main_v19 (F := Ideal) x1 (ix2 e (0 : Fin 1)) = Cert.Spec.edgeRow 0 x1 e.val := by
  rw [val_main_v19_apply, show idx_main_v19 (ix2 e (0 : Fin 1)) = ix1 e from col_idx e, v1_at]
theorem v49_at (e : Fin 160000) : val_main_v49 (F := Ideal) x1 (ix2 e (0 : Fin 1)) = Cert.Spec.edgeRow 0 x1 e.val := by
  rw [val_main_v49_apply, show idx_main_v49 (ix2 e (0 : Fin 1)) = ix1 e from col_idx e, v1_at]

/-- The normalised source words as a column (the first gather's indices). -/
theorem v16_at (e : Fin 160000) :
    val_main_v16 (F := Ideal) x1 (ix2 e (0 : Fin 1)) = Cert.Spec.nrm (Cert.Spec.edgeRow 1 x1 e.val) := by
  rw [val_main_v16_apply, show idx_main_v16 (ix2 e (0 : Fin 1)) = ix1 e from col_idx e, val_main_v15_apply,
    val_main_v12_apply, val_main_v14_apply, val_main_v11_apply, val_main_v13_apply, val_main_c_apply, val_main_c_2_apply, v3_at]
  exact nrm_word _
/-- The normalised target words as a column (the second gather's indices). -/
theorem v35_at (e : Fin 160000) :
    val_main_v35 (F := Ideal) x1 (ix2 e (0 : Fin 1)) = Cert.Spec.nrm (Cert.Spec.edgeRow 0 x1 e.val) := by
  rw [val_main_v35_apply, show idx_main_v35 (ix2 e (0 : Fin 1)) = ix1 e from col_idx e, val_main_v34_apply,
    val_main_v31_apply, val_main_v33_apply, val_main_v30_apply, val_main_v32_apply, val_main_c_4_apply, val_main_c_5_apply, v1_at]
  exact nrm_word _
/-- The normalised source words as a column (the third gather's indices). -/
theorem v42_at (e : Fin 160000) :
    val_main_v42 (F := Ideal) x1 (ix2 e (0 : Fin 1)) = Cert.Spec.nrm (Cert.Spec.edgeRow 1 x1 e.val) := by
  rw [val_main_v42_apply, show idx_main_v42 (ix2 e (0 : Fin 1)) = ix1 e from col_idx e, val_main_v41_apply,
    val_main_v38_apply, val_main_v40_apply, val_main_v37_apply, val_main_v39_apply, val_main_c_6_apply, val_main_c_7_apply, v3_at]
  exact nrm_word _

/-! ## The degree -/

/-- The scattered ones: the number of edges whose target is `i`, added to zero. -/
theorem v7_at (i : Fin 10000) :
    val_main_v7 (F := Ideal) x1 (ix1 i) = 0 + ∑ _e ∈ Cert.Spec.into (Cert.Spec.edgeRow 0 x1) i.val, (1 : EReal) := by
  unfold val_main_v7 Host.scatterAdd
  rw [Ideal.hostScatterAdd_def]
  unfold Ideal.hostScatterAdd
  rw [val_main_v5_apply, val_main_cst_0_apply, Ideal.ofBits_def, Ideal.ofBits_zero_f32]
  refine congrArg (fun t => (0 : EReal) + t) ?_
  exact scatter_deg_sum _ _ (Cert.Spec.edgeRow 0 x1) (fun _ => 1) i (fun e => v6_at x1 e)
    (fun e => by rw [val_main_v4_apply, val_main_cst_apply, Ideal.ofBits_def, ofBits_one])

/-- The clamped degree. -/
theorem v9_at (i : Fin 10000) : val_main_v9 (F := Ideal) x1 (ix1 i) = Cert.Spec.rDen (Cert.Spec.edgeRow 0 x1) i.val := by
  rw [val_main_v9_apply, v7_at, val_main_v8_apply, val_main_cst_1_apply, Ideal.ofBits_def, ofBits_one, Ideal.maximumf_def]
  rfl

/-- The clamped degree along a row (the two quotients' divisors). -/
theorem v21_at (n : Fin 10000) (k : Fin 256) :
    val_main_v21 (F := Ideal) x1 (ix2 n k) = Cert.Spec.rDen (Cert.Spec.edgeRow 0 x1) n.val := by
  rw [val_main_v21_apply, val_main_v10_apply,
    show idx_main_v10 (idx_main_v21 (ix2 n k)) = ix1 n from funext fun a => by match a with | ⟨0, _⟩ => rfl, v9_at]
theorem v51_at (n : Fin 10000) (k : Fin 256) :
    val_main_v51 (F := Ideal) x1 (ix2 n k) = Cert.Spec.rDen (Cert.Spec.edgeRow 0 x1) n.val := by
  rw [val_main_v51_apply, val_main_v10_apply,
    show idx_main_v10 (idx_main_v51 (ix2 n k)) = ix1 n from funext fun a => by match a with | ⟨0, _⟩ => rfl, v9_at]

/-! ## The mean of the neighbours -/

/-- The gathered source rows. -/
theorem v17_at (e : Fin 160000) (k : Fin 256) :
    val_main_v17 (F := Ideal) x0 x1 (ix2 e k) = Cert.Spec.acc2 x0 (Cert.Spec.grow (Cert.Spec.edgeRow 1 x1 e.val)) k.val := by
  unfold val_main_v17
  rw [gather_rows_of x0 _ e k _ (v16_at x1 e)]
  exact (Cert.Spec.acc2_ix x0 ⟨_, _⟩ k).symm

/-- The summed source rows of the edges whose target is `n`, added to zero. -/
theorem v20_at (n : Fin 10000) (k : Fin 256) :
    val_main_v20 (F := Ideal) x0 x1 (ix2 n k)
      = 0 + ∑ e ∈ Cert.Spec.into (Cert.Spec.edgeRow 0 x1) n.val, Cert.Spec.acc2 x0 (Cert.Spec.grow (Cert.Spec.edgeRow 1 x1 e)) k.val := by
  unfold val_main_v20 Host.scatterAdd
  rw [Ideal.hostScatterAdd_def]
  unfold Ideal.hostScatterAdd
  rw [val_main_v18_apply, val_main_cst_3_apply, Ideal.ofBits_def, Ideal.ofBits_zero_f32]
  refine congrArg (fun t => (0 : EReal) + t) ?_
  exact scatter_rows_sum _ _ (Cert.Spec.edgeRow 0 x1)
    (fun e => Cert.Spec.acc2 x0 (Cert.Spec.grow (Cert.Spec.edgeRow 1 x1 e)) k.val) n k (fun e => v19_at x1 e) (fun e => v17_at x0 x1 e k)

/-- The mean of the neighbours. -/
theorem v22_at (n : Fin 10000) (k : Fin 256) :
    val_main_v22 (F := Ideal) x0 x1 (ix2 n k)
      = Ideal.div (0 + ∑ e ∈ Cert.Spec.into (Cert.Spec.edgeRow 0 x1) n.val, Cert.Spec.acc2 x0 (Cert.Spec.grow (Cert.Spec.edgeRow 1 x1 e)) k.val)
          (Cert.Spec.rDen (Cert.Spec.edgeRow 0 x1) n.val) := by
  rw [val_main_v22_apply, v20_at, v21_at, Ideal.hostDivf_def]

/-! ## The hidden features -/

/-- The reference's hidden features at node `n`, feature `d`. -/
theorem v29_at (n : Fin 10000) (d : Fin 256) :
    val_main_v29 (F := Ideal) x0 x1 x2 x3 x4 (ix2 n d)
      = Cert.Spec.rHid (Cert.Spec.edgeRow 0 x1) (Cert.Spec.edgeRow 1 x1) (Cert.Spec.acc2 x0) (Cert.Spec.acc2 x2) (Cert.Spec.acc2 x3)
          (Cert.Spec.acc1 x4) n.val d.val := by
  have el : ∀ k : Fin 256, lidx_main_v23 (ix2 n d) k = ix2 n k := fun k => funext fun a => by
    match a with | ⟨0, _⟩ => rfl | ⟨1, _⟩ => rfl
  have er : ∀ k : Fin 256, ridx_main_v23 (ix2 n d) k = ix2 k d := fun k => funext fun a => by
    match a with | ⟨0, _⟩ => rfl | ⟨1, _⟩ => rfl
  have el' : ∀ k : Fin 256, lidx_main_v24 (ix2 n d) k = ix2 n k := fun k => funext fun a => by
    match a with | ⟨0, _⟩ => rfl | ⟨1, _⟩ => rfl
  have er' : ∀ k : Fin 256, ridx_main_v24 (ix2 n d) k = ix2 k d := fun k => funext fun a => by
    match a with | ⟨0, _⟩ => rfl | ⟨1, _⟩ => rfl
  have eb : idx_main_v26 (idx_main_v27 (ix2 n d)) = ix1 d := funext fun a => by
    match a with | ⟨0, _⟩ => rfl
  rw [val_main_v29_apply, val_main_v28_apply, val_main_v25_apply, val_main_v23_apply, val_main_v24_apply, val_main_v27_apply,
    val_main_v26_apply, val_main_call0_v0_apply, val_main_call0_cst_apply, Ideal.ofBits_def, Ideal.ofBits_zero_f32, eb]
  unfold Cert.Spec.rHid
  rw [Finset.sum_range, Finset.sum_range]
  simp only [el, er, el', er', v22_at, Ideal.addf_def, Ideal.maximumf_def, Cert.Spec.acc2_ix, Cert.Spec.acc1_ix]

/-! ## The squared differences and the result -/

/-- The hidden features gathered at the edge's (normalised, clamped) target. -/
theorem v36_at (e : Fin 160000) (k : Fin 256) :
    val_main_v36 (F := Ideal) x0 x1 x2 x3 x4 (ix2 e k)
      = Cert.Spec.rHid (Cert.Spec.edgeRow 0 x1) (Cert.Spec.edgeRow 1 x1) (Cert.Spec.acc2 x0) (Cert.Spec.acc2 x2) (Cert.Spec.acc2 x3)
          (Cert.Spec.acc1 x4) (Cert.Spec.grow (Cert.Spec.edgeRow 0 x1 e.val)) k.val := by
  unfold val_main_v36
  rw [gather_rows_of _ _ e k _ (v35_at x1 e)]
  exact v29_at x0 x1 x2 x3 x4 ⟨_, _⟩ k

/-- The hidden features gathered at the edge's (normalised, clamped) source. -/
theorem v43_at (e : Fin 160000) (k : Fin 256) :
    val_main_v43 (F := Ideal) x0 x1 x2 x3 x4 (ix2 e k)
      = Cert.Spec.rHid (Cert.Spec.edgeRow 0 x1) (Cert.Spec.edgeRow 1 x1) (Cert.Spec.acc2 x0) (Cert.Spec.acc2 x2) (Cert.Spec.acc2 x3)
          (Cert.Spec.acc1 x4) (Cert.Spec.grow (Cert.Spec.edgeRow 1 x1 e.val)) k.val := by
  unfold val_main_v43
  rw [gather_rows_of _ _ e k _ (v42_at x1 e)]
  exact v29_at x0 x1 x2 x3 x4 ⟨_, _⟩ k

/-- The squared difference of an edge's two hidden rows, as the reference spells it: the absolute value to the power 2. -/
theorem v47_at (e : Fin 160000) (k : Fin 256) :
    val_main_v47 (F := Ideal) x0 x1 x2 x3 x4 (ix2 e k)
      = Ideal.pow (max
          (Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 0 x1 e.val)) k.val
            - Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 1 x1 e.val)) k.val)
          (-(Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 0 x1 e.val)) k.val
            - Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 1 x1 e.val)) k.val))) 2 := by
  rw [val_main_v47_apply, val_main_v45_apply, val_main_v44_apply, v36_at, v43_at, val_main_v46_apply, val_main_cst_8_apply,
    Ideal.ofBits_def, ofBits_two, Ideal.hostPowf_def, Ideal.hostAbsf_def, Ideal.absf_def, Ideal.subf_def]

/-- The summed squared differences of the edges whose target is `i`, added to zero. -/
theorem v50_at (i : Fin 10000) (d : Fin 256) :
    val_main_v50 (F := Ideal) x0 x1 x2 x3 x4 (ix2 i d)
      = 0 + ∑ e ∈ Cert.Spec.into (Cert.Spec.edgeRow 0 x1) i.val,
          Ideal.pow (max
            (Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 0 x1 e)) d.val
              - Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 1 x1 e)) d.val)
            (-(Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 0 x1 e)) d.val
              - Cert.Spec.rHid (Cert.Spec.edgeRow 0 x1) (Cert.Spec.edgeRow 1 x1) (Cert.Spec.acc2 x0) (Cert.Spec.acc2 x2) (Cert.Spec.acc2 x3)
              (Cert.Spec.acc1 x4) (Cert.Spec.grow (Cert.Spec.edgeRow 1 x1 e)) d.val))) 2 := by
  unfold val_main_v50 Host.scatterAdd
  rw [Ideal.hostScatterAdd_def]
  unfold Ideal.hostScatterAdd
  rw [val_main_v48_apply, val_main_cst_9_apply, Ideal.ofBits_def, Ideal.ofBits_zero_f32]
  refine congrArg (fun t => (0 : EReal) + t) ?_
  exact scatter_rows_sum _ _ (Cert.Spec.edgeRow 0 x1) _ i d (fun e => v49_at x1 e) (fun e => v47_at x0 x1 x2 x3 x4 e d)

/-- The reference's result at node `i`, feature `d`. -/
theorem v53_at (i : Fin 10000) (d : Fin 256) :
    val_main_v53 (F := Ideal) x0 x1 x2 x3 x4 (ix2 i d)
      = Cert.Spec.rOut (Cert.Spec.edgeRow 0 x1) (Cert.Spec.edgeRow 1 x1) (Cert.Spec.acc2 x0) (Cert.Spec.acc2 x2) (Cert.Spec.acc2 x3)
          (Cert.Spec.acc1 x4) i.val d.val := by
  rw [val_main_v53_apply, val_main_v52_apply, v50_at, v51_at, Ideal.hostUnary_tanh_def, Ideal.hostDivf_def]
  rfl

end Stages

/-- The reference's last stage, at the ideal instance, is the reference function of the arguments. -/
theorem ref_eq (x0 : (⟨S10000x256, .f32⟩ : BufTy).Contents (Elt Ideal)) (x1 : (⟨S2x160000, .i32⟩ : BufTy).Contents (Elt Ideal))
    (x2 x3 : (⟨S256x256, .f32⟩ : BufTy).Contents (Elt Ideal)) (x4 : (⟨S256, .f32⟩ : BufTy).Contents (Elt Ideal)) :
    val_main_v53 (F := Ideal) x0 x1 x2 x3 x4 = Cert.Spec.refVec x0 x1 x2 x3 x4 := by
  funext j
  obtain ⟨i, d, rfl⟩ : ∃ (i : Fin 10000) (d : Fin 256), j = ix2 i d := ⟨j 0, j 1, eq_ix2 j⟩
  rw [v53_at]
  rfl

end Cert.ReferenceIdeal.RefValue

end
-- ==== Proof.Bridge.lean ====
/-
  The kernel's result and the reference's are one function of the arguments.

  Index by index, for a node `i < 10000` and a feature `d < 256`:
  * the two slabs of a partial array, added, are one sum over all 160000 edges;
  * the one-hot weight of a node below 2^31 is 1 exactly when the edge's target word reads, signed, as the node, so a
    one-hot weighted sum over all edges is the sum over the edges into the node, and the degree sum counts them: the
    clamped degree is the coercion of a real that is at least 1;
  * a word that reads, signed, as a number below 10000 picks, by the one-hot product, the row the reference gathers;
  * `x * (1 / y) = x / y` for `y` the coercion of a nonzero real and EVERY extended real `x`;
  * the second power of `max x (−x)` is `x * x` for every extended real `x`.
  No finiteness of any input is used.
-/
import proofs.«406477_j5858335391841_3_alg».proof.Proof.OneHot

noncomputable section

open Idealize.ShloMosaic Idealize.ShloMosaic.ValueIdx

namespace Cert.Spec

namespace Bridge

/-! ## Words read signed and unsigned -/

/-- A word whose signed reading is a natural number has that number as its unsigned reading. -/
theorem toNat_of_toInt (w : BitVec 32) (n : ℕ) (h : w.toInt = (n : ℤ)) : w.toNat = n := by
  have h1 := BitVec.toInt_eq_toNat_cond w
  have h2 := w.isLt
  split at h1 <;> omega

/-- A word with a non-negative signed reading: the signed reading is the unsigned one. -/
theorem toInt_eq_toNat_of_nonneg (w : BitVec 32) (h : 0 ≤ w.toInt) : w.toInt = (w.toNat : ℤ) := by
  have h1 := BitVec.toInt_eq_toNat_cond w
  have h2 := w.isLt
  split at h1 <;> omega

/-- The numeral of a number below 2^31 reads back, signed, as that number. -/
theorem toInt_ofNat_lt (n : ℕ) (hn : n < 2147483648) : (BitVec.ofNat 32 n).toInt = (n : ℤ) := by
  have h1 := BitVec.toInt_eq_toNat_cond (BitVec.ofNat 32 n)
  rw [BitVec.toNat_ofNat] at h1
  split at h1 <;> omega

/-- For a number below 2^31, a word is its numeral exactly when the word reads, signed, as the number. -/
theorem eq_ofNat_iff (w : BitVec 32) (n : ℕ) (hn : n < 2147483648) : w = BitVec.ofNat 32 n ↔ w.toInt = (n : ℤ) := by
  constructor
  · rintro rfl; exact toInt_ofNat_lt n hn
  · intro h
    apply BitVec.eq_of_toNat_eq
    rw [BitVec.toNat_ofNat, toNat_of_toInt w n h]
    omega

/-- The one-hot weight of a number below 2^31, by the signed reading of the word. -/
theorem oh_eq_ite (w : BitVec 32) (n : ℕ) (hn : n < 2147483648) : oh w n = if w.toInt = (n : ℤ) then 1 else 0 := by
  unfold oh
  by_cases h : w.toInt = (n : ℤ)
  · rw [if_pos h, if_pos ((eq_ofNat_iff w n hn).2 h)]
  · rw [if_neg h, if_neg (fun h' => h ((eq_ofNat_iff w n hn).1 h'))]

/-! ## A one-hot sum over all edges is the sum over the edges into the node -/

/-- Weighting every edge by the one-hot of its target leaves the sum over the edges whose target is the node. -/
theorem sum_oh_mul (row : ℕ → BitVec 32) (n : ℕ) (hn : n < 2147483648) (f : ℕ → EReal) :
    (∑ e ∈ Finset.range 160000, oh (row e) n * f e) = ∑ e ∈ into row n, f e := by
  unfold into
  rw [Finset.sum_filter]
  apply Finset.sum_congr rfl
  intro e _
  rw [oh_eq_ite (row e) n hn]
  by_cases h : (row e).toInt = (n : ℤ)
  · rw [if_pos h, if_pos h, one_mul]
  · rw [if_neg h, if_neg h, zero_mul]

/-- The one-hot weights of a node summed over all edges count the edges whose target is the node. -/
theorem sum_oh (row : ℕ → BitVec 32) (n : ℕ) (hn : n < 2147483648) :
    (∑ e ∈ Finset.range 160000, oh (row e) n) = ∑ _e ∈ into row n, (1 : EReal) := by
  have h := sum_oh_mul row n hn (fun _ => 1)
  simp only [mul_one] at h
  exact h

/-! ## The reference's row of a word in range -/

/-- A word that reads, signed, as a number below 10000 gathers that row: no normalisation, no clamp. -/
theorem grow_of_lt (w : BitVec 32) (h0 : 0 ≤ w.toInt) (h1 : w.toInt < 10000) : grow w = w.toNat := by
  unfold grow nrm
  rw [if_neg (by omega)]
  have := toInt_eq_toNat_of_nonneg w h0
  omega

/-- A word that reads, signed, as the number `i` below 10000 gathers row `i`. -/
theorem grow_of_toInt (w : BitVec 32) (i : ℕ) (hi : i < 10000) (h : w.toInt = (i : ℤ)) : grow w = i := by
  rw [grow_of_lt w (by omega) (by omega), toNat_of_toInt w i h]

/-! ## Dividing by a real that is not zero -/

/-- A value times the reciprocal of a nonzero real is the value divided by it, at the infinities too. -/
theorem mul_div_one (x : EReal) (y : ℝ) (hy : y ≠ 0) : x * Ideal.div 1 (y : EReal) = Ideal.div x (y : EReal) := by
  rw [Ideal.div_coe hy, Ideal.div_coe hy, one_mul]

/-- A sum of ones over a finite set is the coercion of its number of elements. -/
theorem sum_ones (s : Finset ℕ) : (∑ _e ∈ s, (1 : EReal)) = ((s.card : ℝ) : EReal) := by
  rw [Finset.sum_const, ← EReal.coe_one, ← EReal.coe_nsmul, nsmul_eq_mul, mul_one]

/-- The clamped degree is the coercion of a real. -/
theorem rDen_coe (row : ℕ → BitVec 32) (n : ℕ) : rDen row n = ((max ((into row n).card : ℝ) 1 : ℝ) : EReal) := by
  unfold rDen
  rw [zero_add, sum_ones, ← EReal.coe_one]
  exact (EReal.coe_strictMono.monotone.map_max).symm

/-- That real is at least 1, so not zero. -/
theorem rDen_ne (row : ℕ → BitVec 32) (n : ℕ) : max ((into row n).card : ℝ) 1 ≠ 0 := by
  have h : (1 : ℝ) ≤ max ((into row n).card : ℝ) 1 := le_max_right _ _
  intro h0
  rw [h0] at h
  exact absurd h (by norm_num)

/-- A value times the reciprocal of the clamped degree is the value divided by the clamped degree. -/
theorem mul_rdeg (row : ℕ → BitVec 32) (n : ℕ) (x : EReal) :
    x * Ideal.div 1 (rDen row n) = Ideal.div x (rDen row n) := by
  rw [rDen_coe]
  exact mul_div_one x _ (rDen_ne row n)

/-! ## The square as a power of the absolute value -/

/-- The second power of `max x (−x)` is `x · x`, for every extended real: both are `⊤` at the infinities, and on a
    real the real power with exponent 2 is the square, which does not see the sign. -/
theorem pow_abs_two (x : EReal) : Ideal.pow (max x (-x)) 2 = x * x := by
  have h2 : (2 : EReal) = ((2 : ℝ) : EReal) := by norm_cast
  induction x using EReal.rec with
  | bot =>
    rw [EReal.neg_bot, max_eq_right bot_le, Ideal.pow_top, if_pos (by rw [h2]; exact EReal.coe_pos.2 two_pos),
      EReal.bot_mul_bot]
  | top =>
    rw [EReal.neg_top, max_eq_left bot_le, Ideal.pow_top, if_pos (by rw [h2]; exact EReal.coe_pos.2 two_pos),
      EReal.top_mul_top]
  | coe r =>
    rw [← EReal.coe_neg, ← EReal.coe_strictMono.monotone.map_max, ← abs_eq_max_neg, h2, Ideal.pow_coe_coe,
      ← EReal.coe_mul]
    congr 1
    show |r| ^ (2 : ℝ) = r * r
    rw [Real.rpow_two, sq_abs, sq]

/-! ## The two slabs added are one sum over all edges -/

theorem nbr_slabs (row col : ℕ → BitVec 32) (T : ℕ → ℕ → EReal) (n d : ℕ) :
    nbrPart row col T 0 n d + nbrPart row col T 1 n d
      = ∑ e ∈ Finset.range 160000, oh (row e) n * pick T (col e) d := by
  unfold nbrPart nbrStep
  exact sum_edges (fun e => oh (row e) n * pick T (col e) d)

theorem deg_slabs (row : ℕ → BitVec 32) (n : ℕ) :
    degPart row 0 n + degPart row 1 n = ∑ e ∈ Finset.range 160000, oh (row e) n := by
  unfold degPart degStep
  exact sum_edges (fun e => oh (row e) n)

theorem dif_slabs (row col : ℕ → BitVec 32) (H : ℕ → ℕ → EReal) (n d : ℕ) :
    difPart row col H 0 n d + difPart row col H 1 n d
      = ∑ e ∈ Finset.range 160000, oh (row e) n *
          ((pick H (row e) d - pick H (col e) d) * (pick H (row e) d - pick H (col e) d)) := by
  unfold difPart difStep
  exact sum_edges (fun e => oh (row e) n *
          ((pick H (row e) d - pick H (col e) d) * (pick H (row e) d - pick H (col e) d)))

/-! ## Gathering by a word in range -/

/-- The reference's row is always one of the 10000. -/
theorem grow_lt (w : BitVec 32) : grow w < 10000 := by
  unfold grow
  omega

/-- A word that reads, signed, as a number below 10000 picks the row the reference gathers. -/
theorem pick_of_word (T : ℕ → ℕ → EReal) (w : BitVec 32) (d : ℕ) (h0 : 0 ≤ w.toInt) (h1 : w.toInt < 10000) :
    pick T w d = T (grow w) d := by
  rw [grow_of_lt w h0 h1]
  apply pick_of_lt
  have := toInt_eq_toNat_of_nonneg w h0
  omega

/-! ## Region by region -/

/-- The summed neighbour slabs of a node: the sum, over the edges into it, of the source's feature. -/
theorem nbr_sum (row col : ℕ → BitVec 32) (X : ℕ → ℕ → EReal) (n d : ℕ) (hn : n < 2147483648)
    (hcol : ∀ e, e < 160000 → 0 ≤ (col e).toInt ∧ (col e).toInt < 10000) :
    nbrPart row col X 0 n d + nbrPart row col X 1 n d = ∑ e ∈ into row n, X (grow (col e)) d := by
  rw [nbr_slabs, sum_oh_mul row n hn]
  apply Finset.sum_congr rfl
  intro e he
  have he' : e < 160000 := Finset.mem_range.1 (Finset.mem_filter.1 he).1
  obtain ⟨h0, h1⟩ := hcol e he'
  exact pick_of_word X (col e) d h0 h1

/-- The summed degree slabs of a node, clamped: the reference's clamped degree. -/
theorem deg_sum (row : ℕ → BitVec 32) (n : ℕ) (hn : n < 2147483648) :
    max (degPart row 0 n + degPart row 1 n) 1 = rDen row n := by
  unfold rDen
  rw [deg_slabs, sum_oh row n hn, zero_add]

/-- The hidden features of a node, from slabs that are the partial sums at that node. -/
theorem hid_eq (row col : ℕ → BitVec 32) (X Wr Wn : ℕ → ℕ → EReal) (b : ℕ → EReal) (S P : ℕ → ℕ → ℕ → EReal)
    (n d : ℕ) (hn : n < 2147483648)
    (hcol : ∀ e, e < 160000 → 0 ≤ (col e).toInt ∧ (col e).toInt < 10000)
    (hS : ∀ s k, s < 2 → k < 256 → S s n k = nbrPart row col X s n k)
    (hP : ∀ s o, s < 2 → o < 128 → P s n o = degPart row s n) :
    hid S P X Wr Wn b n d = rHid row col X Wr Wn b n d := by
  have hmean : ∀ k ∈ Finset.range 256,
      ((S 0 n k + S 1 n k) * rdeg P n (k % 128)) * Wn k d
        = Ideal.div (0 + ∑ e ∈ into row n, X (grow (col e)) k) (rDen row n) * Wn k d := by
    intro k hk
    have hk' : k < 256 := Finset.mem_range.1 hk
    have hm : k % 128 < 128 := Nat.mod_lt _ (by norm_num)
    unfold rdeg
    rw [hS 0 k (by norm_num) hk', hS 1 k (by norm_num) hk', nbr_sum row col X n k hn hcol,
      hP 0 _ (by norm_num) hm, hP 1 _ (by norm_num) hm, deg_sum row n hn, mul_rdeg, zero_add]
  unfold hid rHid
  rw [Finset.sum_congr rfl hmean]

/-- The summed slabs of squared differences of a node: the reference's sum of second powers of absolute differences. -/
theorem dif_sum (row col : ℕ → BitVec 32) (H R : ℕ → ℕ → EReal) (i d : ℕ) (hi : i < 10000)
    (hcol : ∀ e, e < 160000 → 0 ≤ (col e).toInt ∧ (col e).toInt < 10000)
    (hH : ∀ m, m < 10000 → H m d = R m d) :
    difPart row col H 0 i d + difPart row col H 1 i d
      = ∑ e ∈ into row i, Ideal.pow (max (R (grow (row e)) d - R (grow (col e)) d)
                                        (-(R (grow (row e)) d - R (grow (col e)) d))) 2 := by
  rw [dif_slabs, sum_oh_mul row i (by omega)]
  apply Finset.sum_congr rfl
  intro e he
  have he' : e < 160000 := Finset.mem_range.1 (Finset.mem_filter.1 he).1
  have hrow : (row e).toInt = (i : ℤ) := (Finset.mem_filter.1 he).2
  obtain ⟨h0, h1⟩ := hcol e he'
  rw [pick_of_word H (row e) d (by omega) (by omega), pick_of_word H (col e) d h0 h1, pow_abs_two,
    hH _ (grow_lt (row e)), hH _ (grow_lt (col e))]

/-- The gate of a node, from slabs that are the partial sums of squared differences of the reference's hidden features. -/
theorem gate_eq (row col : ℕ → BitVec 32) (X Wr Wn : ℕ → ℕ → EReal) (b : ℕ → EReal) (H : ℕ → ℕ → EReal)
    (D : ℕ → ℕ → ℕ → EReal) (Rd : ℕ → ℕ → EReal) (i d : ℕ) (hi : i < 10000)
    (hcol : ∀ e, e < 160000 → 0 ≤ (col e).toInt ∧ (col e).toInt < 10000)
    (hH : ∀ m, m < 10000 → H m d = rHid row col X Wr Wn b m d)
    (hD : ∀ s, s < 2 → D s i d = difPart row col H s i d)
    (hR : Rd i (d % 128) = Ideal.div 1 (rDen row i)) :
    gate D Rd i d = rOut row col X Wr Wn b i d := by
  unfold gate rOut
  rw [hD 0 (by norm_num), hD 1 (by norm_num), hR,
    dif_sum row col H (rHid row col X Wr Wn b) i d hi hcol hH, mul_rdeg, zero_add]

/-! ## The vectors at natural coordinates -/

/-- A row of the edge index, made a column and read by edge number, is that row read by edge number. -/
theorem edgeW_edgeCol (r : Fin 2) (ei : S2x160000.Idx → BitVec 32) : edgeW (edgeCol r ei) = edgeRow r.val ei := by
  funext e
  unfold edgeW edgeRow wrd
  by_cases he : e < 160000
  · rw [dif_pos ⟨he, by norm_num⟩, dif_pos ⟨r.isLt, he⟩]
    rfl
  · rw [dif_neg (fun h => he h.1), dif_neg (fun h => he h.2)]

/-- The padded features at natural coordinates are the features at natural coordinates: zero from row 10000 on. -/
theorem acc2_padVec (X : S10000x256.Idx → EReal) : acc2 (padVec X) = acc2 X := by
  funext i j
  by_cases h : i < 10240 ∧ j < 256
  · have h1 : acc2 (padVec X) i j = padVec X (ix2 ⟨i, h.1⟩ ⟨j, h.2⟩) := by
      unfold acc2
      rw [dif_pos h]
    rw [h1]
    rfl
  · have h1 : acc2 (padVec X) i j = 0 := by
      unfold acc2
      rw [dif_neg h]
    have h2 : acc2 X i j = 0 := by
      unfold acc2
      rw [dif_neg (by omega)]
    rw [h1, h2]

theorem acc3_nbrVec (rowv colv : S160000x1.Idx → BitVec 32) (xp : S10240x256.Idx → EReal) (s n k : ℕ)
    (hs : s < 2) (hn : n < 10240) (hk : k < 256) :
    acc3 (nbrVec rowv colv xp) s n k = nbrPart (edgeW rowv) (edgeW colv) (acc2 xp) s n k := by
  have h : s < 2 ∧ n < 10240 ∧ k < 256 := ⟨hs, hn, hk⟩
  unfold acc3
  rw [dif_pos h]
  rfl

theorem acc3_degVec (rowv : S160000x1.Idx → BitVec 32) (s n o : ℕ) (hs : s < 2) (hn : n < 10240) (ho : o < 128) :
    acc3 (degVec rowv) s n o = degPart (edgeW rowv) s n := by
  have h : s < 2 ∧ n < 10240 ∧ o < 128 := ⟨hs, hn, ho⟩
  unfold acc3
  rw [dif_pos h]
  rfl

theorem acc2_hidVec (S : S2x10240x256.Idx → EReal) (P : S2x10240x128.Idx → EReal) (xp : S10240x256.Idx → EReal)
    (wr wn : S256x256.Idx → EReal) (b : S256.Idx → EReal) (n d : ℕ) (hn : n < 10240) (hd : d < 256) :
    acc2 (hidVec S P xp wr wn b) n d = hid (acc3 S) (acc3 P) (acc2 xp) (acc2 wr) (acc2 wn) (acc1 b) n d := by
  have h : n < 10240 ∧ d < 256 := ⟨hn, hd⟩
  have h1 : acc2 (hidVec S P xp wr wn b) n d = hidVec S P xp wr wn b (ix2 ⟨n, h.1⟩ ⟨d, h.2⟩) := by
    unfold acc2
    rw [dif_pos h]
  rw [h1]
  rfl

theorem acc2_rdegVec (P : S2x10240x128.Idx → EReal) (n o : ℕ) (hn : n < 10240) (ho : o < 128) :
    acc2 (rdegVec P) n o = rdeg (acc3 P) n o := by
  have h : n < 10240 ∧ o < 128 := ⟨hn, ho⟩
  unfold acc2
  rw [dif_pos h]
  rfl

theorem acc3_difVec (rowv colv : S160000x1.Idx → BitVec 32) (H : S10240x256.Idx → EReal) (s n k : ℕ)
    (hs : s < 2) (hn : n < 10240) (hk : k < 256) :
    acc3 (difVec rowv colv H) s n k = difPart (edgeW rowv) (edgeW colv) (acc2 H) s n k := by
  have h : s < 2 ∧ n < 10240 ∧ k < 256 := ⟨hs, hn, hk⟩
  have h1 : acc3 (difVec rowv colv H) s n k = difVec rowv colv H (ix3 ⟨s, h.1⟩ ⟨n, h.2.1⟩ ⟨k, h.2.2⟩) := by
    unfold acc3
    rw [dif_pos h]
  rw [h1]
  rfl

end Bridge

/-- With every source word a node number, the kernel's result and the reference's are one function of the arguments. -/
theorem bridge (X : S10000x256.Idx → EReal) (ei : S2x160000.Idx → BitVec 32) (wr wn : S256x256.Idx → EReal)
    (b : S256.Idx → EReal)
    (hcol : ∀ e, e < 160000 → 0 ≤ (edgeRow 1 ei e).toInt ∧ (edgeRow 1 ei e).toInt < 10000) :
    kernelVec X ei wr wn b = refVec X ei wr wn b := by
  funext j
  have hi : (j 0).val < 10000 := (j 0).isLt
  have hd : (j 1).val < 256 := (j 1).isLt
  have hrow : edgeW (edgeCol 0 ei) = edgeRow 0 ei := Bridge.edgeW_edgeCol 0 ei
  have hcolw : edgeW (edgeCol 1 ei) = edgeRow 1 ei := Bridge.edgeW_edgeCol 1 ei
  have hxp : acc2 (padVec X) = acc2 X := Bridge.acc2_padVec X
  -- the hidden features of a node below 10000 are the reference's
  have hH : ∀ m, m < 10000 →
      acc2 (hidVec (nbrVec (edgeCol 0 ei) (edgeCol 1 ei) (padVec X)) (degVec (edgeCol 0 ei)) (padVec X) wr wn b)
          m (j 1).val
        = rHid (edgeRow 0 ei) (edgeRow 1 ei) (acc2 X) (acc2 wr) (acc2 wn) (acc1 b) m (j 1).val := by
    intro m hm
    rw [Bridge.acc2_hidVec _ _ _ _ _ _ m (j 1).val (by omega) hd, hxp]
    apply Bridge.hid_eq (edgeRow 0 ei) (edgeRow 1 ei) (acc2 X) (acc2 wr) (acc2 wn) (acc1 b) _ _ m (j 1).val
      (by omega) hcol
    · intro s k hs hk
      rw [Bridge.acc3_nbrVec _ _ _ s m k hs (by omega) hk, hrow, hcolw, hxp]
    · intro s o hs ho
      rw [Bridge.acc3_degVec _ s m o hs (by omega) ho, hrow]
  -- the gate of such a node is the reference's result
  show gate
      (acc3 (difVec (edgeCol 0 ei) (edgeCol 1 ei)
        (hidVec (nbrVec (edgeCol 0 ei) (edgeCol 1 ei) (padVec X)) (degVec (edgeCol 0 ei)) (padVec X) wr wn b)))
      (acc2 (rdegVec (degVec (edgeCol 0 ei)))) (j 0).val (j 1).val
    = rOut (edgeRow 0 ei) (edgeRow 1 ei) (acc2 X) (acc2 wr) (acc2 wn) (acc1 b) (j 0).val (j 1).val
  apply Bridge.gate_eq (edgeRow 0 ei) (edgeRow 1 ei) (acc2 X) (acc2 wr) (acc2 wn) (acc1 b)
    (acc2 (hidVec (nbrVec (edgeCol 0 ei) (edgeCol 1 ei) (padVec X)) (degVec (edgeCol 0 ei)) (padVec X) wr wn b))
    _ _ (j 0).val (j 1).val hi hcol hH
  · intro s hs
    rw [Bridge.acc3_difVec _ _ _ s (j 0).val (j 1).val hs (by omega) hd, hrow, hcolw]
  · have hm : (j 1).val % 128 < 128 := Nat.mod_lt _ (by norm_num)
    rw [Bridge.acc2_rdegVec _ (j 0).val _ (by omega) hm]
    unfold rdeg
    rw [Bridge.acc3_degVec _ 0 (j 0).val _ (by norm_num) (by omega) hm,
      Bridge.acc3_degVec _ 1 (j 0).val _ (by norm_num) (by omega) hm, hrow,
      Bridge.deg_sum (edgeRow 0 ei) (j 0).val (by omega)]

end Cert.Spec

end
-- ==== Proof.PreDecode.lean ====
import proofs.«406477_j5858335391841_3_alg».proof.Pre_finite_inputs
import proofs.«406477_j5858335391841_3_alg».proof.Proof.Spec
import Idealize.ShloMosaic.PureOps.Ideal.Laws
import Idealize.ShloMosaic.Lib.ReduceAll
import Idealize.ShloMosaic.Lib.StableHlo.Predicate

noncomputable section

open Idealize.ShloMosaic Idealize.ShloMosaic.ValueIdx

namespace Cert.PreDecode

/-- The scalar shape has exactly one index, so a reduction over all axes has one result. -/
instance : Subsingleton Cert.Pre_finite_inputs.S_.Idx := ⟨fun a b => funext fun d => d.elim0⟩

/-- The slice [1:2, 0:160000] of the edge index read at (0, e) is the edge index at (1, e): the offsets (1, 0) are
    added coordinate by coordinate. -/
theorem slice_at [Cert.Pre_finite_inputs.Facts] (x1 : Cert.Spec.S2x160000.Idx → BitVec 32) (e : Fin 160000) :
    extractStridedSlice Cert.Pre_finite_inputs.S1x160000 ![1, 0] x1
        Cert.Pre_finite_inputs.Facts.slices_S2x160000_S1x160000_1_0 (ix2 (0 : Fin 1) e)
      = x1 (ix2 (⟨1, by decide⟩ : Fin 2) e) := by
  unfold extractStridedSlice
  refine congrArg x1 (funext fun a => ?_)
  match a with
  | ⟨0, _⟩ => exact Fin.ext rfl
  | ⟨1, _⟩ => exact Fin.ext (by show 0 + e.val = e.val; omega)

/-- Row 1 of the edge index at a natural edge number below the extent is the array's entry (1, e). -/
theorem edgeRow_one (x1 : Cert.Spec.S2x160000.Idx → BitVec 32) (e : ℕ) (he : e < 160000) :
    Cert.Spec.edgeRow 1 x1 e = x1 (ix2 (⟨1, by decide⟩ : Fin 2) (⟨e, he⟩ : Fin 160000)) := by
  unfold Cert.Spec.edgeRow Cert.Spec.wrd
  rw [dif_pos ⟨by decide, he⟩]

/-- The precondition's last conjunct, decoded: every source word, read signed, is a node number. -/
theorem col_range [Cert.Pre_finite_inputs.Facts]
    (x0 : Cert.Spec.S10000x256.Idx → EReal) (x1 : Cert.Spec.S2x160000.Idx → BitVec 32)
    (x2 x3 : Cert.Spec.S256x256.Idx → EReal) (x4 : Cert.Spec.S256.Idx → EReal)
    (h : Cert.Pre_finite_inputs.fn (F := Ideal) x0 x1 x2 x3 x4 = fun _ => 1#1) :
    ∀ e, e < 160000 → 0 ≤ (Cert.Spec.edgeRow 1 x1 e).toInt ∧ (Cert.Spec.edgeRow 1 x1 e).toInt < 10000 := by
  intro e he
  -- the predicate at its one index is a conjunction of bits; the last bit is the conjunction over all (0, e) of
  -- "the word at (1, e) is at least 0 and below 10000", both compared signed
  have h0 := congrFun h ix0
  dsimp only [Cert.Pre_finite_inputs.fn, Cert.Pre_finite_inputs.fn_part1] at h0
  have h26 := (IntOp.andi_eq_one.1 h0).2
  have h25 := Host.reduce_andi_all _ _ _ _ _ h26 (ix2 (0 : Fin 1) (⟨e, he⟩ : Fin 160000))
  obtain ⟨hge, hlt⟩ := IntOp.andi_eq_one.1 h25
  -- each compare is against a scalar broadcast, which reads the scalar at every index
  have hge' : (0#32 : BitVec 32).toInt ≤ (x1 (ix2 (⟨1, by decide⟩ : Fin 2) (⟨e, he⟩ : Fin 160000))).toInt := by
    rw [← slice_at x1 ⟨e, he⟩]; exact IntOp.cmpi_sge.1 hge
  have hlt' : (x1 (ix2 (⟨1, by decide⟩ : Fin 2) (⟨e, he⟩ : Fin 160000))).toInt < (10000#32 : BitVec 32).toInt := by
    rw [← slice_at x1 ⟨e, he⟩]; exact IntOp.cmpi_slt.1 hlt
  rw [show (0#32 : BitVec 32).toInt = 0 from by decide] at hge'
  rw [show (10000#32 : BitVec 32).toInt = 10000 from by decide] at hlt'
  rw [edgeRow_one x1 e he]
  exact ⟨hge', hlt'⟩

end Cert.PreDecode

end
-- ==== Proof.lean ====
/-
  The certificate of a graph-convolution kernel against its jnp reference, over the extended reals.

  The reference: deg = segment_sum(1, row), denom = max(deg, 1); H = relu(X·W_root + (segment_sum(X[col], row) / denom)·W_neigh + b);
  result = tanh(segment_sum(|H[row] − H[col]| ** 2, row) / denom). The kernel does the same in four grid regions, gathering
  and scattering by one-hot matrix products over a feature table padded to 10240 rows: partial neighbour sums and
  degrees in two slabs of 125 grid steps of 640 edges each; the slabs added, the reciprocal of the clamped degree, the
  hidden features; partial sums of squared differences of gathered hidden features; the slabs added, times the reciprocal
  degree, tanh; the first 10000 rows.

  The two agree when every SOURCE word is a node number (0 ≤ col < 10000): a one-hot product over the padded table reads
  zero where the reference's gather, which wraps a negative index and clamps, reads a row. A TARGET word outside the
  node range needs nothing: the reference's scatter-add drops such an edge, and the kernel's one-hot either matches no
  node or lands the edge on a padded row that the final slice removes. No finiteness is used: a one-hot weight times
  any extended real is that value or zero, sums are only regrouped, x·(1/y) is x/y for a real y ≥ 1, and
  |x| ** 2 = x·x holds at the infinities as well.

  The modules: Spec (the mathematics of every array, no program), OneHot (one-hot sums and regrouping), Bridge (the
  kernel's function is the reference's), Reg0 … Reg3 (each region's result array as Spec's function of its input
  arrays, read off the frame), HostIO (the host operations around the regions), Chain (the regions threaded through the
  segment boundaries), RunKernel (the kernel program's run with its result buffer named), RefValue (the reference's
  stages read at an index), PreDecode (the precondition's index-range conjunct).
-/
import proofs.«406477_j5858335391841_3_alg».proof.Defs
import proofs.«406477_j5858335391841_3_alg».proof.Proof.Gen.Kernel
import proofs.«406477_j5858335391841_3_alg».proof.Proof.Gen.Kernel.Skeleton
import proofs.«406477_j5858335391841_3_alg».proof.Proof.Gen.Kernel.Launch
import proofs.«406477_j5858335391841_3_alg».proof.Proof.Gen.Kernel.Points
import proofs.«406477_j5858335391841_3_alg».proof.Proof.Gen.Kernel.Frame
import proofs.«406477_j5858335391841_3_alg».proof.Proof.Gen.KernelIdeal
import proofs.«406477_j5858335391841_3_alg».proof.Proof.Gen.KernelIdeal.Skeleton
import proofs.«406477_j5858335391841_3_alg».proof.Proof.Gen.KernelIdeal.Launch
import proofs.«406477_j5858335391841_3_alg».proof.Proof.Gen.KernelIdeal.Points
import proofs.«406477_j5858335391841_3_alg».proof.Proof.Gen.KernelIdeal.Frame
import proofs.«406477_j5858335391841_3_alg».proof.Proof.Gen.ReferenceIdeal
import proofs.«406477_j5858335391841_3_alg».proof.Proof.Gen.Pre_finite_inputs
import proofs.«406477_j5858335391841_3_alg».proof.Proof.Gen.ReferenceIdeal.Run
import proofs.«406477_j5858335391841_3_alg».proof.Proof.Gen.ReferenceIdeal.Read
import proofs.«406477_j5858335391841_3_alg».proof.Proof.RunKernel
import proofs.«406477_j5858335391841_3_alg».proof.Proof.Chain
import proofs.«406477_j5858335391841_3_alg».proof.Proof.RefValue
import proofs.«406477_j5858335391841_3_alg».proof.Proof.Bridge
import proofs.«406477_j5858335391841_3_alg».proof.Proof.PreDecode
import Idealize.ShloMosaic.Adequacy
import Idealize.ShloMosaic.Init

noncomputable section

namespace Cert.Proof

open Idealize.ShloMosaic Idealize.SL.Sem

/-- The three programs run, nothing faulting, and leave their arguments as launched. -/
theorem frame_k : @Cert.frame_Kernel Cert.Kernel.Gen.facts Cert.Pre_finite_inputs.Gen.facts :=
  fun m ρ _ => Cert.Kernel.Gen.frame m ρ
theorem frame_ki : @Cert.frame_KernelIdeal Cert.KernelIdeal.Gen.facts Cert.Pre_finite_inputs.Gen.facts :=
  fun m ρ _ => Cert.KernelIdeal.Gen.frame m ρ
theorem frame_ri : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- At the ideal instance both programs end with the kernel function of the arguments in their result buffers: the
    kernel program by its run and the chain through its regions, the reference by its run, its stages read at an
    index, and the bridge under the precondition's range of the source words. -/
theorem algebraic : @Cert.algebraic_KernelIdeal_ReferenceIdeal Cert.KernelIdeal.Gen.facts Cert.ReferenceIdeal.Gen.facts
    Cert.Pre_finite_inputs.Gen.facts := by
  intro m ρ m' ρ' hpre hagree
  refine ⟨fun c => Cert.Spec.kernelVec (Cert.KernelIdeal.Chain.aX m c) (Cert.KernelIdeal.Chain.aE m c)
    (Cert.KernelIdeal.Chain.aWr m c) (Cert.KernelIdeal.Chain.aWn m c) (Cert.KernelIdeal.Chain.aB m c), ?_, ?_⟩
  · exact (θ_run Cert.KernelIdeal.defs _ _).mono
      (fun _ h c => ⟨(h c).1.trans (Cert.KernelIdeal.Chain.result_eq m ρ c), (h c).2⟩)
      (Cert.KernelIdeal.RunV.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v53_eq, Cert.ReferenceIdeal.RefValue.ref_eq,
      (hagree c).1, (hagree c).2.1, (hagree c).2.2.1, (hagree c).2.2.2.1, (hagree c).2.2.2.2]
    exact (Cert.Spec.bridge _ _ _ _ _
      (@Cert.PreDecode.col_range Cert.Pre_finite_inputs.Gen.facts _ _ _ _ _ (hpre c))).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
